-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S500000 .f32) (main_arg1 : FVec F S2000000 .f32) (main_arg2 : IVec S2000000 32) (main_arg3 : IVec S2000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S500000 : Shape := ⟨1, ![500000]⟩
abbrev S2000000 : Shape := ⟨1, ![2000000]⟩
abbrev S_ : Shape := ⟨0, ![]⟩
abbrev S2000000x1 : Shape := ⟨2, ![2000000, 1]⟩
abbrev S2000000x42 : Shape := ⟨2, ![2000000, 42]⟩
abbrev S3200x1 : Shape := ⟨2, ![3200, 1]⟩
abbrev S3200x42 : Shape := ⟨2, ![3200, 42]⟩
abbrev S3200x6 : Shape := ⟨2, ![3200, 6]⟩

abbrev nBuf : Space → Nat
  | .hbm => 16
  | .vmem => 6
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000x1, .i32⟩
  | .hbm, ⟨12, _⟩ => ⟨S2000000, .f32⟩
  | .hbm, ⟨13, _⟩ => ⟨S2000000x1, .f32⟩
  | .hbm, ⟨14, _⟩ => ⟨S2000000x1, .f32⟩
  | .hbm, ⟨15, _⟩ => ⟨S2000000x42, .f32⟩
  | .local _ .vmem, ⟨0, _⟩ => ⟨S3200x1, .f32⟩
  | .local _ .vmem, ⟨1, _⟩ => ⟨S3200x1, .f32⟩
  | .local _ .vmem, ⟨2, _⟩ => ⟨S3200x1, .f32⟩
  | .local _ .vmem, ⟨3, _⟩ => ⟨S3200x1, .f32⟩
  | .local _ .vmem, ⟨4, _⟩ => ⟨S3200x42, .f32⟩
  | .local _ .vmem, ⟨5, _⟩ => ⟨S3200x42, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x42 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  concatenates_S3200x1_S3200x1_S3200x1_S3200x1_S3200x1_S3200x1_S3200x6_d1 : Shape.Concatenates [S3200x1, S3200x1, S3200x1, S3200x1, S3200x1, S3200x1] S3200x6 1
  broadcasts_S3200x1_S3200x6 : S3200x1.Broadcasts S3200x6
  inb_S3200x42_S3200x6_0_0 : ∀ a, (![0, 0] : Fin 2 → Nat) a + S3200x6.size a ≤ S3200x42.size a
  h_S3200x6 : 0 < S3200x6.numel
  inb_S3200x42_S3200x6_0_6 : ∀ a, (![0, 6] : Fin 2 → Nat) a + S3200x6.size a ≤ S3200x42.size a
  inb_S3200x42_S3200x6_0_12 : ∀ a, (![0, 12] : Fin 2 → Nat) a + S3200x6.size a ≤ S3200x42.size a
  inb_S3200x42_S3200x6_0_18 : ∀ a, (![0, 18] : Fin 2 → Nat) a + S3200x6.size a ≤ S3200x42.size a
  inb_S3200x42_S3200x6_0_24 : ∀ a, (![0, 24] : Fin 2 → Nat) a + S3200x6.size a ≤ S3200x42.size a
  inb_S3200x42_S3200x6_0_30 : ∀ a, (![0, 30] : Fin 2 → Nat) a + S3200x6.size a ≤ S3200x42.size a
  inb_S3200x42_S3200x6_0_36 : ∀ a, (![0, 36] : Fin 2 → Nat) a + S3200x6.size a ≤ S3200x42.size a
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x1.size a ≤ S2000000x1.size a
  hwx0_0 : ∀ i : grid0.Coords, EltTy.bits .f32 = 32 ∨ (Rect.block (s := S2000000x1) S3200x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1.size a ≤ S2000000x1.size a
  hwx0_1 : ∀ i : grid0.Coords, EltTy.bits .f32 = 32 ∨ (Rect.block (s := S2000000x1) S3200x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x42.size a ≤ S2000000x42.size a
  hwx0_2 : ∀ i : grid0.Coords, EltTy.bits .f32 = 32 ∨ (Rect.block (s := S2000000x42) S3200x42.size (cc0_transform_2 i) (hinb0_2 i)).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpec (Memref.whole main_v7) S3200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3200x42.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S7x6 : Shape := ⟨2, ![7, 6]⟩
abbrev S7 : Shape := ⟨1, ![7]⟩
abbrev S_ : Shape := ⟨0, ![]⟩
abbrev S1x6 : Shape := ⟨2, ![1, 6]⟩
abbrev S6 : Shape := ⟨1, ![6]⟩
abbrev S500000x1 : Shape := ⟨2, ![500000, 1]⟩
abbrev S500000x6 : Shape := ⟨2, ![500000, 6]⟩
abbrev S500000x1x6 : Shape := ⟨3, ![500000, 1, 6]⟩
abbrev S500000x7x6 : Shape := ⟨3, ![500000, 7, 6]⟩
abbrev S500000x1x1 : Shape := ⟨3, ![500000, 1, 1]⟩
abbrev S1 : Shape := ⟨1, ![1]⟩
abbrev S2000000x1 : Shape := ⟨2, ![2000000, 1]⟩
abbrev S2000000x7 : Shape := ⟨2, ![2000000, 7]⟩
abbrev S2000000x7x6 : Shape := ⟨3, ![2000000, 7, 6]⟩
abbrev S2000000x7x1 : Shape := ⟨3, ![2000000, 7, 1]⟩
abbrev S2000000x42 : Shape := ⟨2, ![2000000, 42]⟩

abbrev nBuf : Space → Nat
  | .hbm => 371
  | .vmem => 0
  | .smem => 0
  | _ => 0

abbrev hbmTy0_0 (i : Nat) : BufTy := match i % 128 with
  | 0 => ⟨S500000, .f32⟩
  | 1 => ⟨S2000000, .f32⟩
  | 2 => ⟨S2000000, .i32⟩
  | 3 => ⟨S2000000, .i32⟩
  | 4 => ⟨S7x6, .f32⟩
  | 5 => ⟨S7x6, .f32⟩
  | 6 => ⟨S7, .f32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S500000, .f32⟩
  | 14 => ⟨S500000, .f32⟩
  | 15 => ⟨S500000, .f32⟩
  | 16 => ⟨S_, .f32⟩
  | 17 => ⟨S500000, .f32⟩
  | 18 => ⟨S500000, .f32⟩
  | 19 => ⟨S500000, .f32⟩
  | 20 => ⟨S500000, .f32⟩
  | 21 => ⟨S500000, .f32⟩
  | 22 => ⟨S500000, .f32⟩
  | 23 => ⟨S_, .f32⟩
  | 24 => ⟨S500000, .f32⟩
  | 25 => ⟨S500000, .f32⟩
  | 26 => ⟨S500000, .f32⟩
  | 27 => ⟨S500000, .f32⟩
  | 28 => ⟨S500000, .f32⟩
  | 29 => ⟨S500000, .f32⟩
  | 30 => ⟨S500000, .f32⟩
  | 31 => ⟨S_, .f32⟩
  | 32 => ⟨S500000, .f32⟩
  | 33 => ⟨S500000, .f32⟩
  | 34 => ⟨S500000, .f32⟩
  | 35 => ⟨S_, .f32⟩
  | 36 => ⟨S500000, .f32⟩
  | 37 => ⟨S500000, .i1⟩
  | 38 => ⟨S_, .f32⟩
  | 39 => ⟨S500000, .f32⟩
  | 40 => ⟨S500000, .f32⟩
  | 41 => ⟨S1x6, .f32⟩
  | 42 => ⟨S6, .f32⟩
  | 43 => ⟨S500000x1, .f32⟩
  | 44 => ⟨S1x6, .f32⟩
  | 45 => ⟨S6, .f32⟩
  | 46 => ⟨S1x6, .f32⟩
  | 47 => ⟨S500000x6, .f32⟩
  | 48 => ⟨S500000x6, .f32⟩
  | 49 => ⟨S500000x6, .f32⟩
  | 50 => ⟨S500000x6, .f32⟩
  | 51 => ⟨S500000x6, .f32⟩
  | 52 => ⟨S1x6, .f32⟩
  | 53 => ⟨S500000x6, .f32⟩
  | 54 => ⟨S500000x6, .f32⟩
  | 55 => ⟨S1x6, .f32⟩
  | 56 => ⟨S6, .f32⟩
  | 57 => ⟨S500000x1, .f32⟩
  | 58 => ⟨S1x6, .f32⟩
  | 59 => ⟨S6, .f32⟩
  | 60 => ⟨S1x6, .f32⟩
  | 61 => ⟨S500000x6, .f32⟩
  | 62 => ⟨S500000x6, .f32⟩
  | 63 => ⟨S500000x6, .f32⟩
  | 64 => ⟨S500000x6, .f32⟩
  | 65 => ⟨S500000x6, .f32⟩
  | 66 => ⟨S500000x6, .f32⟩
  | 67 => ⟨S500000x6, .f32⟩
  | 68 => ⟨S500000x6, .f32⟩
  | 69 => ⟨S500000x6, .f32⟩
  | 70 => ⟨S500000x6, .f32⟩
  | 71 => ⟨S500000x6, .f32⟩
  | 72 => ⟨S1x6, .f32⟩
  | 73 => ⟨S500000x6, .f32⟩
  | 74 => ⟨S500000x6, .f32⟩
  | 75 => ⟨S1x6, .f32⟩
  | 76 => ⟨S6, .f32⟩
  | 77 => ⟨S500000x1, .f32⟩
  | 78 => ⟨S1x6, .f32⟩
  | 79 => ⟨S6, .f32⟩
  | 80 => ⟨S1x6, .f32⟩
  | 81 => ⟨S500000x6, .f32⟩
  | 82 => ⟨S500000x6, .f32⟩
  | 83 => ⟨S500000x6, .f32⟩
  | 84 => ⟨S500000x6, .f32⟩
  | 85 => ⟨S500000x6, .f32⟩
  | 86 => ⟨S500000x6, .f32⟩
  | 87 => ⟨S500000x6, .f32⟩
  | 88 => ⟨S500000x6, .f32⟩
  | 89 => ⟨S500000x6, .f32⟩
  | 90 => ⟨S500000x6, .f32⟩
  | 91 => ⟨S500000x6, .f32⟩
  | 92 => ⟨S_, .f32⟩
  | 93 => ⟨S500000x6, .f32⟩
  | 94 => ⟨S500000x6, .f32⟩
  | 95 => ⟨S500000x6, .f32⟩
  | 96 => ⟨S500000x6, .f32⟩
  | 97 => ⟨S1x6, .f32⟩
  | 98 => ⟨S500000x6, .f32⟩
  | 99 => ⟨S500000x6, .f32⟩
  | 100 => ⟨S1x6, .f32⟩
  | 101 => ⟨S6, .f32⟩
  | 102 => ⟨S500000x1, .f32⟩
  | 103 => ⟨S1x6, .f32⟩
  | 104 => ⟨S6, .f32⟩
  | 105 => ⟨S1x6, .f32⟩
  | 106 => ⟨S500000x6, .f32⟩
  | 107 => ⟨S500000x6, .f32⟩
  | 108 => ⟨S500000x6, .f32⟩
  | 109 => ⟨S500000x6, .f32⟩
  | 110 => ⟨S500000x6, .f32⟩
  | 111 => ⟨S500000x6, .f32⟩
  | 112 => ⟨S500000x6, .f32⟩
  | 113 => ⟨S500000x6, .f32⟩
  | 114 => ⟨S500000x6, .f32⟩
  | 115 => ⟨S500000x6, .f32⟩
  | 116 => ⟨S500000x6, .f32⟩
  | 117 => ⟨S_, .f32⟩
  | 118 => ⟨S500000x6, .f32⟩
  | 119 => ⟨S500000x6, .f32⟩
  | 120 => ⟨S500000x6, .f32⟩
  | 121 => ⟨S500000x6, .f32⟩
  | 122 => ⟨S_, .f32⟩
  | 123 => ⟨S500000x6, .f32⟩
  | 124 => ⟨S500000x6, .f32⟩
  | 125 => ⟨S500000x6, .f32⟩
  | 126 => ⟨S500000x6, .f32⟩
  | 127 => ⟨S1x6, .f32⟩
  | _ => ⟨S500000, .f32⟩

abbrev hbmTy0_1 (i : Nat) : BufTy := match i % 128 with
  | 0 => ⟨S500000x6, .f32⟩
  | 1 => ⟨S500000x6, .f32⟩
  | 2 => ⟨S1x6, .f32⟩
  | 3 => ⟨S6, .f32⟩
  | 4 => ⟨S500000x1, .f32⟩
  | 5 => ⟨S1x6, .f32⟩
  | 6 => ⟨S6, .f32⟩
  | 7 => ⟨S1x6, .f32⟩
  | 8 => ⟨S500000x6, .f32⟩
  | 9 => ⟨S500000x6, .f32⟩
  | 10 => ⟨S500000x6, .f32⟩
  | 11 => ⟨S500000x6, .f32⟩
  | 12 => ⟨S500000x6, .f32⟩
  | 13 => ⟨S500000x6, .f32⟩
  | 14 => ⟨S500000x6, .f32⟩
  | 15 => ⟨S500000x6, .f32⟩
  | 16 => ⟨S500000x6, .f32⟩
  | 17 => ⟨S500000x6, .f32⟩
  | 18 => ⟨S500000x6, .f32⟩
  | 19 => ⟨S_, .f32⟩
  | 20 => ⟨S500000x6, .f32⟩
  | 21 => ⟨S500000x6, .f32⟩
  | 22 => ⟨S500000x6, .f32⟩
  | 23 => ⟨S500000x6, .f32⟩
  | 24 => ⟨S_, .f32⟩
  | 25 => ⟨S500000x6, .f32⟩
  | 26 => ⟨S500000x6, .f32⟩
  | 27 => ⟨S500000x6, .f32⟩
  | 28 => ⟨S500000x6, .f32⟩
  | 29 => ⟨S_, .f32⟩
  | 30 => ⟨S500000x6, .f32⟩
  | 31 => ⟨S500000x6, .f32⟩
  | 32 => ⟨S500000x6, .f32⟩
  | 33 => ⟨S500000x6, .f32⟩
  | 34 => ⟨S1x6, .f32⟩
  | 35 => ⟨S500000x6, .f32⟩
  | 36 => ⟨S500000x6, .f32⟩
  | 37 => ⟨S1x6, .f32⟩
  | 38 => ⟨S6, .f32⟩
  | 39 => ⟨S500000x1, .f32⟩
  | 40 => ⟨S1x6, .f32⟩
  | 41 => ⟨S6, .f32⟩
  | 42 => ⟨S1x6, .f32⟩
  | 43 => ⟨S500000x6, .f32⟩
  | 44 => ⟨S500000x6, .f32⟩
  | 45 => ⟨S500000x6, .f32⟩
  | 46 => ⟨S500000x6, .f32⟩
  | 47 => ⟨S500000x6, .f32⟩
  | 48 => ⟨S500000x6, .f32⟩
  | 49 => ⟨S500000x6, .f32⟩
  | 50 => ⟨S500000x6, .f32⟩
  | 51 => ⟨S500000x6, .f32⟩
  | 52 => ⟨S500000x6, .f32⟩
  | 53 => ⟨S500000x6, .f32⟩
  | 54 => ⟨S_, .f32⟩
  | 55 => ⟨S500000x6, .f32⟩
  | 56 => ⟨S500000x6, .f32⟩
  | 57 => ⟨S500000x6, .f32⟩
  | 58 => ⟨S500000x6, .f32⟩
  | 59 => ⟨S_, .f32⟩
  | 60 => ⟨S500000x6, .f32⟩
  | 61 => ⟨S500000x6, .f32⟩
  | 62 => ⟨S500000x6, .f32⟩
  | 63 => ⟨S500000x6, .f32⟩
  | 64 => ⟨S_, .f32⟩
  | 65 => ⟨S500000x6, .f32⟩
  | 66 => ⟨S500000x6, .f32⟩
  | 67 => ⟨S500000x6, .f32⟩
  | 68 => ⟨S500000x6, .f32⟩
  | 69 => ⟨S_, .f32⟩
  | 70 => ⟨S500000x6, .f32⟩
  | 71 => ⟨S500000x6, .f32⟩
  | 72 => ⟨S500000x6, .f32⟩
  | 73 => ⟨S500000x6, .f32⟩
  | 74 => ⟨S1x6, .f32⟩
  | 75 => ⟨S500000x6, .f32⟩
  | 76 => ⟨S500000x6, .f32⟩
  | 77 => ⟨S1x6, .f32⟩
  | 78 => ⟨S6, .f32⟩
  | 79 => ⟨S500000x1, .f32⟩
  | 80 => ⟨S1x6, .f32⟩
  | 81 => ⟨S6, .f32⟩
  | 82 => ⟨S1x6, .f32⟩
  | 83 => ⟨S500000x6, .f32⟩
  | 84 => ⟨S500000x6, .f32⟩
  | 85 => ⟨S500000x6, .f32⟩
  | 86 => ⟨S500000x6, .f32⟩
  | 87 => ⟨S500000x6, .f32⟩
  | 88 => ⟨S500000x6, .f32⟩
  | 89 => ⟨S500000x6, .f32⟩
  | 90 => ⟨S500000x6, .f32⟩
  | 91 => ⟨S500000x6, .f32⟩
  | 92 => ⟨S500000x6, .f32⟩
  | 93 => ⟨S500000x6, .f32⟩
  | 94 => ⟨S_, .f32⟩
  | 95 => ⟨S500000x6, .f32⟩
  | 96 => ⟨S500000x6, .f32⟩
  | 97 => ⟨S500000x6, .f32⟩
  | 98 => ⟨S500000x6, .f32⟩
  | 99 => ⟨S_, .f32⟩
  | 100 => ⟨S500000x6, .f32⟩
  | 101 => ⟨S500000x6, .f32⟩
  | 102 => ⟨S500000x6, .f32⟩
  | 103 => ⟨S500000x6, .f32⟩
  | 104 => ⟨S_, .f32⟩
  | 105 => ⟨S500000x6, .f32⟩
  | 106 => ⟨S500000x6, .f32⟩
  | 107 => ⟨S500000x6, .f32⟩
  | 108 => ⟨S500000x6, .f32⟩
  | 109 => ⟨S_, .f32⟩
  | 110 => ⟨S500000x6, .f32⟩
  | 111 => ⟨S500000x6, .f32⟩
  | 112 => ⟨S500000x6, .f32⟩
  | 113 => ⟨S500000x6, .f32⟩
  | 114 => ⟨S_, .f32⟩
  | 115 => ⟨S500000x6, .f32⟩
  | 116 => ⟨S500000x6, .f32⟩
  | 117 => ⟨S500000x6, .f32⟩
  | 118 => ⟨S500000x6, .f32⟩
  | 119 => ⟨S1x6, .f32⟩
  | 120 => ⟨S500000x6, .f32⟩
  | 121 => ⟨S500000x6, .f32⟩
  | 122 => ⟨S500000x1x6, .f32⟩
  | 123 => ⟨S500000x1x6, .f32⟩
  | 124 => ⟨S500000x1x6, .f32⟩
  | 125 => ⟨S500000x1x6, .f32⟩
  | 126 => ⟨S500000x1x6, .f32⟩
  | 127 => ⟨S500000x1x6, .f32⟩
  | _ => ⟨S500000, .f32⟩

abbrev hbmTy0_2 (i : Nat) : BufTy := match i % 128 with
  | 0 => ⟨S500000x1x6, .f32⟩
  | 1 => ⟨S500000x7x6, .f32⟩
  | 2 => ⟨S_, .f32⟩
  | 3 => ⟨S500000, .f32⟩
  | 4 => ⟨S500000, .f32⟩
  | 5 => ⟨S500000x1x1, .f32⟩
  | 6 => ⟨S500000x7x6, .f32⟩
  | 7 => ⟨S500000x7x6, .f32⟩
  | 8 => ⟨S2000000, .f32⟩
  | 9 => ⟨S_, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S1, .f32⟩
  | 67 => ⟨S_, .f32⟩
  | 68 => ⟨S2000000, .f32⟩
  | 69 => ⟨S2000000, .f32⟩
  | 70 => ⟨S1, .f32⟩
  | 71 => ⟨S_, .f32⟩
  | 72 => ⟨S2000000, .f32⟩
  | 73 => ⟨S2000000, .f32⟩
  | 74 => ⟨S1, .f32⟩
  | 75 => ⟨S_, .f32⟩
  | 76 => ⟨S2000000, .f32⟩
  | 77 => ⟨S2000000, .f32⟩
  | 78 => ⟨S1, .f32⟩
  | 79 => ⟨S_, .f32⟩
  | 80 => ⟨S2000000, .f32⟩
  | 81 => ⟨S2000000, .f32⟩
  | 82 => ⟨S1, .f32⟩
  | 83 => ⟨S_, .f32⟩
  | 84 => ⟨S2000000, .f32⟩
  | 85 => ⟨S2000000, .f32⟩
  | 86 => ⟨S1, .f32⟩
  | 87 => ⟨S_, .f32⟩
  | 88 => ⟨S2000000, .f32⟩
  | 89 => ⟨S2000000, .f32⟩
  | 90 => ⟨S1, .f32⟩
  | 91 => ⟨S_, .f32⟩
  | 92 => ⟨S2000000, .f32⟩
  | 93 => ⟨S2000000, .f32⟩
  | 94 => ⟨S2000000x1, .f32⟩
  | 95 => ⟨S2000000x1, .f32⟩
  | 96 => ⟨S2000000x1, .f32⟩
  | 97 => ⟨S2000000x1, .f32⟩
  | 98 => ⟨S2000000x1, .f32⟩
  | 99 => ⟨S2000000x1, .f32⟩
  | 100 => ⟨S2000000x1, .f32⟩
  | 101 => ⟨S2000000x7, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x7x6, .f32⟩
  | 111 => ⟨S2000000x7x1, .f32⟩
  | 112 => ⟨S2000000x7x6, .f32⟩
  | 113 => ⟨S2000000x7x6, .f32⟩
  | 114 => ⟨S2000000x42, .f32⟩
  | _ => ⟨S500000, .f32⟩

abbrev hbmTy (i : Nat) : BufTy := match i / 128 with
  | 0 => hbmTy0_0 i
  | 1 => hbmTy0_1 i
  | 2 => hbmTy0_2 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_11 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_12 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_cst_13 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_14 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_cst_15 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_cst_16 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_cst_17 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_cst_18 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_cst_19 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_cst_20 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_cst_21 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_cst_22 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_cst_23 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_cst_24 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_cst_25 : Ref sig .tc := ⟨.hbm, 265, rfl⟩
abbrev main_v235 : Ref sig .tc := ⟨.hbm, 266, rfl⟩
abbrev main_cst_26 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_27 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_cst_28 : Ref sig .tc := ⟨.hbm, 275, rfl⟩
abbrev main_v242 : Ref sig .tc := ⟨.hbm, 276, rfl⟩
abbrev main_v243 : Ref sig .tc := ⟨.hbm, 277, rfl⟩
abbrev main_cst_29 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_cst_30 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_cst_31 : Ref sig .tc := ⟨.hbm, 286, rfl⟩
abbrev main_v250 : Ref sig .tc := ⟨.hbm, 287, rfl⟩
abbrev main_v251 : Ref sig .tc := ⟨.hbm, 288, rfl⟩
abbrev main_cst_32 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_cst_33 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_cst_34 : Ref sig .tc := ⟨.hbm, 297, rfl⟩
abbrev main_v258 : Ref sig .tc := ⟨.hbm, 298, rfl⟩
abbrev main_v259 : Ref sig .tc := ⟨.hbm, 299, rfl⟩
abbrev main_cst_35 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_cst_36 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_cst_37 : Ref sig .tc := ⟨.hbm, 308, rfl⟩
abbrev main_v266 : Ref sig .tc := ⟨.hbm, 309, rfl⟩
abbrev main_v267 : Ref sig .tc := ⟨.hbm, 310, rfl⟩
abbrev main_cst_38 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_cst_39 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_cst_40 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_c : Ref sig .tc := ⟨.hbm, 358, rfl⟩
abbrev main_v312 : Ref sig .tc := ⟨.hbm, 359, rfl⟩
abbrev main_v313 : Ref sig .tc := ⟨.hbm, 360, rfl⟩
abbrev main_c_41 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S7x6_S1x6_0_0 : S7x6.Slices ![0, 0] S1x6
  shapeCasts_S1x6_S6 : S1x6.ShapeCasts S6
  bcast_S500000_S500000x1_0 : S500000.BroadcastsInDim S500000x1 (![0] : Fin 1 → Fin S500000x1.rank)
  bcast_S6_S1x6_1 : S6.BroadcastsInDim S1x6 (![1] : Fin 1 → Fin S1x6.rank)
  bcast_S500000x1_S500000x6_0_1 : S500000x1.BroadcastsInDim S500000x6 (![0, 1] : Fin 2 → Fin S500000x6.rank)
  bcast_S1x6_S500000x6_0_1 : S1x6.BroadcastsInDim S500000x6 (![0, 1] : Fin 2 → Fin S500000x6.rank)
  slices_S7x6_S1x6_1_0 : S7x6.Slices ![1, 0] S1x6
  slices_S7x6_S1x6_2_0 : S7x6.Slices ![2, 0] S1x6
  bcast_S_S500000x6 : S_.BroadcastsInDim S500000x6 (![] : Fin 0 → Fin S500000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S500000x6_S500000x1x6_0_2 : S500000x6.BroadcastsInDim S500000x1x6 (![0, 2] : Fin 2 → Fin S500000x1x6.rank)
  concatenates_S500000x1x6_S500000x1x6_S500000x1x6_S500000x1x6_S500000x1x6_S500000x1x6_S500000x1x6_S500000x7x6_d1 : Shape.Concatenates [S500000x1x6, S500000x1x6, S500000x1x6, S500000x1x6, S500000x1x6, S500000x1x6, S500000x1x6] S500000x7x6 1
  bcast_S500000_S500000x1x1_0 : S500000.BroadcastsInDim S500000x1x1 (![0] : Fin 1 → Fin S500000x1x1.rank)
  bcast_S500000x1x1_S500000x7x6_0_1_2 : S500000x1x1.BroadcastsInDim S500000x7x6 (![0, 1, 2] : Fin 3 → Fin S500000x7x6.rank)
  bcast_S_S2000000 : S_.BroadcastsInDim S2000000 (![] : Fin 0 → Fin S2000000.rank)
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S500000x7x6_S2000000x1_S2000000x7x6_12_0_n_n_0_1_176_wf : GatherDims.WF S500000x7x6 S2000000x1 S2000000x7x6 [1, 2] [0] [] [0] [] 1 ![1, 7, 6]

variable [Facts₀]

def gather_S500000x7x6_S2000000x1_S2000000x7x6_12_0_n_n_0_1_176 : GatherDims S500000x7x6 S2000000x1 S2000000x7x6 where
  offsetDims := [1, 2]
  collapsedSliceDims := [0]
  operandBatchingDims := []
  startIndicesBatchingDims := []
  startIndexMap := [0]
  indexVectorDim := 1
  sliceSizes := ![1, 7, 6]
  wf := gather_S500000x7x6_S2000000x1_S2000000x7x6_12_0_n_n_0_1_176_wf

class Facts : Prop extends Facts₀ where

variable [Facts]
-- ==== Proof.Tables.lean ====

namespace Cert.Basis

/-- The zeros z[l, r] of the spherical Bessel functions as float patterns, entry 6·l + r. -/
def zW : Nat → BitVec 32
  | 0 => 0x40490FDB#32
  | 1 => 0x40C90FDB#32
  | 2 => 0x4116CBE4#32
  | 3 => 0x41490FDB#32
  | 4 => 0x417B53D1#32
  | 5 => 0x4196CBE4#32
  | 6 => 0x408FCA03#32
  | 7 => 0x40F73543#32
  | 8 => 0x412E7748#32
  | 9 => 0x41610F21#32
  | 10 => 0x4189C41B#32
  | 11 => 0x41A2F86E#32
  | 12 => 0x40B86E42#32
  | 13 => 0x4111852B#32
  | 14 => 0x41452AC4#32
  | 15 => 0x41783BD0#32
  | 16 => 0x41958325#32
  | 17 => 0x41AED4BC#32
  | 18 => 0x40DF9D24#32
  | 19 => 0x4126AC84#32
  | 20 => 0x415B2B1A#32
  | 21 => 0x41876394#32
  | 22 => 0x41A0F976#32
  | 23 => 0x41BA6F19#32
  | 24 => 0x4102EBC6#32
  | 25 => 0x413B474D#32
  | 26 => 0x4170A277#32
  | 27 => 0x419268F9#32
  | 28 => 0x41AC340E#32
  | 29 => 0x41C5D20E#32
  | 30 => 0x4115B168#32
  | 31 => 0x414F76E8#32
  | 32 => 0x4182D672#32
  | 33 => 0x419D39A8#32
  | 34 => 0x41B73C85#32
  | 35 => 0x41D105A2#32
  | 36 => 0x41283493#32
  | 37 => 0x4163517B#32
  | 38 => 0x418D2F0D#32
  | 39 => 0x41A7DE22#32
  | 40 => 0x41C21A26#32
  | 41 => 0x41DC101D#32
  | _ => 0#32

/-- The radial normalisers b[l, r] as float patterns, entry 6·l + r. -/
def bW : Nat → BitVec 32
  | 0 => 0x408E2C19#32
  | 1 => 0x410E2C19#32
  | 2 => 0x41554225#32
  | 3 => 0x418E2C19#32
  | 4 => 0x41B1B71F#32
  | 5 => 0x41D54225#32
  | 6 => 0x40D052C6#32
  | 7 => 0x413042CC#32
  | 8 => 0x4177C47B#32
  | 9 => 0x419F8ADF#32
  | 10 => 0x41C328A8#32
  | 11 => 0x41E6C0A4#32
  | 12 => 0x4108AEAE#32
  | 13 => 0x4151A0CD#32
  | 14 => 0x418CD0C6#32
  | 15 => 0x41B0A1B7#32
  | 16 => 0x41D45B2F#32
  | 17 => 0x41F8074F#32
  | 18 => 0x412918C5#32
  | 19 => 0x41729973#32
  | 20 => 0x419D88A8#32
  | 21 => 0x41C18457#32
  | 22 => 0x41E55D3E#32
  | 23 => 0x420490A6#32
  | 24 => 0x414992AB#32
  | 25 => 0x4189AC75#32
  | 26 => 0x41AE1B30#32
  | 27 => 0x41D2401A#32
  | 28 => 0x41F63954#32
  | 29 => 0x420D0B83#32
  | 30 => 0x416A2F9C#32
  | 31 => 0x4199FC9A#32
  | 32 => 0x41BE93C8#32
  | 33 => 0x41E2DE79#32
  | 34 => 0x42037BA1#32
  | 35 => 0x4215777C#32
  | 36 => 0x41857C6F#32
  | 37 => 0x41AA455E#32
  | 38 => 0x41CEFA54#32
  | 39 => 0x41F36663#32
  | 40 => 0x420BCE7F#32
  | 41 => 0x421DD723#32
  | _ => 0#32

/-- The angular normalisers y[l] as float patterns. -/
def yW : Nat → BitVec 32
  | 0 => 0x3E906EBB#32
  | 1 => 0x3EFA2A1C#32
  | 2 => 0x3F217B01#32
  | 3 => 0x3F3F10F8#32
  | 4 => 0x3F58A618#32
  | 5 => 0x3F6F83A7#32
  | 6 => 0x3F823092#32
  | _ => 0#32

end Cert.Basis
-- ==== Proof.Spec.lean ====
/-
  The function both programs compute, one output element at a time.

  For a triplet t with edge e = row(id3[t]) (the start index read signed, a negative one shifted by 500000, then clamped
  into [0, 499999]), with d = D[e] · (1/5) and θ = Angle[t], the output element (t, 6·l + r) is
      ( u(d) · c ) · ( b[l,r] · j_l( d · z[l,r] ) ) · ( y[l] · P_l(cos θ) )
  where u is the polynomial envelope 1/d − 28 d⁵ + 48 d⁶ − 21 d⁷ cut to zero for d ≥ 1, j_l the spherical Bessel function
  by its upward recurrence from j₀ = sin x / x and j₁ = sin x / x² − cos x / x, P_l the Legendre polynomial by Bonnet's
  recurrence, and z, b, y three tables of float literals. Every operation is the exact one on the extended reals, written
  in the order both programs apply them; only the powers of d are grouped differently in the two programs.
-/
import proofs.«134738_j46024869543995_1_alg».proof.Proof.Tables
import Idealize.ShloMosaic.PureOps.Ideal
import Idealize.ShloMosaic.Lib.ValueIdx

noncomputable section

namespace Cert.Basis

open Idealize.ShloMosaic Idealize.ShloMosaic.ValueIdx

/-- A float at the ideal instance: an extended real. -/
abbrev E : Type := Ideal .f32

/-- The extended real a 32-bit float pattern denotes. -/
def lit (w : BitVec 32) : E := FloatOps.ofBits .f32 w

/-- The distance in units of the cutoff: x · f32(1/5). -/
def rescale (x : E) : E := FloatOps.mulf x (lit 0x3E4CCCCD#32)

/-- d⁵, d⁶, d⁷ by repeated multiplication from the left. -/
def pow5 (d : E) : E := FloatOps.mulf (FloatOps.mulf (FloatOps.mulf (FloatOps.mulf d d) d) d) d
def pow6 (d : E) : E := FloatOps.mulf (pow5 d) d
def pow7 (d : E) : E := FloatOps.mulf (pow6 d) d

/-- The envelope polynomial 1/d − 28 d⁵ + 48 d⁶ − 21 d⁷, summed left to right. -/
def envelope (d : E) : E :=
  FloatOps.addf (FloatOps.addf (FloatOps.addf (FloatOps.divf (lit 0x3F800000#32) d) (FloatOps.mulf (lit 0xC1E00000#32) (pow5 d)))
    (FloatOps.mulf (lit 0x42400000#32) (pow6 d))) (FloatOps.mulf (lit 0xC1A80000#32) (pow7 d))

/-- The envelope cut to zero at d ≥ 1, times the constant f32((1/5)^1.5). -/
def cutoff (d : E) : E :=
  FloatOps.mulf (Scalar.select (FloatOps.cmpf .olt d (lit 0x3F800000#32)) (envelope d) (lit 0x00000000#32)) (lit 0x3DB72DBF#32)

/-- The float patterns of 3, 5, 7, 9, 11: the factor 2k+1 of the Bessel recurrence's step k. -/
def oddW : Nat → BitVec 32
  | 1 => 0x40400000#32
  | 2 => 0x40A00000#32
  | 3 => 0x40E00000#32
  | 4 => 0x41100000#32
  | 5 => 0x41300000#32
  | _ => 0#32

/-- The spherical Bessel function j_n by the upward recurrence j_{k+1} = (2k+1)/x · j_k − j_{k−1}. -/
def bessel : Nat → E → E
  | 0, x => FloatOps.divf (FloatOps.sin x) x
  | 1, x => FloatOps.subf (FloatOps.divf (FloatOps.sin x) (FloatOps.mulf x x)) (FloatOps.divf (FloatOps.cos x) x)
  | n + 2, x => FloatOps.subf (FloatOps.mulf (FloatOps.divf (lit (oddW (n + 1))) x) (bessel (n + 1) x)) (bessel n x)

/-- One radial basis value: b · j_n(d · z). -/
def radial (n : Nat) (zw bw : BitVec 32) (d : E) : E := FloatOps.mulf (lit bw) (bessel n (FloatOps.mulf d (lit zw)))

/-- The float patterns of Bonnet's recurrence m P_m = (2m−1) c P_{m−1} − (m−1) P_{m−2}: 2m−1, m−1 and m for m = 2 … 6. -/
def legA : Nat → BitVec 32
  | 2 => 0x40400000#32 | 3 => 0x40A00000#32 | 4 => 0x40E00000#32 | 5 => 0x41100000#32 | 6 => 0x41300000#32 | _ => 0#32
def legB : Nat → BitVec 32
  | 2 => 0x3F800000#32 | 3 => 0x40000000#32 | 4 => 0x40400000#32 | 5 => 0x40800000#32 | 6 => 0x40A00000#32 | _ => 0#32
def legC : Nat → BitVec 32
  | 2 => 0x40000000#32 | 3 => 0x40400000#32 | 4 => 0x40800000#32 | 5 => 0x40A00000#32 | 6 => 0x40C00000#32 | _ => 0#32

/-- The Legendre polynomial P_n at c, by Bonnet's recurrence. -/
def legendre : Nat → E → E
  | 0, _ => lit 0x3F800000#32
  | 1, c => c
  | n + 2, c => FloatOps.divf (FloatOps.subf (FloatOps.mulf (FloatOps.mulf (lit (legA (n + 2))) c) (legendre (n + 1) c))
      (FloatOps.mulf (lit (legB (n + 2))) (legendre n c))) (lit (legC (n + 2)))

/-- One angular basis value: y · P_n(cos θ). -/
def angular (n : Nat) (yw : BitVec 32) (a : E) : E := FloatOps.mulf (lit yw) (legendre n (FloatOps.cos a))

/-- One output element from the gathered distance x and the angle a. -/
def entry (n : Nat) (zw bw yw : BitVec 32) (x a : E) : E :=
  FloatOps.mulf (FloatOps.mulf (cutoff (rescale x)) (radial n zw bw (rescale x))) (angular n yw a)

/-- A start index as the gather reads it: a negative one shifted by the table's length. -/
def shifted (w : BitVec 32) : BitVec 32 := Scalar.select (IntOp.cmpi .slt w 0#32) (IntOp.addi w 500000#32) w

/-- The edge a triplet's start index selects: read signed and clamped into the table. -/
def edge (w : BitVec 32) : Fin 500000 := ⟨min (shifted w).toInt.toNat (500000 - 1), by omega⟩

/-- The whole result: element (t, k) with k = 6·l + r. -/
def table (D : (⟨1, ![500000]⟩ : Shape).Idx → E) (A : (⟨1, ![2000000]⟩ : Shape).Idx → E)
    (I : (⟨1, ![2000000]⟩ : Shape).Idx → BitVec 32) : (⟨2, ![2000000, 42]⟩ : Shape).Idx → E :=
  fun j => entry ((j 1).val / 6) (zW (j 1).val) (bW (j 1).val) (yW ((j 1).val / 6))
    (D (ix1 (edge (I (ix1 (j 0)))))) (A (ix1 (j 0)))

end Cert.Basis

end
-- ==== Proof.KCols.lean ====
/-
  Reading the kernel's block values at one element.

  Every vector of the body is a column [3200, 1] computed pointwise from the two loaded columns; only three layout steps
  are not pointwise: six columns laid side by side, a column repeated across six columns, and the identity shape cast of
  a loaded column. This module reads those at an element, and with them the three values every store shares: the
  rescaled distance, its scaled envelope, and the cosine of the angle.
-/
import proofs.«134738_j46024869543995_1_alg».proof.Proof.Spec
import proofs.«134738_j46024869543995_1_alg».proof.Proof.Gen.KernelIdeal.Skeleton
import Idealize.ShloMosaic.Lib.Pipeline.Value

noncomputable section

namespace Cert.KPiece

open Idealize.ShloMosaic Idealize.ShloMosaic.ValueIdx Cert.KernelIdeal Cert.KernelIdeal.Gen Cert.Basis

/-- Six columns [3200, 1] laid side by side, read at (p, q): column q at row p. -/
theorem cols6_apply (c0 c1 c2 c3 c4 c5 : FVec Ideal S3200x1 .f32) (p : Fin 3200) (q : Fin 6) :
    concatenate S3200x6 1 [⟨S3200x1, c0⟩, ⟨S3200x1, c1⟩, ⟨S3200x1, c2⟩, ⟨S3200x1, c3⟩, ⟨S3200x1, c4⟩, ⟨S3200x1, c5⟩]
      concatenates_S3200x1_S3200x1_S3200x1_S3200x1_S3200x1_S3200x1_S3200x6_d1 (ix2 p q)
    = (![c0, c1, c2, c3, c4, c5] q) (ix2 p (0 : Fin 1)) := by
  have key : ∀ (k : Nat) (hk : k < 6) (x : FVec Ideal S3200x1 .f32),
      ([⟨S3200x1, c0⟩, ⟨S3200x1, c1⟩, ⟨S3200x1, c2⟩, ⟨S3200x1, c3⟩, ⟨S3200x1, c4⟩, ⟨S3200x1, c5⟩] : List ((s : Shape) × (s.Idx → Ideal .f32)))[k]'(by simpa using hk) = ⟨S3200x1, x⟩ →
      q.val = k →
      concatenate S3200x6 1 [⟨S3200x1, c0⟩, ⟨S3200x1, c1⟩, ⟨S3200x1, c2⟩, ⟨S3200x1, c3⟩, ⟨S3200x1, c4⟩, ⟨S3200x1, c5⟩]
        concatenates_S3200x1_S3200x1_S3200x1_S3200x1_S3200x1_S3200x1_S3200x6_d1 (ix2 p q) = x (ix2 p (0 : Fin 1)) := by
    intro k hk x hx hq
    refine concatenate_apply_piece (1 : Fin 2) _ _ (ix2 p q) k (by simpa using hk) S3200x1 x hx rfl k ?_ (ix2 p (0 : Fin 1)) ?_ ?_
    · interval_cases k <;> rfl
    · intro b hb
      match b, hb with
      | ⟨0, _⟩, _ => rfl
      | ⟨1, _⟩, hb => exact absurd rfl hb
    · show k + 0 = q.val
      omega
  match q with
  | ⟨0, _⟩ => exact key 0 (by omega) c0 rfl rfl
  | ⟨1, _⟩ => exact key 1 (by omega) c1 rfl rfl
  | ⟨2, _⟩ => exact key 2 (by omega) c2 rfl rfl
  | ⟨3, _⟩ => exact key 3 (by omega) c3 rfl rfl
  | ⟨4, _⟩ => exact key 4 (by omega) c4 rfl rfl
  | ⟨5, _⟩ => exact key 5 (by omega) c5 rfl rfl

/-- A column [3200, 1] repeated across six columns, read at (p, q): the column at row p. -/
theorem bcast6_apply (v : FVec Ideal S3200x1 .f32) (p : Fin 3200) (q : Fin 6) :
    broadcastTo S3200x6 v broadcasts_S3200x1_S3200x6 (ix2 p q) = v (ix2 p (0 : Fin 1)) := by
  refine broadcastTo_apply v _ (ix2 p q) (ix2 p (0 : Fin 1)) ?_
  intro a
  match a with
  | ⟨0, _⟩ => rfl
  | ⟨1, _⟩ => rfl

/-- The rescaled distance column: the loaded column times f32(1/5), element by element. -/
theorem dist_fn (X0 : Vec Ideal S3200x1 .f32) : k0_pay1 X0 = fun i => rescale (X0 i) := by
  funext i; unfold k0_pay1; rw [shapeCast_self]; rfl

/-- The scaled envelope column, element by element. -/
theorem scale_fn (X0 : Vec Ideal S3200x1 .f32) : k0_pay2 X0 = fun i => cutoff (rescale (X0 i)) := by
  funext i; unfold k0_pay2; rw [dist_fn]; rfl

/-- The cosine column, element by element. -/
theorem cos_fn (X1 : Vec Ideal S3200x1 .f32) : k0_pay3 X1 = fun i => FloatOps.cos (X1 i) := by
  funext i; unfold k0_pay3; rw [shapeCast_self]; rfl

end Cert.KPiece

end
-- ==== Proof.KPiece0.lean ====
/-
  The first store of the body (order l = 0), read at an element: columns r = 0 … 5 of the output block hold
  (u(d)·c) · (b[0,r] · sin(d z[0,r]) / (d z[0,r])) · (y[0] · 1).
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece0 (X0 X1 : Vec Ideal S3200x1 .f32) (p : Fin 3200) (q : Fin 6) :
    k0_pay7 (k0_pay1 X0) (k0_pay2 X0) (k0_pay5 (F := Ideal)) (k0_pay6 X0) (ix2 p q)
      = entry 0 (zW (0 + q.val)) (bW (0 + q.val)) (yW 0) (X0 (ix2 p (0 : Fin 1))) (X1 (ix2 p (0 : Fin 1))) := by
  unfold k0_pay7
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  have h6 : k0_pay6 X0 = fun i => FloatOps.mulf (rescale (X0 i)) (lit 0x40490FDB#32) := by
    unfold k0_pay6; rw [dist_fn]; rfl
  rw [scale_fn, dist_fn, h6]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece1.lean ====
/-
  The second store of the body (order l = 1), read at an element: columns r = 0 … 5 of the stored block hold
  (u(d)·c) · (b[1,r] · j₁(d z[1,r])) · (y[1] · cos θ), with j₁(x) = sin x / x² − cos x / x.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece1 (X0 X1 : Vec Ideal S3200x1 .f32) (p : Fin 3200) (q : Fin 6) :
    k0_pay16 (k0_pay2 X0) (k0_pay8 (k0_pay3 X1)) (k0_pay10 (k0_pay9 (k0_pay1 X0))) (k0_pay11 (k0_pay1 X0)) (k0_pay12 (k0_pay1 X0)) (k0_pay13 (k0_pay1 X0)) (k0_pay14 (k0_pay1 X0)) (k0_pay15 (k0_pay1 X0)) (ix2 p q)
      = entry 1 (zW (6 + q.val)) (bW (6 + q.val)) (yW 1) (X0 (ix2 p (0 : Fin 1))) (X1 (ix2 p (0 : Fin 1))) := by
  unfold k0_pay16
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece2.lean ====
/-
  The third store of the body (order l = 2), read at an element: columns r = 0 … 5 of the stored block hold
  (u(d)·c) · (b[2,r] · j₂(d z[2,r])) · (y[2] · (3 cos θ · cos θ − 1 · 1) / 2), with j₂(x) = (3/x) · j₁(x) − j₀(x),
  j₀(x) = sin x / x and j₁(x) = sin x / x² − cos x / x.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece2 (X0 X1 : Vec Ideal S3200x1 .f32) (p : Fin 3200) (q : Fin 6) :
    k0_pay30 (k0_pay1 X0) (k0_pay2 X0) (k0_pay18 (k0_pay3 X1) (k0_pay4 (F := Ideal))) (k0_pay19 (k0_pay1 X0)) (k0_pay24 (k0_pay20 (k0_pay1 X0)) (k0_pay21 (k0_pay1 X0)) (k0_pay22 (k0_pay1 X0)) (k0_pay23 (k0_pay1 X0))) (k0_pay25 (k0_pay1 X0)) (k0_pay26 (k0_pay1 X0)) (k0_pay27 (k0_pay1 X0)) (k0_pay28 (k0_pay1 X0)) (k0_pay29 (k0_pay1 X0)) (Scalar.ofBits .f32 0x40400000#32) (ix2 p q)
      = entry 2 (zW (12 + q.val)) (bW (12 + q.val)) (yW 2) (X0 (ix2 p (0 : Fin 1))) (X1 (ix2 p (0 : Fin 1))) := by
  unfold k0_pay30
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece3.lean ====
/-
  The fourth store of the body (order l = 3), read at an element: columns r = 0 … 5 of the output block hold
  (u(d)·c) · (b[3,r] · j₃(d z[3,r])) · (y[3] · P₃(cos θ)), with j₃ = (5/x)·j₂ − j₁, j₂ = (3/x)·j₁ − j₀ and
  P₃(c) = (5 c P₂(c) − 2 c) / 3, P₂(c) = (3 c c − 1) / 2.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece3 (X0 X1 : Vec Ideal S3200x1 .f32) (p : Fin 3200) (q : Fin 6) :
    k0_pay46 (k0_pay2 X0) (k0_pay32 (k0_pay3 X1) (k0_pay17 (k0_pay3 X1) (k0_pay4 (F := Ideal)))) (k0_pay36 (k0_pay33 (k0_pay1 X0)) (k0_pay34 (k0_pay1 X0)) (k0_pay35 (k0_pay1 X0))) (k0_pay37 (k0_pay1 X0)) (k0_pay40 (k0_pay38 (k0_pay1 X0)) (k0_pay39 (F := Ideal))) (k0_pay41 (k0_pay1 X0)) (k0_pay42 (k0_pay1 X0)) (k0_pay43 (k0_pay1 X0)) (k0_pay44 (k0_pay1 X0)) (k0_pay45 (k0_pay1 X0)) (ix2 p q)
      = entry 3 (zW (18 + q.val)) (bW (18 + q.val)) (yW 3) (X0 (ix2 p (0 : Fin 1))) (X1 (ix2 p (0 : Fin 1))) := by
  unfold k0_pay46
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece4.lean ====
/-
  The fifth store of the body (order l = 4), read at an element: columns r = 0 … 5 of the output block hold
  (u(d)·c) · (b[4,r] · j₄(d z[4,r])) · (y[4] · P₄(cos θ)), with j₄ = (7/x)·j₃ − j₂, j₃ = (5/x)·j₂ − j₁,
  j₂ = (3/x)·j₁ − j₀ and P₄(c) = (7 c P₃(c) − 3 P₂(c)) / 4, P₃(c) = (5 c P₂(c) − 2 c) / 3, P₂(c) = (3 c c − 1) / 2.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece4 (X0 X1 : Vec Ideal S3200x1 .f32) (p : Fin 3200) (q : Fin 6) :
    k0_pay61 (k0_pay1 X0) (k0_pay2 X0) (k0_pay48 (k0_pay3 X1) (k0_pay17 (k0_pay3 X1) (k0_pay4 (F := Ideal))) (k0_pay31 (k0_pay3 X1) (k0_pay17 (k0_pay3 X1) (k0_pay4 (F := Ideal))))) (k0_pay54 (k0_pay51 (k0_pay1 X0)) (k0_pay52 (k0_pay1 X0)) (k0_pay53 (k0_pay1 X0))) (k0_pay55 (k0_pay1 X0)) (k0_pay57 (k0_pay56 (k0_pay1 X0))) (k0_pay58 (k0_pay1 X0)) (k0_pay59 (k0_pay1 X0)) (k0_pay60 (F := Ideal)) (ix2 p q)
      = entry 4 (zW (24 + q.val)) (bW (24 + q.val)) (yW 4) (X0 (ix2 p (0 : Fin 1))) (X1 (ix2 p (0 : Fin 1))) := by
  unfold k0_pay61
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece5.lean ====
/-
  The sixth store of the body (order l = 5), read at an element: columns r = 0 … 5 of the output block hold
  (u(d)·c) · (b[5,r] · j_5(d z[5,r])) · (y[5] · P_5(cos θ)), with j_5 reached by four steps of the upward recurrence
  from j_0 and j_1, and P_5 by four steps of Bonnet's recurrence from P_0 = 1 and P_1 = cos θ.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece5 (X0 X1 : Vec Ideal S3200x1 .f32) (p : Fin 3200) (q : Fin 6) :
    k0_pay83 (k0_pay2 X0) (k0_pay63 (k0_pay3 X1) (k0_pay31 (k0_pay3 X1) (k0_pay17 (k0_pay3 X1) (k0_pay4 (F := Ideal)))) (k0_pay47 (k0_pay3 X1) (k0_pay17 (k0_pay3 X1) (k0_pay4 (F := Ideal))) (k0_pay31 (k0_pay3 X1) (k0_pay17 (k0_pay3 X1) (k0_pay4 (F := Ideal)))))) (k0_pay68 (k0_pay64 (k0_pay1 X0)) (k0_pay65 (k0_pay1 X0)) (k0_pay66 (k0_pay1 X0)) (k0_pay67 (k0_pay1 X0))) (k0_pay71 (k0_pay69 (k0_pay1 X0)) (k0_pay70 (F := Ideal))) (k0_pay72 (k0_pay1 X0)) (k0_pay78 (k0_pay73 (k0_pay1 X0)) (k0_pay75 (k0_pay1 X0)) (k0_pay76 (k0_pay1 X0)) (k0_pay77 (k0_pay1 X0))) (k0_pay79 (k0_pay1 X0)) (k0_pay80 (k0_pay1 X0)) (k0_pay81 (k0_pay1 X0)) (k0_pay82 (k0_pay1 X0)) (Scalar.ofBits .f32 0x40A00000#32) (ix2 p q)
      = entry 5 (zW (30 + q.val)) (bW (30 + q.val)) (yW 5) (X0 (ix2 p (0 : Fin 1))) (X1 (ix2 p (0 : Fin 1))) := by
  unfold k0_pay83
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KPiece6.lean ====
/-
  The seventh store of the body (order l = 6), read at an element: columns r = 0 … 5 of the output block hold
  (u(d)·c) · (b[6,r] · j_6(d z[6,r])) · (y[6] · P_6(cos θ)), with j_6 reached by five steps of the upward recurrence
  from j_0 and j_1, and P_6 by five steps of Bonnet's recurrence from P_0 = 1 and P_1 = cos θ.
-/
import proofs.«134738_j46024869543995_1_alg».proof.Proof.KCols

noncomputable section

namespace Cert.KPiece

open Idealize.ShloMosaic Idealize.ShloMosaic.ValueIdx Cert.KernelIdeal Cert.KernelIdeal.Gen Cert.Basis

theorem piece6 (X0 X1 : Vec Ideal S3200x1 .f32) (p : Fin 3200) (q : Fin 6) :
    k0_pay102 (k0_pay2 X0) (k0_pay84 (k0_pay3 X1) (k0_pay47 (k0_pay3 X1) (k0_pay17 (k0_pay3 X1) (k0_pay4 (F := Ideal))) (k0_pay31 (k0_pay3 X1) (k0_pay17 (k0_pay3 X1) (k0_pay4 (F := Ideal))))) (k0_pay62 (k0_pay3 X1) (k0_pay31 (k0_pay3 X1) (k0_pay17 (k0_pay3 X1) (k0_pay4 (F := Ideal)))) (k0_pay47 (k0_pay3 X1) (k0_pay17 (k0_pay3 X1) (k0_pay4 (F := Ideal))) (k0_pay31 (k0_pay3 X1) (k0_pay17 (k0_pay3 X1) (k0_pay4 (F := Ideal))))))) (k0_pay89 (k0_pay85 (k0_pay1 X0)) (k0_pay86 (k0_pay1 X0)) (k0_pay87 (k0_pay1 X0)) (k0_pay88 (k0_pay1 X0))) (k0_pay90 (k0_pay1 X0)) (k0_pay92 (k0_pay1 X0) (k0_pay91 (F := Ideal))) (k0_pay98 (k0_pay93 (k0_pay1 X0)) (k0_pay95 (k0_pay1 X0)) (k0_pay96 (k0_pay1 X0)) (k0_pay97 (F := Ideal))) (k0_pay99 (k0_pay1 X0)) (k0_pay100 (k0_pay1 X0)) (k0_pay101 (k0_pay1 X0)) (ix2 p q)
      = entry 6 (zW (36 + q.val)) (bW (36 + q.val)) (yW 6) (X0 (ix2 p (0 : Fin 1))) (X1 (ix2 p (0 : Fin 1))) := by
  unfold k0_pay102
  show FloatOps.mulf (FloatOps.mulf (broadcastTo S3200x6 _ _ (ix2 p q)) (concatenate S3200x6 1 _ _ (ix2 p q))) (broadcastTo S3200x6 _ _ (ix2 p q)) = _
  rw [bcast6_apply, bcast6_apply, cols6_apply]
  rw [scale_fn, dist_fn, cos_fn]
  match q with
  | ⟨0, _⟩ => rfl
  | ⟨1, _⟩ => rfl
  | ⟨2, _⟩ => rfl
  | ⟨3, _⟩ => rfl
  | ⟨4, _⟩ => rfl
  | ⟨5, _⟩ => rfl

end Cert.KPiece

end
-- ==== Proof.KBlock.lean ====
/-
  The kernel's output block [3200, 42] as one function of the block index.

  The body's seven stores write the column groups 0–5, 6–11, …, 36–41 of the block; group l holds the order-l values.
  Read at (p, k) the block is therefore the specification's element of order k / 6 with the table entries k, at the
  distance and the angle the two loaded columns hold at row p.
-/
import proofs.«134738_j46024869543995_1_alg».proof.Proof.KPiece0
import proofs.«134738_j46024869543995_1_alg».proof.Proof.KPiece1
import proofs.«134738_j46024869543995_1_alg».proof.Proof.KPiece2
import proofs.«134738_j46024869543995_1_alg».proof.Proof.KPiece3
import proofs.«134738_j46024869543995_1_alg».proof.Proof.KPiece4
import proofs.«134738_j46024869543995_1_alg».proof.Proof.KPiece5
import proofs.«134738_j46024869543995_1_alg».proof.Proof.KPiece6
import proofs.«134738_j46024869543995_1_alg».proof.Proof.Gen.KernelIdeal.Frame

noncomputable section

namespace Cert.KPiece

open Idealize.ShloMosaic Idealize.ShloMosaic.ValueIdx Cert.KernelIdeal Cert.KernelIdeal.Gen Cert.Basis

/-- The offsets of the whole-column rectangle are the zero offsets. -/
theorem zero_offsets : (![0, 0] : Fin 2 → Nat) = fun _ => 0 :=
  funext fun a => match a with | ⟨0, _⟩ => rfl | ⟨1, _⟩ => rfl

/-- The block as one function of its index: at (p, k) the specification's element of order k / 6 with the table
    entries k, at the distance and the angle of row p. -/
def blockFn (x0 x1 : Vec Ideal S3200x1 .f32) : S3200x42.Idx → Elt Ideal .f32 :=
  fun y => entry ((y 1).val / 6) (zW (y 1).val) (bW (y 1).val) (yW ((y 1).val / 6))
    (x0 (ix2 (⟨(y 0).val, idx2_lt0 y⟩ : Fin 3200) (0 : Fin 1))) (x1 (ix2 (⟨(y 0).val, idx2_lt0 y⟩ : Fin 3200) (0 : Fin 1)))

/-- The block function at (p, k). -/
theorem blockFn_apply (x0 x1 : Vec Ideal S3200x1 .f32) (p : Fin 3200) (k : Fin 42) :
    blockFn x0 x1 (ix2 p k) = entry (k.val / 6) (zW k.val) (bW k.val) (yW (k.val / 6))
      (x0 (ix2 p (0 : Fin 1))) (x1 (ix2 p (0 : Fin 1))) := rfl

/-- Where an element of a column group sits in the block: inner (p, q) of the six columns starting at column c is the
    block's (p, c + q). -/
theorem group_emb (c : Nat) (inb : ∀ a, (![0, c] : Fin 2 → Nat) a + S3200x6.size a ≤ S3200x42.size a)
    (p : Fin 3200) (q : Fin 6) (h : c + q.val < 42) :
    (Rect.unit (s := S3200x42) ![0, c] S3200x6.size inb).emb (ix2 p q) = ix2 p (⟨c + q.val, h⟩ : Fin 42) := by
  funext a
  match a with
  | ⟨0, _⟩ => exact Fin.ext (by show 0 + 1 * p.val = p.val; omega)
  | ⟨1, _⟩ => exact Fin.ext (by show c + 1 * q.val = c + q.val; omega)

/-- The block function under a column group: at inner (p, q) of the group starting at column c = 6·l it is the element of
    order l with the table entries c + q. -/
theorem blockFn_group (x0 x1 : Vec Ideal S3200x1 .f32) (c l : Nat) (hc : c = 6 * l)
    (inb : ∀ a, (![0, c] : Fin 2 → Nat) a + S3200x6.size a ≤ S3200x42.size a) (hl : c + 6 ≤ 42) (p : Fin 3200) (q : Fin 6) :
    blockFn x0 x1 ((Rect.unit (s := S3200x42) ![0, c] S3200x6.size inb).emb (ix2 p q))
      = entry l (zW (c + q.val)) (bW (c + q.val)) (yW l) (x0 (ix2 p (0 : Fin 1))) (x1 (ix2 p (0 : Fin 1))) := by
  have hq : c + q.val < 42 := by have := q.isLt; omega
  rw [group_emb c inb p q hq, blockFn_apply]
  have hd : (c + q.val) / 6 = l := by have := q.isLt; omega
  show entry ((c + q.val) / 6) (zW (c + q.val)) (bW (c + q.val)) (yW ((c + q.val) / 6)) _ _ = _
  rw [hd]

/-- A store into the column group starting at column c = 6·l whose payload at inner (p, q) is the element of order l with
    the table entries c + q agrees with the block function at every element of its rectangle. -/
theorem group_piece (x0 x1 : Vec Ideal S3200x1 .f32) (c l : Nat) (hc : c = 6 * l)
    (inb : ∀ a, (![0, c] : Fin 2 → Nat) a + S3200x6.size a ≤ S3200x42.size a) (hl : c + 6 ≤ 42)
    (w : S3200x6.Idx → Elt Ideal .f32)
    (hw : ∀ (p : Fin 3200) (q : Fin 6), w (ix2 p q)
      = entry l (zW (c + q.val)) (bW (c + q.val)) (yW l) (x0 (ix2 p (0 : Fin 1))) (x1 (ix2 p (0 : Fin 1))))
    (x : S3200x6.Idx) :
    w x = blockFn x0 x1 ((Rect.unit (s := S3200x42) ![0, c] S3200x6.size inb).emb x) := by
  obtain ⟨p, q, rfl⟩ : ∃ (p : Fin 3200) (q : Fin 6), x = ix2 p q := ⟨x 0, x 1, eq_ix2 x⟩
  exact (hw p q).trans (blockFn_group x0 x1 c l hc inb hl p q).symm

/-- The output block at (p, k). -/
theorem block_apply (x0 x1 : Vec Ideal S3200x1 .f32) (p : Fin 3200) (k : Fin 42) :
    out0_2 x0 x1 (ix2 p k) = entry (k.val / 6) (zW k.val) (bW k.val) (yW (k.val / 6))
      (x0 (ix2 p (0 : Fin 1))) (x1 (ix2 p (0 : Fin 1))) := by
  have hld0 : View.ld x0 r0_0 = x0 := View.ld_unit_zero zero_offsets _ x0
  have hld1 : View.ld x1 r0_0 = x1 := View.ld_unit_zero zero_offsets _ x1
  rw [← blockFn_apply x0 x1 p k]
  unfold out0_2
  rw [hld0, hld1]
  refine View.canon_apply_of_pieces (blockFn x0 x1) _ (fun pc hpc => ?_) (ix2 p k) (cover0_2 _ _ _ _ _ _ _ (ix2 p k))
  simp only [List.mem_cons, List.mem_nil_iff, or_false] at hpc
  rcases hpc with rfl | rfl | rfl | rfl | rfl | rfl | rfl
  · exact group_piece x0 x1 36 6 rfl inb_S3200x42_S3200x6_0_36 (by omega) _ (piece6 x0 x1)
  · exact group_piece x0 x1 30 5 rfl inb_S3200x42_S3200x6_0_30 (by omega) _ (piece5 x0 x1)
  · exact group_piece x0 x1 24 4 rfl inb_S3200x42_S3200x6_0_24 (by omega) _ (piece4 x0 x1)
  · exact group_piece x0 x1 18 3 rfl inb_S3200x42_S3200x6_0_18 (by omega) _ (piece3 x0 x1)
  · exact group_piece x0 x1 12 2 rfl inb_S3200x42_S3200x6_0_12 (by omega) _ (piece2 x0 x1)
  · exact group_piece x0 x1 6 1 rfl inb_S3200x42_S3200x6_0_6 (by omega) _ (piece1 x0 x1)
  · exact group_piece x0 x1 0 0 rfl inb_S3200x42_S3200x6_0_0 (by omega) _ (piece0 x0 x1)

end Cert.KPiece

end
-- ==== Proof.LibVecGather.lean ====
/-
  A host gather of scalars out of a vector, one start index per result element, read at an element.
-/
import Idealize.ShloMosaic.PureOps.Ideal
import Idealize.ShloMosaic.Lib.ValueIdx

noncomputable section

namespace Cert.LibVecGather

open Idealize.ShloMosaic Idealize.ShloMosaic.ValueIdx

variable {α : Type}

/-- The dimension numbers of a gather of scalars out of a vector: operand `[N]`, start indices `[R, 1]` (one
    element number per result element), result `[R]`; the operand's one axis is collapsed and indexed, there is no
    offset axis, the slice is one element. The conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather with the record above, read at `k`: the operand index is, on the one axis, the clamped start
    (the start index `idx[k, 0]` read signed) plus a zero batching coordinate plus a zero offset coordinate. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (k : Fin R) :
    Host.gather (vecGatherDims N R wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (vecGatherDims N R wf).start (ix1 k) idx 0 + (vecGatherDims N R wf).batchCoord (ix1 k) 0
    + (vecGatherDims N R wf).offCoord (ix1 k) 0 = _
  -- no batching axis; axis 0 is collapsed, so it is not a kept axis and its offset coordinate is zero
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map, at position 0: the start reads the start indices at (k, 0)
  unfold GatherDims.start
  rw [dif_pos (show (0 : Fin 1) ∈ (vecGatherDims N R wf).startIndexMap from List.mem_singleton.mpr rfl)]
  have hsi : (vecGatherDims N R wf).siIdx (ix1 k) ⟨List.idxOf (0 : Fin 1) (vecGatherDims N R wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- THE VECTOR GATHER READ AT `k`: operand `[N]`, start indices `[R, 1]`, result `[R]`; the operand's one axis is
    collapsed and indexed, the slice is one element. Element `k` is the operand at the start index `idx[k, 0]`, read
    signed and clamped into `[0, N − 1]`. Stated for any dimension numbers whose fields are those of such a gather
    (a printed record's are, each by `rfl`). -/
theorem gather_vec_apply_of {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (k : Fin R) :
    Host.gather d x idx (ix1 k) = x (ix1 ⟨min (idx (ix2 k (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_vec_apply hN wf x idx k

end Cert.LibVecGather

end
-- ==== Proof.KHost.lean ====
/-
  The two columns the kernel's region is launched on, read at a row.

  Before the region the program gathers one distance per triplet out of the edge distances (the start index read signed,
  a negative one shifted by the table's length, then clamped into the table) and reshapes the gathered vector and the
  angles to columns [triplets, 1]. Row t of the first column is therefore the distance of the edge the triplet's index
  selects, and row t of the second is the triplet's angle.
-/
import proofs.«134738_j46024869543995_1_alg».proof.Proof.Gen.KernelIdeal.Frame
import proofs.«134738_j46024869543995_1_alg».proof.Proof.Spec
import proofs.«134738_j46024869543995_1_alg».proof.Proof.LibVecGather
import Idealize.ShloMosaic.Lib.StableHlo.Run
import Idealize.ShloMosaic.Lib.Pipeline.Value
import Idealize.ShloMosaic.Lib.ValueIdx

noncomputable section

namespace Cert.KValue

open Cert.KernelIdeal Cert.KernelIdeal.Gen Idealize.ShloMosaic Idealize.ShloMosaic.ValueIdx Idealize.ShloMosaic.TcCoe
  Idealize.SL.Sem Idealize.ShloMosaic.StableHlo Cert.Basis

variable (m : (ℓ : Loc nD τ sig) → Buf (Elt Ideal) ℓ)

/-- The start indices as the gather takes them: a negative one shifted by the table's length; as a column. -/
def starts (I : IVec S2000000 32) : IVec S2000000x1 32 :=
  broadcastInDim S2000000x1 ![0] bcast_S2000000_S2000000x1_0
    (select (cmpi .slt I (broadcastInDim S2000000 ![] bcast_S_S2000000 (constantI S_ 32 0#32)))
      (addi I (broadcastInDim S2000000 ![] bcast_S_S2000000 (constantI S_ 32 500000#32))) I)

/-- Row t of the start indices is the triplet's index, shifted when negative. -/
theorem starts_apply (I : IVec S2000000 32) (t : Fin 2000000) : starts I (ix2 t (0 : Fin 1)) = shifted (I (ix1 t)) := by
  unfold starts
  rw [broadcastInDim_apply _ _ _ (ix2 t (0 : Fin 1)) (ix1 t) (fun a => by match a with | ⟨0, _⟩ => rfl)]
  rfl

/-- The distance column as the region finds it: the gathered distances, reshaped. -/
theorem dcol_eq (c : Dev nD) :
    (V m c main_v7 : S2000000x1.Idx → Ideal .f32)
      = shapeCast S2000000x1 (Host.gather gather_S500000_S2000000x1_S2000000_n_0_n_n_0_1_1
          (m ((c : Thread nD τ).loc main_arg0)) (starts (m ((c : Thread nD τ).loc main_arg2)))) shapeCasts_S2000000_S2000000x1 := by
  dsimp only [V, hostOps0]
  after_results
  rfl

/-- The angle column as the region finds it: the angles, reshaped. -/
theorem acol_eq (c : Dev nD) :
    (V m c main_v8 : S2000000x1.Idx → Ideal .f32)
      = shapeCast S2000000x1 (m ((c : Thread nD τ).loc main_arg1)) shapeCasts_S2000000_S2000000x1 := by
  dsimp only [V, hostOps0]
  after_results
  rfl

/-- Row t of a reshaped vector is its entry t. -/
theorem col_apply {α : Type} (x : S2000000.Idx → α) (t : Fin 2000000) :
    shapeCast S2000000x1 x shapeCasts_S2000000_S2000000x1 (ix2 t (0 : Fin 1)) = x (ix1 t) := by
  refine shapeCast_apply x _ (ix2 t (0 : Fin 1)) (ix1 t) ?_
  rw [Shape.rowMajor_val_one, Shape.rowMajor_val_two]
  show t.val = t.val * 1 + 0
  omega

/-- Row t of the distance column: the distance of the edge the triplet's start index selects. -/
theorem dcol_apply (c : Dev nD) (t : Fin 2000000) :
    (V m c main_v7 : S2000000x1.Idx → Ideal .f32) (ix2 t (0 : Fin 1))
      = (m ((c : Thread nD τ).loc main_arg0) : S500000.Idx → Ideal .f32)
          (ix1 (edge ((m ((c : Thread nD τ).loc main_arg2) : S2000000.Idx → BitVec 32) (ix1 t)))) := by
  rw [dcol_eq, col_apply, Cert.LibVecGather.gather_vec_apply_of (by omega) _ rfl rfl rfl rfl rfl rfl rfl]
  refine congrArg _ (congrArg ix1 (Fin.ext ?_))
  show min (starts (m ((c : Thread nD τ).loc main_arg2)) (ix2 t (0 : Fin 1))).toInt.toNat (500000 - 1)
    = min (shifted ((m ((c : Thread nD τ).loc main_arg2) : S2000000.Idx → BitVec 32) (ix1 t))).toInt.toNat (500000 - 1)
  rw [starts_apply]

/-- Row t of the angle column: the triplet's angle. -/
theorem acol_apply (c : Dev nD) (t : Fin 2000000) :
    (V m c main_v8 : S2000000x1.Idx → Ideal .f32) (ix2 t (0 : Fin 1))
      = (m ((c : Thread nD τ).loc main_arg1) : S2000000.Idx → Ideal .f32) (ix1 t) := by
  rw [acol_eq, col_apply]

end Cert.KValue

end
-- ==== Proof.KValue.lean ====
/-
  The kernel's result array as one function of the arguments.

  The grid has 625 points; point t stages rows 3200·t … 3200·t + 3199 of the distance column and of the angle column, and
  writes back the same rows of the [triplets, 42] result. The body turns the two staged columns into a block whose
  element (p, k) is the specification's entry of order k / 6 at the distance and the angle of row p; row p of the staged
  columns is row 3200·t + p of the columns the region was launched on, which hold the gathered distance and the angle of
  that triplet. So each point writes its rows of the specification's table, the 625 blocks cover the array, and the array
  after the run is the table.
-/
import proofs.«134738_j46024869543995_1_alg».proof.Proof.Gen.KernelIdeal.Value
import proofs.«134738_j46024869543995_1_alg».proof.Proof.KBlock
import proofs.«134738_j46024869543995_1_alg».proof.Proof.KHost
import Idealize.ShloMosaic.Lib.Pipeline.Value

noncomputable section

open Idealize.ShloMosaic Idealize.ShloMosaic.TcCoe Idealize.SL.Sem
open Idealize.ShloMosaic.Pipeline (Dat)

namespace Cert.KValue

open Cert.KernelIdeal Cert.KernelIdeal.Gen Cert.KernelIdeal.Value Idealize.ShloMosaic.ValueIdx Cert.Basis

variable (m : (ℓ : Loc nD τ sig) → Buf (Elt Ideal) ℓ) (ρ : Dev nD → PrngReg)

/-- The specification's table of one device's three arguments. -/
abbrev spec (c : Dev nD) : S2000000x42.Idx → Ideal .f32 :=
  table (m ((c : Thread nD τ).loc main_arg0) : S500000.Idx → Ideal .f32)
    (m ((c : Thread nD τ).loc main_arg1) : S2000000.Idx → Ideal .f32)
    (m ((c : Thread nD τ).loc main_arg2) : S2000000.Idx → BitVec 32)

/-- The printed index maps, decided over the 625 points: every window's block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the distance column's block at point t is row 3200·t + p of the column. -/
theorem dblk_apply (c : Dev nD) (t : Fin cfg0.N) (p : Fin 3200) (r : Fin 2000000) (hr : r.val = 3200 * t.val + p.val) :
    (iblk m c 0 t : Vec Ideal S3200x1 .f32) (ix2 p (0 : Fin 1)) = (V m c main_v7 : S2000000x1.Idx → Ideal .f32) (ix2 r (0 : Fin 1)) := by
  obtain ⟨e0, e1, -, -, -, -⟩ := idx_facts t
  unfold iblk
  rw [View.read_apply]
  show V m c main_v7 _ = V m c main_v7 _
  congr 1
  funext a
  apply Fin.ext
  match a with
  | ⟨0, _⟩ => show win0_0.index t (0 : Fin 2) * 3200 + 1 * p.val = r.val; rw [e0, hr]; omega
  | ⟨1, _⟩ => show win0_0.index t (1 : Fin 2) * 1 + 1 * 0 = 0; rw [e1]

/-- Row p of the angle column's block at point t is row 3200·t + p of the column. -/
theorem ablk_apply (c : Dev nD) (t : Fin cfg0.N) (p : Fin 3200) (r : Fin 2000000) (hr : r.val = 3200 * t.val + p.val) :
    (iblk m c 1 t : Vec Ideal S3200x1 .f32) (ix2 p (0 : Fin 1)) = (V m c main_v8 : S2000000x1.Idx → Ideal .f32) (ix2 r (0 : Fin 1)) := by
  obtain ⟨-, -, e2, e3, -, -⟩ := idx_facts t
  unfold iblk
  rw [View.read_apply]
  show V m c main_v8 _ = V m c main_v8 _
  congr 1
  funext a
  apply Fin.ext
  match a with
  | ⟨0, _⟩ => show win0_1.index t (0 : Fin 2) * 3200 + 1 * p.val = r.val; rw [e2, hr]; omega
  | ⟨1, _⟩ => show win0_1.index t (1 : Fin 2) * 1 + 1 * 0 = 0; rw [e3]

/-- Element (p, k) of the block the body computes at point t is the table's element at row 3200·t + p, column k. -/
theorem point_rows (c : Dev nD) (t : Fin cfg0.N) (p : Fin 3200) (k : Fin 42) (r : Fin 2000000) (hr : r.val = 3200 * t.val + p.val) :
    out0_2 (iblk m c 0 t) (iblk m c 1 t) (ix2 p k) = spec m c (ix2 r k) := by
  rw [Cert.KPiece.block_apply, dblk_apply m c t p r hr, ablk_apply m c t p r hr, dcol_apply, acol_apply]
  rfl

/-- The same at an index j of the block and an index i of the array with i₀ = 3200·t + j₀ and i₁ = j₁. -/
theorem point_table (c : Dev nD) (t : Fin cfg0.N) (j : S3200x42.Idx) (i : S2000000x42.Idx)
    (hi0 : (i 0).val = 3200 * t.val + (j 0).val) (hi1 : (i 1).val = (j 1).val) :
    out0_2 (iblk m c 0 t) (iblk m c 1 t) j = spec m c i := by
  refine (congrArg (out0_2 (iblk m c 0 t) (iblk m c 1 t)) (eq_ix2 j)).trans
    ((point_rows m c t (j 0) (j 1) ⟨(i 0).val, (i 0).isLt⟩ hi0).trans (congrArg (spec m c) ?_))
  funext a
  apply Fin.ext
  match a with
  | ⟨0, _⟩ => rfl
  | ⟨1, _⟩ => exact hi1.symm

/-- What point t writes back is its block of the table. -/
theorem flushed_eq (c : Dev nD) (t : Fin cfg0.N) :
    (dats m 0 c).flushed 2 t = ((cfg0.win 2).blk t).view.read (Elt Ideal) (spec m c) := by
  rw [flushed2]
  funext j
  show out0_2 (iblk m c 0 t) (iblk m c 1 t) j = spec m c (((cfg0.win 2).blk t).view.emb j)
  obtain ⟨-, -, -, -, e4, e5⟩ := idx_facts t
  refine point_table m c t j (((cfg0.win 2).blk t).view.emb j) ?_ ?_
  · show win0_2.index t (0 : Fin 2) * 3200 + 1 * (j 0).val = 3200 * t.val + (j 0).val
    rw [e4]; omega
  · show win0_2.index t (1 : Fin 2) * 42 + 1 * (j 1).val = (j 1).val
    rw [e5]; omega

/-- An index of the array is in point t's block iff each coordinate is in the block's range on its axis. -/
theorem mem_blk (t : Fin cfg0.N) (i : S2000000x42.Idx) :
    i ∈ ((cfg0.win 2).blk t).view.set ↔ ∀ a : Fin 2, win0_2.index t a * S3200x42.size a ≤ (i a).val ∧ (i a).val < win0_2.index t a * S3200x42.size a + S3200x42.size a := by
  show i ∈ ((View.whole main_v9).slice (win0_2.rect t)).set ↔ _
  rw [View.set_slice_whole, Rect.mem_set_unit]
  exact Iff.rfl

/-- Every index of the array lies in the block of the point its row selects: point row / 3200. -/
theorem cover (i : S2000000x42.Idx) : ∃ t : Fin cfg0.N, (cfg0.win 2).flush t = true ∧ i ∈ ((cfg0.win 2).blk t).view.set := by
  have h0 : (i 0).val < 2000000 := (i 0).isLt
  have h1 : (i 1).val < 42 := (i 1).isLt
  have hN : cfg0.N = 625 := N_0
  have hlt : (i 0).val / 3200 < cfg0.N := by rw [hN]; omega
  obtain ⟨-, -, -, -, e4, e5⟩ := idx_facts ⟨(i 0).val / 3200, hlt⟩
  refine ⟨⟨(i 0).val / 3200, hlt⟩, flush0_2 _, ?_⟩
  rw [mem_blk]
  intro a
  match a with
  | ⟨0, _⟩ =>
    show win0_2.index ⟨(i 0).val / 3200, hlt⟩ (0 : Fin 2) * 3200 ≤ (i 0).val ∧ (i 0).val < win0_2.index ⟨(i 0).val / 3200, hlt⟩ (0 : Fin 2) * 3200 + 3200
    rw [e4]
    show (i 0).val / 3200 * 3200 ≤ (i 0).val ∧ (i 0).val < (i 0).val / 3200 * 3200 + 3200
    omega
  | ⟨1, _⟩ =>
    show win0_2.index ⟨(i 0).val / 3200, hlt⟩ (1 : Fin 2) * 42 ≤ (i 1).val ∧ (i 1).val < win0_2.index ⟨(i 0).val / 3200, hlt⟩ (1 : Fin 2) * 42 + 42
    rw [e5]
    omega

/-- The result array after the run is the table. -/
theorem final (c : Dev nD) : (dats m 0 c).arrAt 2 cfg0.N = spec m c :=
  (dats m 0 c).arrAt_eq_of_cover 2 (spec m c) (fun t _ => flushed_eq m c t) (fun i => cover i)

/-- The run, read: the result array at the specification's table of the arguments, the arguments unchanged. -/
theorem run : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KValue

end
-- ==== Proof.RefDefs.lean ====
/-
  The reference program's data flow as array functions, stage by stage, in the program's own spelling: the rescaled
  distances and their envelope per edge; for each order l the radial block [edges, 6] (a row of zeros and a row of
  normalisers cut out of the two [7, 6] tables, the Bessel recurrence run on whole blocks); the seven blocks stacked to
  [edges, 7, 6] and scaled by the envelope; the Legendre recurrence on the cosines per triplet and the seven angular
  columns laid side by side; the gather of whole [7, 6] slabs by the triplets' start indices, the product with the angular
  columns and the final flattening to [triplets, 42].
-/
import proofs.«134738_j46024869543995_1_alg».proof.Proof.Gen.ReferenceIdeal
import proofs.«134738_j46024869543995_1_alg».proof.Proof.Spec

noncomputable section

namespace Cert.RefArr

open Idealize.ShloMosaic Cert.ReferenceIdeal Cert.ReferenceIdeal.Gen Cert.Basis

variable {F : FTy → Type} [FloatOps F]

/-- The two [7, 6] tables and the [7] table, as the program's dense constants. -/
def zTab : FVec F S7x6 .f32 := fun i => FloatOps.ofBits .f32 (lit0 (S7x6.rowMajor i))
def bTab : FVec F S7x6 .f32 := fun i => FloatOps.ofBits .f32 (lit1 (S7x6.rowMajor i))
def yTab : FVec F S7 .f32 := fun i => FloatOps.ofBits .f32 (lit2 (S7.rowMajor i))

/-- A float literal spread over the edges, over an [edges, 6] block, over the triplets. -/
def perEdge (w : BitVec 32) : FVec F S500000 .f32 := broadcastInDim S500000 ![] bcast_S_S500000 (constant S_ .f32 w)
def perBlock (w : BitVec 32) : FVec F S500000x6 .f32 := broadcastInDim S500000x6 ![] bcast_S_S500000x6 (constant S_ .f32 w)
def perTriplet (w : BitVec 32) : FVec F S2000000 .f32 := broadcastInDim S2000000 ![] bcast_S_S2000000 (constant S_ .f32 w)

/-- The distances in units of the cutoff. -/
def dist (D : FVec F S500000 .f32) : FVec F S500000 .f32 := mulf D (perEdge 0x3E4CCCCD#32)

/-- The envelope per edge, cut to zero at d ≥ 1: the powers d⁵ = d·(d²·d²), d⁶ = d²·(d²·d²), d⁷ = (d·d²)·(d²·d²). -/
def env (d : FVec F S500000 .f32) : FVec F S500000 .f32 :=
  select (cmpf .olt d (perEdge 0x3F800000#32))
    (addf (addf (addf (Host.divf (perEdge 0x3F800000#32) d)
        (mulf (perEdge 0xC1E00000#32) (mulf d (mulf (mulf d d) (mulf d d)))))
        (mulf (perEdge 0x42400000#32) (mulf (mulf d d) (mulf (mulf d d) (mulf d d)))))
        (mulf (perEdge 0xC1A80000#32) (mulf (mulf d (mulf d d)) (mulf (mulf d d) (mulf d d)))))
    (perEdge 0x00000000#32)

/-- The envelope times the constant f32((1/5)^1.5). -/
def scale (d : FVec F S500000 .f32) : FVec F S500000 .f32 := mulf (env d) (perEdge 0x3DB72DBF#32)

/-- Row l of a [7, 6] table as a vector [6]. -/
def tabRow (tab : FVec F S7x6 .f32) : Fin 7 → FVec F S6 .f32
  | 0 => shapeCast S6 (extractStridedSlice S1x6 ![0, 0] tab slices_S7x6_S1x6_0_0) shapeCasts_S1x6_S6
  | 1 => shapeCast S6 (extractStridedSlice S1x6 ![1, 0] tab slices_S7x6_S1x6_1_0) shapeCasts_S1x6_S6
  | 2 => shapeCast S6 (extractStridedSlice S1x6 ![2, 0] tab slices_S7x6_S1x6_2_0) shapeCasts_S1x6_S6
  | 3 => shapeCast S6 (extractStridedSlice S1x6 ![3, 0] tab slices_S7x6_S1x6_3_0) shapeCasts_S1x6_S6
  | 4 => shapeCast S6 (extractStridedSlice S1x6 ![4, 0] tab slices_S7x6_S1x6_4_0) shapeCasts_S1x6_S6
  | 5 => shapeCast S6 (extractStridedSlice S1x6 ![5, 0] tab slices_S7x6_S1x6_5_0) shapeCasts_S1x6_S6
  | 6 => shapeCast S6 (extractStridedSlice S1x6 ![6, 0] tab slices_S7x6_S1x6_6_0) shapeCasts_S1x6_S6

/-- A vector [6] repeated down the edges: [6] → [1, 6] → [edges, 6]. -/
def downEdges (v : FVec F S6 .f32) : FVec F S500000x6 .f32 :=
  broadcastInDim S500000x6 ![0, 1] bcast_S1x6_S500000x6_0_1 (broadcastInDim S1x6 ![1] bcast_S6_S1x6_1 v)

/-- The distances repeated across six columns: [edges] → [edges, 1] → [edges, 6]. -/
def acrossCols (d : FVec F S500000 .f32) : FVec F S500000x6 .f32 :=
  broadcastInDim S500000x6 ![0, 1] bcast_S500000x1_S500000x6_0_1 (broadcastInDim S500000x1 ![0] bcast_S500000_S500000x1_0 d)

/-- The spherical Bessel function j_n on a whole block, by the upward recurrence. -/
def besselBlk : Nat → FVec F S500000x6 .f32 → FVec F S500000x6 .f32
  | 0, x => Host.divf (Host.sin x) x
  | 1, x => subf (Host.divf (Host.sin x) (mulf x x)) (Host.divf (Host.cos x) x)
  | n + 2, x => subf (mulf (Host.divf (perBlock (oddW (n + 1))) x) (besselBlk (n + 1) x)) (besselBlk n x)

/-- The radial block of order l: b[l, ·] · j_l(d · z[l, ·]). -/
def radialBlk (d : FVec F S500000 .f32) (l : Fin 7) : FVec F S500000x6 .f32 :=
  mulf (downEdges (tabRow bTab l)) (besselBlk l.val (mulf (acrossCols d) (downEdges (tabRow zTab l))))

/-- A block set as one slab of a stack: [edges, 6] → [edges, 1, 6]. -/
def asSlab (x : FVec F S500000x6 .f32) : FVec F S500000x1x6 .f32 :=
  broadcastInDim S500000x1x6 ![0, 2] bcast_S500000x6_S500000x1x6_0_2 x

/-- The seven radial blocks stacked along the middle axis. -/
def radialStack (d : FVec F S500000 .f32) : FVec F S500000x7x6 .f32 :=
  concatenate S500000x7x6 1 [⟨S500000x1x6, asSlab (radialBlk d 0)⟩, ⟨S500000x1x6, asSlab (radialBlk d 1)⟩, ⟨S500000x1x6, asSlab (radialBlk d 2)⟩, ⟨S500000x1x6, asSlab (radialBlk d 3)⟩, ⟨S500000x1x6, asSlab (radialBlk d 4)⟩, ⟨S500000x1x6, asSlab (radialBlk d 5)⟩, ⟨S500000x1x6, asSlab (radialBlk d 6)⟩]
    concatenates_S500000x1x6_S500000x1x6_S500000x1x6_S500000x1x6_S500000x1x6_S500000x1x6_S500000x1x6_S500000x7x6_d1

/-- The per-edge table the triplets gather from: the scaled envelope times the radial stack. -/
def edgeTable (D : FVec F S500000 .f32) : FVec F S500000x7x6 .f32 :=
  mulf (broadcastInDim S500000x7x6 ![0, 1, 2] bcast_S500000x1x1_S500000x7x6_0_1_2
      (broadcastInDim S500000x1x1 ![0] bcast_S500000_S500000x1x1_0 (scale (dist D))))
    (radialStack (dist D))

/-- The Legendre polynomials of the cosines, by Bonnet's recurrence. -/
def legendreVec : Nat → FVec F S2000000 .f32 → FVec F S2000000 .f32
  | 0, _ => perTriplet 0x3F800000#32
  | 1, c => c
  | n + 2, c => Host.divf (subf (mulf (mulf (perTriplet (legA (n + 2))) c) (legendreVec (n + 1) c))
      (mulf (perTriplet (legB (n + 2))) (legendreVec n c))) (perTriplet (legC (n + 2)))

/-- Entry l of the [7] table as a scalar array. -/
def tabEntry (cy : FVec F S7 .f32) : Fin 7 → FVec F S_ .f32
  | 0 => shapeCast S_ (extractStridedSlice S1 ![0] cy slices_S7_S1_0) shapeCasts_S1_S_
  | 1 => shapeCast S_ (extractStridedSlice S1 ![1] cy slices_S7_S1_1) shapeCasts_S1_S_
  | 2 => shapeCast S_ (extractStridedSlice S1 ![2] cy slices_S7_S1_2) shapeCasts_S1_S_
  | 3 => shapeCast S_ (extractStridedSlice S1 ![3] cy slices_S7_S1_3) shapeCasts_S1_S_
  | 4 => shapeCast S_ (extractStridedSlice S1 ![4] cy slices_S7_S1_4) shapeCasts_S1_S_
  | 5 => shapeCast S_ (extractStridedSlice S1 ![5] cy slices_S7_S1_5) shapeCasts_S1_S_
  | 6 => shapeCast S_ (extractStridedSlice S1 ![6] cy slices_S7_S1_6) shapeCasts_S1_S_

/-- The angular column of order l: y[l] · P_l(cos θ), as [triplets, 1]. -/
def angularCol (c : FVec F S2000000 .f32) (l : Fin 7) : FVec F S2000000x1 .f32 :=
  broadcastInDim S2000000x1 ![0] bcast_S2000000_S2000000x1_0
    (mulf (broadcastInDim S2000000 ![] bcast_S_S2000000 (tabEntry yTab l)) (legendreVec l.val c))

/-- The seven angular columns side by side. -/
def angularTable (A : FVec F S2000000 .f32) : FVec F S2000000x7 .f32 :=
  concatenate S2000000x7 1 [⟨S2000000x1, angularCol (Host.cos A) 0⟩, ⟨S2000000x1, angularCol (Host.cos A) 1⟩, ⟨S2000000x1, angularCol (Host.cos A) 2⟩, ⟨S2000000x1, angularCol (Host.cos A) 3⟩, ⟨S2000000x1, angularCol (Host.cos A) 4⟩, ⟨S2000000x1, angularCol (Host.cos A) 5⟩, ⟨S2000000x1, angularCol (Host.cos A) 6⟩]
    concatenates_S2000000x1_S2000000x1_S2000000x1_S2000000x1_S2000000x1_S2000000x1_S2000000x1_S2000000x7_d1

/-- The start indices as the gather takes them: a negative one shifted by the table's length; as [triplets, 1]. -/
def starts (I : IVec S2000000 32) : IVec S2000000x1 32 :=
  broadcastInDim S2000000x1 ![0] bcast_S2000000_S2000000x1_0
    (select (cmpi .slt I (broadcastInDim S2000000 ![] bcast_S_S2000000 (constantI S_ 32 0#32)))
      (addi I (broadcastInDim S2000000 ![] bcast_S_S2000000 (constantI S_ 32 500000#32))) I)

/-- The program's result from its three arguments. -/
def result (D : FVec F S500000 .f32) (A : FVec F S2000000 .f32) (I : IVec S2000000 32) : FVec F S2000000x42 .f32 :=
  shapeCast S2000000x42
    (mulf (Host.gather gather_S500000x7x6_S2000000x1_S2000000x7x6_12_0_n_n_0_1_176 (edgeTable D) (starts I))
      (broadcastInDim S2000000x7x6 ![0, 1, 2] bcast_S2000000x7x1_S2000000x7x6_0_1_2
        (broadcastInDim S2000000x7x1 ![0, 1] bcast_S2000000x7_S2000000x7x1_0_1 (angularTable A))))
    shapeCasts_S2000000x7x6_S2000000x42

end Cert.RefArr

end
-- ==== Proof.RefOps.lean ====
/- The reference program's @main as a table: its 367 operations in the program's order (the call of the outlined
   select contributes the callee's one operation over the call's buffers), as 18 consecutive chunks; per chunk the
   references it writes and, operation by operation, that each touches TensorCore references only, determines its
   results and writes exactly one reference of that list; which chunks make which printed window; the whole list.
   Each operation's text is the printed line's, unchanged. -/
import proofs.«134738_j46024869543995_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 37 of 367 (window 0). -/
def ch0 : List (HloOp τ sig (Elt F)) :=
  [ StableHlo.nullary main_cst (fun i => FloatOps.ofBits .f32 (lit0 (S7x6.rowMajor i))),
    StableHlo.nullary main_cst_0 (fun i => FloatOps.ofBits .f32 (lit1 (S7x6.rowMajor i))),
    StableHlo.nullary main_cst_1 (fun i => FloatOps.ofBits .f32 (lit2 (S7.rowMajor i))),
    StableHlo.nullary main_cst_2 (constant S_ .f32 0x3E4CCCCD#32),
    StableHlo.unary main_cst_2 main_v0 (broadcastInDim S500000 ![] bcast_S_S500000 : (⟨S_, .f32⟩ : BufTy).Contents (Elt F) → (⟨S500000, .f32⟩ : BufTy).Contents (Elt F)),
    StableHlo.binary main_arg0 main_v0 main_v1 (mulf : (⟨S500000, .f32⟩ : BufTy).Contents (Elt F) → (⟨S500000, .f32⟩ : BufTy).Contents (Elt F) → (⟨S500000, .f32⟩ : BufTy).Contents (Elt F)),
    StableHlo.nullary main_cst_3 (constant S_ .f32 0x3F800000#32),
    StableHlo.unary main_cst_3 main_v2 (broadcastInDim S500000 ![] bcast_S_S500000 : (⟨S_, .f32⟩ : BufTy).Contents (Elt F) → (⟨S500000, .f32⟩ : BufTy).Contents (Elt F)),
    StableHlo.binary main_v2 main_v1 main_v3 (Host.divf : (⟨S500000, .f32⟩ : BufTy).Contents (Elt F) → (⟨S500000, .f32⟩ : BufTy).Contents (Elt F) → (⟨S500000, .f32⟩ : BufTy).Contents (Elt F)),
    StableHlo.binary main_v1 main_v1 main_v4 (mulf : (⟨S500000, .f32⟩ : BufTy).Contents (Elt F) → (⟨S500000, .f32⟩ : BufTy).Contents (Elt F) → (⟨S500000, .f32⟩ : BufTy).Contents (Elt F)),
    StableHlo.binary main_v4 main_v4 main_v5 (mulf : (⟨S500000, .f32⟩ : BufTy).Contents (Elt F) → (⟨S500000, .f32⟩ : BufTy).Contents (Elt F) → (⟨S500000, .f32⟩ : BufTy).Contents (Elt F)),
    StableHlo.binary main_v1 main_v5 main_v6 (mulf : (⟨S500000, .f32⟩ : BufTy).Contents (Elt F) → (⟨S500000, .f32⟩ : BufTy).Contents (Elt F) → (⟨S500000, .f32⟩ : BufTy).Contents (Elt F)),
    StableHlo.nullary main_cst_4 (constant S_ .f32 0xC1E00000#32),
    StableHlo.unary main_cst_4 main_v7 (broadcastInDim S500000 ![] bcast_S_S500000 : (⟨S_, .f32⟩ : BufTy).Contents (Elt F) → (⟨S500000, .f32⟩ : BufTy).Contents (Elt F)),
    StableHlo.binary main_v7 main_v6 main_v8 (mulf : (⟨S500000, .f32⟩ : BufTy).Contents (Elt F) → (⟨S500000, .f32⟩ : BufTy).Contents (Elt F) → (⟨S500000, .f32⟩ : BufTy).Contents (Elt F)),
    StableHlo.binary main_v3 main_v8 main_v9 (addf : (⟨S500000, .f32⟩ : BufTy).Contents (Elt F) → (⟨S500000, .f32⟩ : BufTy).Contents (Elt F) → (⟨S500000, .f32⟩ : BufTy).Contents (Elt F)),
    StableHlo.binary main_v1 main_v1 main_v10 (mulf : (⟨S500000, .f32⟩ : BufTy).Contents (Elt F) → (⟨S500000, .f32⟩ : BufTy).Contents (Elt F) → (⟨S500000, .f32⟩ : BufTy).Contents (Elt F)),
    StableHlo.binary main_v10 main_v10 main_v11 (mulf : (⟨S500000, .f32⟩ : BufTy).Contents (Elt F) → (⟨S500000, .f32⟩ : BufTy).Contents (Elt F) → (⟨S500000, .f32⟩ : BufTy).Contents (Elt F)),
    StableHlo.binary main_v10 main_v11 main_v12 (mulf : (⟨S500000, .f32⟩ : BufTy).Contents (Elt F) → (⟨S500000, .f32⟩ : BufTy).Contents (Elt F) → (⟨S500000, .f32⟩ : BufTy).Contents (Elt F)),
    StableHlo.nullary main_cst_5 (constant S_ .f32 0x42400000#32),
    StableHlo.unary main_cst_5 main_v13 (broadcastInDim S500000 ![] bcast_S_S500000 : (⟨S_, .f32⟩ : BufTy).Contents (Elt F) → (⟨S500000, .f32⟩ : BufTy).Contents (Elt F)),
    StableHlo.binary main_v13 main_v12 main_v14 (mulf : (⟨S500000, .f32⟩ : BufTy).Contents (Elt F) → (⟨S500000, .f32⟩ : BufTy).Contents (Elt F) → (⟨S500000, .f32⟩ : BufTy).Contents (Elt F)),
    StableHlo.binary main_v9 main_v14 main_v15 (addf : (⟨S500000, .f32⟩ : BufTy).Contents (Elt F) → (⟨S500000, .f32⟩ : BufTy).Contents (Elt F) → (⟨S500000, .f32⟩ : BufTy).Contents (Elt F)),
    StableHlo.binary main_v1 main_v1 main_v16 (mulf : (⟨S500000, .f32⟩ : BufTy).Contents (Elt F) → (⟨S500000, .f32⟩ : BufTy).Contents (Elt F) → (⟨S500000, .f32⟩ : BufTy).Contents (Elt F)),
    StableHlo.binary main_v1 main_v16 main_v17 (mulf : (⟨S500000, .f32⟩ : BufTy).Contents (Elt F) → (⟨S500000, .f32⟩ : BufTy).Contents (Elt F) → (⟨S500000, .f32⟩ : BufTy).Contents (Elt F)),
    StableHlo.binary main_v16 main_v16 main_v18 (mulf : (⟨S500000, .f32⟩ : BufTy).Contents (Elt F) → (⟨S500000, .f32⟩ : BufTy).Contents (Elt F) → (⟨S500000, .f32⟩ : BufTy).Contents (Elt F)),
    StableHlo.binary main_v17 main_v18 main_v19 (mulf : (⟨S500000, .f32⟩ : BufTy).Contents (Elt F) → (⟨S500000, .f32⟩ : BufTy).Contents (Elt F) → (⟨S500000, .f32⟩ : BufTy).Contents (Elt F)),
    StableHlo.nullary main_cst_6 (constant S_ .f32 0xC1A80000#32),
    StableHlo.unary main_cst_6 main_v20 (broadcastInDim S500000 ![] bcast_S_S500000 : (⟨S_, .f32⟩ : BufTy).Contents (Elt F) → (⟨S500000, .f32⟩ : BufTy).Contents (Elt F)),
    StableHlo.binary main_v20 main_v19 main_v21 (mulf : (⟨S500000, .f32⟩ : BufTy).Contents (Elt F) → (⟨S500000, .f32⟩ : BufTy).Contents (Elt F) → (⟨S500000, .f32⟩ : BufTy).Contents (Elt F)),
    StableHlo.binary main_v15 main_v21 main_v22 (addf : (⟨S500000, .f32⟩ : BufTy).Contents (Elt F) → (⟨S500000, .f32⟩ : BufTy).Contents (Elt F) → (⟨S500000, .f32⟩ : BufTy).Contents (Elt F)),
    StableHlo.nullary main_cst_7 (constant S_ .f32 0x3F800000#32),
    StableHlo.unary main_cst_7 main_v23 (broadcastInDim S500000 ![] bcast_S_S500000 : (⟨S_, .f32⟩ : BufTy).Contents (Elt F) → (⟨S500000, .f32⟩ : BufTy).Contents (Elt F)),
    StableHlo.binary main_v1 main_v23 main_v24 (cmpf .olt : (⟨S500000, .f32⟩ : BufTy).Contents (Elt F) → (⟨S500000, .f32⟩ : BufTy).Contents (Elt F) → (⟨S500000, .i1⟩ : BufTy).Contents (Elt F)),
    StableHlo.nullary main_cst_8 (constant S_ .f32 0x00000000#32),
    StableHlo.unary main_cst_8 main_v25 (broadcastInDim S500000 ![] bcast_S_S500000 : (⟨S_, .f32⟩ : BufTy).Contents (Elt F) → (⟨S500000, .f32⟩ : BufTy).Contents (Elt F)),
    TRef.ternary (.of main_v24) (.of main_v22) (.of main_v25) main_call0.v0 select ]

/-- The references chunk 0 writes, in order. -/
def wr0 : List (Ref sig .tc) :=
  [main_cst, main_cst_0, main_cst_1, main_cst_2, main_v0, main_v1, main_cst_3, main_v2, main_v3, main_v4, main_v5, main_v6, main_cst_4, main_v7, main_v8, main_v9, main_v10, main_v11, main_v12, main_cst_5, main_v13, main_v14, main_v15, main_v16, main_v17, main_v18, main_v19, main_cst_6, main_v20, main_v21, main_v22, main_cst_7, main_v23, main_v24, main_cst_8, main_v25, main_v26]

theorem ch0_sub : (ch0 : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., ternary_bufs_sub ..⟩

theorem ch0_fresh : (ch0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch0_wr : (ch0 : List (HloOp τ sig (Elt F))).Forall fun op => ∃ y ∈ wr0, op.writes = {Proc.devRef (τ := τ) .tc y} :=
  ⟨⟨main_cst, by decide, rfl⟩, ⟨main_cst_0, by decide, rfl⟩, ⟨main_cst_1, by decide, rfl⟩, ⟨main_cst_2, by decide, rfl⟩, ⟨main_v0, by decide, rfl⟩, ⟨main_v1, by decide, rfl⟩, ⟨main_cst_3, by decide, rfl⟩, ⟨main_v2, by decide, rfl⟩, ⟨main_v3, by decide, rfl⟩, ⟨main_v4, by decide, rfl⟩, ⟨main_v5, by decide, rfl⟩, ⟨main_v6, by decide, rfl⟩, ⟨main_cst_4, by decide, rfl⟩, ⟨main_v7, by decide, rfl⟩, ⟨main_v8, by decide, rfl⟩, ⟨main_v9, by decide, rfl⟩, ⟨main_v10, by decide, rfl⟩, ⟨main_v11, by decide, rfl⟩, ⟨main_v12, by decide, rfl⟩, ⟨main_cst_5, by decide, rfl⟩, ⟨main_v13, by decide, rfl⟩, ⟨main_v14, by decide, rfl⟩, ⟨main_v15, by decide, rfl⟩, ⟨main_v16, by decide, rfl⟩, ⟨main_v17, by decide, rfl⟩, ⟨main_v18, by decide, rfl⟩, ⟨main_v19, by decide, rfl⟩, ⟨main_cst_6, by decide, rfl⟩, ⟨main_v20, by decide, rfl⟩, ⟨main_v21, by decide, rfl⟩, ⟨main_v22, by decide, rfl⟩, ⟨main_cst_7, by decide, rfl⟩, ⟨main_v23, by decide, rfl⟩, ⟨main_v24, by decide, rfl⟩, ⟨main_cst_8, by decide, rfl⟩, ⟨main_v25, by decide, rfl⟩, ⟨main_v26, by decide, rfl⟩⟩

/-- Operations 38 … 51 of 367 (window 0). -/
def ch1 : List (HloOp τ sig (Elt F)) :=
  [ StableHlo.unary main_cst_0 main_v27 ((extractStridedSlice S1x6 ![0, 0] · slices_S7x6_S1x6_0_0) : (⟨S7x6, .f32⟩ : BufTy).Contents (Elt F) → (⟨S1x6, .f32⟩ : BufTy).Contents (Elt F)),
    StableHlo.reshape main_v27 main_v28 rfl shapeCasts_S1x6_S6,
    StableHlo.unary main_v1 main_v29 (broadcastInDim S500000x1 ![0] bcast_S500000_S500000x1_0 : (⟨S500000, .f32⟩ : BufTy).Contents (Elt F) → (⟨S500000x1, .f32⟩ : BufTy).Contents (Elt F)),
    StableHlo.unary main_cst main_v30 ((extractStridedSlice S1x6 ![0, 0] · slices_S7x6_S1x6_0_0) : (⟨S7x6, .f32⟩ : BufTy).Contents (Elt F) → (⟨S1x6, .f32⟩ : BufTy).Contents (Elt F)),
    StableHlo.reshape main_v30 main_v31 rfl shapeCasts_S1x6_S6,
    StableHlo.unary main_v31 main_v32 (broadcastInDim S1x6 ![1] bcast_S6_S1x6_1 : (⟨S6, .f32⟩ : BufTy).Contents (Elt F) → (⟨S1x6, .f32⟩ : BufTy).Contents (Elt F)),
    StableHlo.unary main_v29 main_v33 (broadcastInDim S500000x6 ![0, 1] bcast_S500000x1_S500000x6_0_1 : (⟨S500000x1, .f32⟩ : BufTy).Contents (Elt F) → (⟨S500000x6, .f32⟩ : BufTy).Contents (Elt F)),
    StableHlo.unary main_v32 main_v34 (broadcastInDim S500000x6 ![0, 1] bcast_S1x6_S500000x6_0_1 : (⟨S1x6, .f32⟩ : BufTy).Contents (Elt F) → (⟨S500000x6, .f32⟩ : BufTy).Contents (Elt F)),
    StableHlo.binary main_v33 main_v34 main_v35 (mulf : (⟨S500000x6, .f32⟩ : BufTy).Contents (Elt F) → (⟨S500000x6, .f32⟩ : BufTy).Contents (Elt F) → (⟨S500000x6, .f32⟩ : BufTy).Contents (Elt F)),
    StableHlo.unary main_v35 main_v36 (Host.sin : (⟨S500000x6, .f32⟩ : BufTy).Contents (Elt F) → (⟨S500000x6, .f32⟩ : BufTy).Contents (Elt F)),
    StableHlo.binary main_v36 main_v35 main_v37 (Host.divf : (⟨S500000x6, .f32⟩ : BufTy).Contents (Elt F) → (⟨S500000x6, .f32⟩ : BufTy).Contents (Elt F) → (⟨S500000x6, .f32⟩ : BufTy).Contents (Elt F)),
    StableHlo.unary main_v28 main_v38 (broadcastInDim S1x6 ![1] bcast_S6_S1x6_1 : (⟨S6, .f32⟩ : BufTy).Contents (Elt F) → (⟨S1x6, .f32⟩ : BufTy).Contents (Elt F)),
    StableHlo.unary main_v38 main_v39 (broadcastInDim S500000x6 ![0, 1] bcast_S1x6_S500000x6_0_1 : (⟨S1x6, .f32⟩ : BufTy).Contents (Elt F) → (⟨S500000x6, .f32⟩ : BufTy).Contents (Elt F)),
    StableHlo.binary main_v39 main_v37 main_v40 (mulf : (⟨S500000x6, .f32⟩ : BufTy).Contents (Elt F) → (⟨S500000x6, .f32⟩ : BufTy).Contents (Elt F) → (⟨S500000x6, .f32⟩ : BufTy).Contents (Elt F)) ]

/-- The references chunk 1 writes, in order. -/
def wr1 : List (Ref sig .tc) :=
  [main_v27, main_v28, main_v29, main_v30, main_v31, main_v32, main_v33, main_v34, main_v35, main_v36, main_v37, main_v38, main_v39, main_v40]

theorem ch1_sub : (ch1 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., unary_bufs_sub .., binary_bufs_sub ..⟩

theorem ch1_fresh : (ch1 : List (HloOp τ sig (Elt F))).Forall fun op => op.fresh = ∅ :=
  ⟨rfl, rfl, rfl, rfl, rfl, rfl, rfl, rfl, rfl, rfl, rfl, rfl, rfl, rfl⟩

theorem ch1_wr : (ch1 : List (HloOp τ sig (Elt F))).Forall fun op => ∃ y ∈ wr1, op.writes = {Proc.devRef (τ := τ) .tc y} :=
  ⟨⟨main_v27, by decide, rfl⟩, ⟨main_v28, by decide, rfl⟩, ⟨main_v29, by decide, rfl⟩, ⟨main_v30, by decide, rfl⟩, ⟨main_v31, by decide, rfl⟩, ⟨main_v32, by decide, rfl⟩, ⟨main_v33, by decide, rfl⟩, ⟨main_v34, by decide, rfl⟩, ⟨main_v35, by decide, rfl⟩, ⟨main_v36, by decide, rfl⟩, ⟨main_v37, by decide, rfl⟩, ⟨main_v38, by decide, rfl⟩, ⟨main_v39, by decide, rfl⟩, ⟨main_v40, by decide, rfl⟩⟩

/-- Operations 52 … 60 of 367 (window 0). -/
def ch2 : List (HloOp τ sig (Elt F)) :=
  [ StableHlo.unary main_cst_0 main_v41 ((extractStridedSlice S1x6 ![1, 0] · slices_S7x6_S1x6_1_0) : (⟨S7x6, .f32⟩ : BufTy).Contents (Elt F) → (⟨S1x6, .f32⟩ : BufTy).Contents (Elt F)),
    StableHlo.reshape main_v41 main_v42 rfl shapeCasts_S1x6_S6,
    StableHlo.unary main_v1 main_v43 (broadcastInDim S500000x1 ![0] bcast_S500000_S500000x1_0 : (⟨S500000, .f32⟩ : BufTy).Contents (Elt F) → (⟨S500000x1, .f32⟩ : BufTy).Contents (Elt F)),
    StableHlo.unary main_cst main_v44 ((extractStridedSlice S1x6 ![1, 0] · slices_S7x6_S1x6_1_0) : (⟨S7x6, .f32⟩ : BufTy).Contents (Elt F) → (⟨S1x6, .f32⟩ : BufTy).Contents (Elt F)),
    StableHlo.reshape main_v44 main_v45 rfl shapeCasts_S1x6_S6,
    StableHlo.unary main_v45 main_v46 (broadcastInDim S1x6 ![1] bcast_S6_S1x6_1 : (⟨S6, .f32⟩ : BufTy).Contents (Elt F) → (⟨S1x6, .f32⟩ : BufTy).Contents (Elt F)),
    StableHlo.unary main_v43 main_v47 (broadcastInDim S500000x6 ![0, 1] bcast_S500000x1_S500000x6_0_1 : (⟨S500000x1, .f32⟩ : BufTy).Contents (Elt F) → (⟨S500000x6, .f32⟩ : BufTy).Contents (Elt F)),
    StableHlo.unary main_v46 main_v48 (broadcastInDim S500000x6 ![0, 1] bcast_S1x6_S500000x6_0_1 : (⟨S1x6, .f32⟩ : BufTy).Contents (Elt F) → (⟨S500000x6, .f32⟩ : BufTy).Contents (Elt F)),
    StableHlo.binary main_v47 main_v48 main_v49 (mulf : (⟨S500000x6, .f32⟩ : BufTy).Contents (Elt F) → (⟨S500000x6, .f32⟩ : BufTy).Contents (Elt F) → (⟨S500000x6, .f32⟩ : BufTy).Contents (Elt F)) ]

/-- The references chunk 2 writes, in order. -/
def wr2 : List (Ref sig .tc) :=
  [main_v41, main_v42, main_v43, main_v44, main_v45, main_v46, main_v47, main_v48, main_v49]

theorem ch2_sub : (ch2 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub ..⟩

theorem ch2_fresh : (ch2 : List (HloOp τ sig (Elt F))).Forall fun op => op.fresh = ∅ :=
  ⟨rfl, rfl, rfl, rfl, rfl, rfl, rfl, rfl, rfl⟩

theorem ch2_wr : (ch2 : List (HloOp τ sig (Elt F))).Forall fun op => ∃ y ∈ wr2, op.writes = {Proc.devRef (τ := τ) .tc y} :=
  ⟨⟨main_v41, by decide, rfl⟩, ⟨main_v42, by decide, rfl⟩, ⟨main_v43, by decide, rfl⟩, ⟨main_v44, by decide, rfl⟩, ⟨main_v45, by decide, rfl⟩, ⟨main_v46, by decide, rfl⟩, ⟨main_v47, by decide, rfl⟩, ⟨main_v48, by decide, rfl⟩, ⟨main_v49, by decide, rfl⟩⟩

/-- Operations 61 … 71 of 367 (window 1). -/
def ch3 : List (HloOp τ sig (Elt F)) :=
  [ StableHlo.unary main_v49 main_v50 (Host.sin : (⟨S500000x6, .f32⟩ : BufTy).Contents (Elt F) → (⟨S500000x6, .f32⟩ : BufTy).Contents (Elt F)),
    StableHlo.binary main_v50 main_v49 main_v51 (Host.divf : (⟨S500000x6, .f32⟩ : BufTy).Contents (Elt F) → (⟨S500000x6, .f32⟩ : BufTy).Contents (Elt F) → (⟨S500000x6, .f32⟩ : BufTy).Contents (Elt F)),
    StableHlo.unary main_v49 main_v52 (Host.sin : (⟨S500000x6, .f32⟩ : BufTy).Contents (Elt F) → (⟨S500000x6, .f32⟩ : BufTy).Contents (Elt F)),
    StableHlo.binary main_v49 main_v49 main_v53 (mulf : (⟨S500000x6, .f32⟩ : BufTy).Contents (Elt F) → (⟨S500000x6, .f32⟩ : BufTy).Contents (Elt F) → (⟨S500000x6, .f32⟩ : BufTy).Contents (Elt F)),
    StableHlo.binary main_v52 main_v53 main_v54 (Host.divf : (⟨S500000x6, .f32⟩ : BufTy).Contents (Elt F) → (⟨S500000x6, .f32⟩ : BufTy).Contents (Elt F) → (⟨S500000x6, .f32⟩ : BufTy).Contents (Elt F)),
    StableHlo.unary main_v49 main_v55 (Host.cos : (⟨S500000x6, .f32⟩ : BufTy).Contents (Elt F) → (⟨S500000x6, .f32⟩ : BufTy).Contents (Elt F)),
    StableHlo.binary main_v55 main_v49 main_v56 (Host.divf : (⟨S500000x6, .f32⟩ : BufTy).Contents (Elt F) → (⟨S500000x6, .f32⟩ : BufTy).Contents (Elt F) → (⟨S500000x6, .f32⟩ : BufTy).Contents (Elt F)),
    StableHlo.binary main_v54 main_v56 main_v57 (subf : (⟨S500000x6, .f32⟩ : BufTy).Contents (Elt F) → (⟨S500000x6, .f32⟩ : BufTy).Contents (Elt F) → (⟨S500000x6, .f32⟩ : BufTy).Contents (Elt F)),
    StableHlo.unary main_v42 main_v58 (broadcastInDim S1x6 ![1] bcast_S6_S1x6_1 : (⟨S6, .f32⟩ : BufTy).Contents (Elt F) → (⟨S1x6, .f32⟩ : BufTy).Contents (Elt F)),
    StableHlo.unary main_v58 main_v59 (broadcastInDim S500000x6 ![0, 1] bcast_S1x6_S500000x6_0_1 : (⟨S1x6, .f32⟩ : BufTy).Contents (Elt F) → (⟨S500000x6, .f32⟩ : BufTy).Contents (Elt F)),
    StableHlo.binary main_v59 main_v57 main_v60 (mulf : (⟨S500000x6, .f32⟩ : BufTy).Contents (Elt F) → (⟨S500000x6, .f32⟩ : BufTy).Contents (Elt F) → (⟨S500000x6, .f32⟩ : BufTy).Contents (Elt F)) ]

/-- The references chunk 3 writes, in order. -/
def wr3 : List (Ref sig .tc) :=
  [main_v50, main_v51, main_v52, main_v53, main_v54, main_v55, main_v56, main_v57, main_v58, main_v59, main_v60]

theorem ch3_sub : (ch3 : List (HloOp τ sig (Elt F))).Forall fun op => op.bufs ⊆ tcRefs τ sig :=
  ⟨unary_bufs_sub .., binary_bufs_sub .., unary_bufs_sub .., binary_bufs_sub .., binary_bufs_sub .., unary_bufs_sub .., binary_bufs_sub .., binary_bufs_sub .., unary_bufs_sub .., unary_bufs_sub .., binary_bufs_sub ..⟩

theorem ch3_fresh : (ch3 : List (HloOp τ sig (Elt F))).Forall fun op => op.fresh = ∅ :=
  ⟨rfl, rfl, rfl, rfl, rfl, rfl, rfl, rfl, rfl, rfl, rfl⟩

theorem ch3_wr : (ch3 : List (HloOp τ sig (Elt F))).Forall fun op => ∃ y ∈ wr3, op.writes = {Proc.devRef (τ := τ) .tc y} :=
  ⟨⟨main_v50, by decide, rfl⟩, ⟨main_v51, by decide, rfl⟩, ⟨main_v52, by decide, rfl⟩, ⟨main_v53, by decide, rfl⟩, ⟨main_v54, by decide, rfl⟩, ⟨main_v55, by decide, rfl⟩, ⟨main_v56, by decide, rfl⟩, ⟨main_v57, by decide, rfl⟩, ⟨main_v58, by decide, rfl⟩, ⟨main_v59, by decide, rfl⟩, ⟨main_v60, by decide, rfl⟩⟩

/-- Operations 72 … 96 of 367 (window 1). -/
def ch4 : List (HloOp τ sig (Elt F)) :=
  [ StableHlo.unary main_cst_0 main_v61 ((extractStridedSlice S1x6 ![2, 0] · slices_S7x6_S1x6_2_0) : (⟨S7x6, .f32⟩ : BufTy).Contents (Elt F) → (⟨S1x6, .f32⟩ : BufTy).Contents (Elt F)),
    StableHlo.reshape main_v61 main_v62 rfl shapeCasts_S1x6_S6,
    StableHlo.unary main_v1 main_v63 (broadcastInDim S500000x1 ![0] bcast_S500000_S500000x1_0 : (⟨S500000, .f32⟩ : BufTy).Contents (Elt F) → (⟨S500000x1, .f32⟩ : BufTy).Contents (Elt F)),
    StableHlo.unary main_cst main_v64 ((extractStridedSlice S1x6 ![2, 0] · slices_S7x6_S1x6_2_0) : (⟨S7x6, .f32⟩ : BufTy).Contents (Elt F) → (⟨S1x6, .f32⟩ : BufTy).Contents (Elt F)),
    StableHlo.reshape main_v64 main_v65 rfl shapeCasts_S1x6_S6,
    StableHlo.unary main_v65 main_v66 (broadcastInDim S1x6 ![1] bcast_S6_S1x6_1 : (⟨S6, .f32⟩ : BufTy).Contents (Elt F) → (⟨S1x6, .f32⟩ : BufTy).Contents (Elt F)),
    StableHlo.unary main_v63 main_v67 (broadcastInDim S500000x6 ![0, 1] bcast_S500000x1_S500000x6_0_1 : (⟨S500000x1, .f32⟩ : BufTy).Contents (Elt F) → (⟨S500000x6, .f32⟩ : BufTy).Contents (Elt F)),
    StableHlo.unary main_v66 main_v68 (broadcastInDim S500000x6 ![0, 1] bcast_S1x6_S500000x6_0_1 : (⟨S1x6, .f32⟩ : BufTy).Contents (Elt F) → (⟨S500000x6, .f32⟩ : BufTy).Contents (Elt F)),
    StableHlo.binary main_v67 main_v68 main_v69 (mulf : (⟨S500000x6, .f32⟩ : BufTy).Contents (Elt F) → (⟨S500000x6, .f32⟩ : BufTy).Contents (Elt F) → (⟨S500000x6, .f32⟩ : BufTy).Contents (Elt F)),
    StableHlo.unary main_v69 main_v70 (Host.sin : (⟨S500000x6, .f32⟩ : BufTy).Contents (Elt F) → (⟨S500000x6, .f32⟩ : BufTy).Contents (Elt F)),
    StableHlo.binary main_v70 main_v69 main_v71 (Host.divf : (⟨S500000x6, .f32⟩ : BufTy).Contents (Elt F) → (⟨S500000x6, .f32⟩ : BufTy).Contents (Elt F) → (⟨S500000x6, .f32⟩ : BufTy).Contents (Elt F)),
    StableHlo.unary main_v69 main_v72 (Host.sin : (⟨S500000x6, .f32⟩ : BufTy).Contents (Elt F) → (⟨S500000x6, .f32⟩ : BufTy).Contents (Elt F)),
    StableHlo.binary main_v69 main_v69 main_v73 (mulf : (⟨S500000x6, .f32⟩ : BufTy).Contents (Elt F) → (⟨S500000x6, .f32⟩ : BufTy).Contents (Elt F) → (⟨S500000x6, .f32⟩ : BufTy).Contents (Elt F)),
    StableHlo.binary main_v72 main_v73 main_v74 (Host.divf : (⟨S500000x6, .f32⟩ : BufTy).Contents (Elt F) → (⟨S500000x6, .f32⟩ : BufTy).Contents (Elt F) → (⟨S500000x6, .f32⟩ : BufTy).Contents (Elt F)),
    StableHlo.unary main_v69 main_v75 (Host.cos : (⟨S500000x6, .f32⟩ : BufTy).Contents (Elt F) → (⟨S500000x6, .f32⟩ : BufTy).Contents (Elt F)),
    StableHlo.binary main_v75 main_v69 main_v76 (Host.divf : (⟨S500000x6, .f32⟩ : BufTy).Contents (Elt F) → (⟨S500000x6, .f32⟩ : BufTy).Contents (Elt F) → (⟨S500000x6, .f32⟩ : BufTy).Contents (Elt F)),
    StableHlo.binary main_v74 main_v76 main_v77 (subf : (⟨S500000x6, .f32⟩ : BufTy).Contents (Elt F) → (⟨S500000x6, .f32⟩ : BufTy).Contents (Elt F) → (⟨S500000x6, .f32⟩ : BufTy).Contents (Elt F)),
    StableHlo.nullary main_cst_9 (constant S_ .f32 0x40400000#32),
    StableHlo.unary main_cst_9 main_v78 (broadcastInDim S500000x6 ![] bcast_S_S500000x6 : (⟨S_, .f32⟩ : BufTy).Contents (Elt F) → (⟨S500000x6, .f32⟩ : BufTy).Contents (Elt F)),
    StableHlo.binary main_v78 main_v69 main_v79 (Host.divf : (⟨S500000x6, .f32⟩ : BufTy).Contents (Elt F) → (⟨S500000x6, .f32⟩ : BufTy).Contents (Elt F) → (⟨S500000x6, .f32⟩ : BufTy).Contents (Elt F)),
    StableHlo.binary main_v79 main_v77 main_v80 (mulf : (⟨S500000x6, .f32⟩ : BufTy).Contents (Elt F) → (⟨S500000x6, .f32⟩ : BufTy).Contents (Elt F) → (⟨S500000x6, .f32⟩ : BufTy).Contents (Elt F)),
    StableHlo.binary main_v80 main_v71 main_v81 (subf : (⟨S500000x6, .f32⟩ : BufTy).Contents (Elt F) → (⟨S500000x6, .f32⟩ : BufTy).Contents (Elt F) → (⟨S500000x6, .f32⟩ : BufTy).Contents (Elt F)),
    StableHlo.unary main_v62 main_v82 (broadcastInDim S1x6 ![1] bcast_S6_S1x6_1 : (⟨S6, .f32⟩ : BufTy).Contents (Elt F) → (⟨S1x6, .f32⟩ : BufTy).Contents (Elt F)),
    StableHlo.unary main_v82 main_v83 (broadcastInDim S500000x6 ![0, 1] bcast_S1x6_S500000x6_0_1 : (⟨S1x6, .f32⟩ : BufTy).Contents (Elt F) → (⟨S500000x6, .f32⟩ : BufTy).Contents (Elt F)),
    StableHlo.binary main_v83 main_v81 main_v84 (mulf : (⟨S500000x6, .f32⟩ : BufTy).Contents (Elt F) → (⟨S500000x6, .f32⟩ : BufTy).Contents (Elt F) → (⟨S500000x6, .f32⟩ : BufTy).Contents (Elt F)) ]

/-- The references chunk 4 writes, in order. -/
def wr4 : List (Ref sig .tc) :=
  [main_v61, main_v62, main_v63, main_v64, main_v65, main_v66, main_v67, main_v68, main_v69, main_v70, main_v71, main_v72, main_v73, main_v74, main_v75, main_v76, main_v77, main_cst_9, main_v78, main_v79, main_v80, main_v81, main_v82, main_v83, main_v84]

theorem ch4_sub : (ch4 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

theorem ch4_fresh : (ch4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem ch4_wr : (ch4 : List (HloOp τ sig (Elt F))).Forall fun op => ∃ y ∈ wr4, op.writes = {Proc.devRef (τ := τ) .tc y} :=
  ⟨⟨main_v61, by decide, rfl⟩, ⟨main_v62, by decide, rfl⟩, ⟨main_v63, by decide, rfl⟩, ⟨main_v64, by decide, rfl⟩, ⟨main_v65, by decide, rfl⟩, ⟨main_v66, by decide, rfl⟩, ⟨main_v67, by decide, rfl⟩, ⟨main_v68, by decide, rfl⟩, ⟨main_v69, by decide, rfl⟩, ⟨main_v70, by decide, rfl⟩, ⟨main_v71, by decide, rfl⟩, ⟨main_v72, by decide, rfl⟩, ⟨main_v73, by decide, rfl⟩, ⟨main_v74, by decide, rfl⟩, ⟨main_v75, by decide, rfl⟩, ⟨main_v76, by decide, rfl⟩, ⟨main_v77, by decide, rfl⟩, ⟨main_cst_9, by decide, rfl⟩, ⟨main_v78, by decide, rfl⟩, ⟨main_v79, by decide, rfl⟩, ⟨main_v80, by decide, rfl⟩, ⟨main_v81, by decide, rfl⟩, ⟨main_v82, by decide, rfl⟩, ⟨main_v83, by decide, rfl⟩, ⟨main_v84, by decide, rfl⟩⟩

/-- Operations 97 … 120 of 367 (window 1). -/
def ch5 : List (HloOp τ sig (Elt F)) :=
  [ StableHlo.unary main_cst_0 main_v85 ((extractStridedSlice S1x6 ![3, 0] · slices_S7x6_S1x6_3_0) : (⟨S7x6, .f32⟩ : BufTy).Contents (Elt F) → (⟨S1x6, .f32⟩ : BufTy).Contents (Elt F)),
    StableHlo.reshape main_v85 main_v86 rfl shapeCasts_S1x6_S6,
    StableHlo.unary main_v1 main_v87 (broadcastInDim S500000x1 ![0] bcast_S500000_S500000x1_0 : (⟨S500000, .f32⟩ : BufTy).Contents (Elt F) → (⟨S500000x1, .f32⟩ : BufTy).Contents (Elt F)),
    StableHlo.unary main_cst main_v88 ((extractStridedSlice S1x6 ![3, 0] · slices_S7x6_S1x6_3_0) : (⟨S7x6, .f32⟩ : BufTy).Contents (Elt F) → (⟨S1x6, .f32⟩ : BufTy).Contents (Elt F)),
    StableHlo.reshape main_v88 main_v89 rfl shapeCasts_S1x6_S6,
    StableHlo.unary main_v89 main_v90 (broadcastInDim S1x6 ![1] bcast_S6_S1x6_1 : (⟨S6, .f32⟩ : BufTy).Contents (Elt F) → (⟨S1x6, .f32⟩ : BufTy).Contents (Elt F)),
    StableHlo.unary main_v87 main_v91 (broadcastInDim S500000x6 ![0, 1] bcast_S500000x1_S500000x6_0_1 : (⟨S500000x1, .f32⟩ : BufTy).Contents (Elt F) → (⟨S500000x6, .f32⟩ : BufTy).Contents (Elt F)),
    StableHlo.unary main_v90 main_v92 (broadcastInDim S500000x6 ![0, 1] bcast_S1x6_S500000x6_0_1 : (⟨S1x6, .f32⟩ : BufTy).Contents (Elt F) → (⟨S500000x6, .f32⟩ : BufTy).Contents (Elt F)),
    StableHlo.binary main_v91 main_v92 main_v93 (mulf : (⟨S500000x6, .f32⟩ : BufTy).Contents (Elt F) → (⟨S500000x6, .f32⟩ : BufTy).Contents (Elt F) → (⟨S500000x6, .f32⟩ : BufTy).Contents (Elt F)),
    StableHlo.unary main_v93 main_v94 (Host.sin : (⟨S500000x6, .f32⟩ : BufTy).Contents (Elt F) → (⟨S500000x6, .f32⟩ : BufTy).Contents (Elt F)),
    StableHlo.binary main_v94 main_v93 main_v95 (Host.divf : (⟨S500000x6, .f32⟩ : BufTy).Contents (Elt F) → (⟨S500000x6, .f32⟩ : BufTy).Contents (Elt F) → (⟨S500000x6, .f32⟩ : BufTy).Contents (Elt F)),
    StableHlo.unary main_v93 main_v96 (Host.sin : (⟨S500000x6, .f32⟩ : BufTy).Contents (Elt F) → (⟨S500000x6, .f32⟩ : BufTy).Contents (Elt F)),
    StableHlo.binary main_v93 main_v93 main_v97 (mulf : (⟨S500000x6, .f32⟩ : BufTy).Contents (Elt F) → (⟨S500000x6, .f32⟩ : BufTy).Contents (Elt F) → (⟨S500000x6, .f32⟩ : BufTy).Contents (Elt F)),
    StableHlo.binary main_v96 main_v97 main_v98 (Host.divf : (⟨S500000x6, .f32⟩ : BufTy).Contents (Elt F) → (⟨S500000x6, .f32⟩ : BufTy).Contents (Elt F) → (⟨S500000x6, .f32⟩ : BufTy).Contents (Elt F)),
    StableHlo.unary main_v93 main_v99 (Host.cos : (⟨S500000x6, .f32⟩ : BufTy).Contents (Elt F) → (⟨S500000x6, .f32⟩ : BufTy).Contents (Elt F)),
    StableHlo.binary main_v99 main_v93 main_v100 (Host.divf : (⟨S500000x6, .f32⟩ : BufTy).Contents (Elt F) → (⟨S500000x6, .f32⟩ : BufTy).Contents (Elt F) → (⟨S500000x6, .f32⟩ : BufTy).Contents (Elt F)),
    StableHlo.binary main_v98 main_v100 main_v101 (subf : (⟨S500000x6, .f32⟩ : BufTy).Contents (Elt F) → (⟨S500000x6, .f32⟩ : BufTy).Contents (Elt F) → (⟨S500000x6, .f32⟩ : BufTy).Contents (Elt F)),
    StableHlo.nullary main_cst_10 (constant S_ .f32 0x40400000#32),
    StableHlo.unary main_cst_10 main_v102 (broadcastInDim S500000x6 ![] bcast_S_S500000x6 : (⟨S_, .f32⟩ : BufTy).Contents (Elt F) → (⟨S500000x6, .f32⟩ : BufTy).Contents (Elt F)),
    StableHlo.binary main_v102 main_v93 main_v103 (Host.divf : (⟨S500000x6, .f32⟩ : BufTy).Contents (Elt F) → (⟨S500000x6, .f32⟩ : BufTy).Contents (Elt F) → (⟨S500000x6, .f32⟩ : BufTy).Contents (Elt F)),
    StableHlo.binary main_v103 main_v101 main_v104 (mulf : (⟨S500000x6, .f32⟩ : BufTy).Contents (Elt F) → (⟨S500000x6, .f32⟩ : BufTy).Contents (Elt F) → (⟨S500000x6, .f32⟩ : BufTy).Contents (Elt F)),
    StableHlo.binary main_v104 main_v95 main_v105 (subf : (⟨S500000x6, .f32⟩ : BufTy).Contents (Elt F) → (⟨S500000x6, .f32⟩ : BufTy).Contents (Elt F) → (⟨S500000x6, .f32⟩ : BufTy).Contents (Elt F)),
    StableHlo.nullary main_cst_11 (constant S_ .f32 0x40A00000#32),
    StableHlo.unary main_cst_11 main_v106 (broadcastInDim S500000x6 ![] bcast_S_S500000x6 : (⟨S_, .f32⟩ : BufTy).Contents (Elt F) → (⟨S500000x6, .f32⟩ : BufTy).Contents (Elt F)) ]

/-- The references chunk 5 writes, in order. -/
def wr5 : List (Ref sig .tc) :=
  [main_v85, main_v86, main_v87, main_v88, main_v89, main_v90, main_v91, main_v92, main_v93, main_v94, main_v95, main_v96, main_v97, main_v98, main_v99, main_v100, main_v101, main_cst_10, main_v102, main_v103, main_v104, main_v105, main_cst_11, main_v106]

theorem ch5_sub : (ch5 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub ..⟩

theorem ch5_fresh : (ch5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem ch5_wr : (ch5 : List (HloOp τ sig (Elt F))).Forall fun op => ∃ y ∈ wr5, op.writes = {Proc.devRef (τ := τ) .tc y} :=
  ⟨⟨main_v85, by decide, rfl⟩, ⟨main_v86, by decide, rfl⟩, ⟨main_v87, by decide, rfl⟩, ⟨main_v88, by decide, rfl⟩, ⟨main_v89, by decide, rfl⟩, ⟨main_v90, by decide, rfl⟩, ⟨main_v91, by decide, rfl⟩, ⟨main_v92, by decide, rfl⟩, ⟨main_v93, by decide, rfl⟩, ⟨main_v94, by decide, rfl⟩, ⟨main_v95, by decide, rfl⟩, ⟨main_v96, by decide, rfl⟩, ⟨main_v97, by decide, rfl⟩, ⟨main_v98, by decide, rfl⟩, ⟨main_v99, by decide, rfl⟩, ⟨main_v100, by decide, rfl⟩, ⟨main_v101, by decide, rfl⟩, ⟨main_cst_10, by decide, rfl⟩, ⟨main_v102, by decide, rfl⟩, ⟨main_v103, by decide, rfl⟩, ⟨main_v104, by decide, rfl⟩, ⟨main_v105, by decide, rfl⟩, ⟨main_cst_11, by decide, rfl⟩, ⟨main_v106, by decide, rfl⟩⟩

/-- Operations 121 … 126 of 367 (window 2). -/
def ch6 : List (HloOp τ sig (Elt F)) :=
  [ StableHlo.binary main_v106 main_v93 main_v107 (Host.divf : (⟨S500000x6, .f32⟩ : BufTy).Contents (Elt F) → (⟨S500000x6, .f32⟩ : BufTy).Contents (Elt F) → (⟨S500000x6, .f32⟩ : BufTy).Contents (Elt F)),
    StableHlo.binary main_v107 main_v105 main_v108 (mulf : (⟨S500000x6, .f32⟩ : BufTy).Contents (Elt F) → (⟨S500000x6, .f32⟩ : BufTy).Contents (Elt F) → (⟨S500000x6, .f32⟩ : BufTy).Contents (Elt F)),
    StableHlo.binary main_v108 main_v101 main_v109 (subf : (⟨S500000x6, .f32⟩ : BufTy).Contents (Elt F) → (⟨S500000x6, .f32⟩ : BufTy).Contents (Elt F) → (⟨S500000x6, .f32⟩ : BufTy).Contents (Elt F)),
    StableHlo.unary main_v86 main_v110 (broadcastInDim S1x6 ![1] bcast_S6_S1x6_1 : (⟨S6, .f32⟩ : BufTy).Contents (Elt F) → (⟨S1x6, .f32⟩ : BufTy).Contents (Elt F)),
    StableHlo.unary main_v110 main_v111 (broadcastInDim S500000x6 ![0, 1] bcast_S1x6_S500000x6_0_1 : (⟨S1x6, .f32⟩ : BufTy).Contents (Elt F) → (⟨S500000x6, .f32⟩ : BufTy).Contents (Elt F)),
    StableHlo.binary main_v111 main_v109 main_v112 (mulf : (⟨S500000x6, .f32⟩ : BufTy).Contents (Elt F) → (⟨S500000x6, .f32⟩ : BufTy).Contents (Elt F) → (⟨S500000x6, .f32⟩ : BufTy).Contents (Elt F)) ]

/-- The references chunk 6 writes, in order. -/
def wr6 : List (Ref sig .tc) :=
  [main_v107, main_v108, main_v109, main_v110, main_v111, main_v112]

theorem ch6_sub : (ch6 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem ch6_fresh : (ch6 : List (HloOp τ sig (Elt F))).Forall fun op => op.fresh = ∅ :=
  ⟨rfl, rfl, rfl, rfl, rfl, rfl⟩

theorem ch6_wr : (ch6 : List (HloOp τ sig (Elt F))).Forall fun op => ∃ y ∈ wr6, op.writes = {Proc.devRef (τ := τ) .tc y} :=
  ⟨⟨main_v107, by decide, rfl⟩, ⟨main_v108, by decide, rfl⟩, ⟨main_v109, by decide, rfl⟩, ⟨main_v110, by decide, rfl⟩, ⟨main_v111, by decide, rfl⟩, ⟨main_v112, by decide, rfl⟩⟩

/-- Operations 127 … 161 of 367 (window 2). -/
def ch7 : List (HloOp τ sig (Elt F)) :=
  [ StableHlo.unary main_cst_0 main_v113 ((extractStridedSlice S1x6 ![4, 0] · slices_S7x6_S1x6_4_0) : (⟨S7x6, .f32⟩ : BufTy).Contents (Elt F) → (⟨S1x6, .f32⟩ : BufTy).Contents (Elt F)),
    StableHlo.reshape main_v113 main_v114 rfl shapeCasts_S1x6_S6,
    StableHlo.unary main_v1 main_v115 (broadcastInDim S500000x1 ![0] bcast_S500000_S500000x1_0 : (⟨S500000, .f32⟩ : BufTy).Contents (Elt F) → (⟨S500000x1, .f32⟩ : BufTy).Contents (Elt F)),
    StableHlo.unary main_cst main_v116 ((extractStridedSlice S1x6 ![4, 0] · slices_S7x6_S1x6_4_0) : (⟨S7x6, .f32⟩ : BufTy).Contents (Elt F) → (⟨S1x6, .f32⟩ : BufTy).Contents (Elt F)),
    StableHlo.reshape main_v116 main_v117 rfl shapeCasts_S1x6_S6,
    StableHlo.unary main_v117 main_v118 (broadcastInDim S1x6 ![1] bcast_S6_S1x6_1 : (⟨S6, .f32⟩ : BufTy).Contents (Elt F) → (⟨S1x6, .f32⟩ : BufTy).Contents (Elt F)),
    StableHlo.unary main_v115 main_v119 (broadcastInDim S500000x6 ![0, 1] bcast_S500000x1_S500000x6_0_1 : (⟨S500000x1, .f32⟩ : BufTy).Contents (Elt F) → (⟨S500000x6, .f32⟩ : BufTy).Contents (Elt F)),
    StableHlo.unary main_v118 main_v120 (broadcastInDim S500000x6 ![0, 1] bcast_S1x6_S500000x6_0_1 : (⟨S1x6, .f32⟩ : BufTy).Contents (Elt F) → (⟨S500000x6, .f32⟩ : BufTy).Contents (Elt F)),
    StableHlo.binary main_v119 main_v120 main_v121 (mulf : (⟨S500000x6, .f32⟩ : BufTy).Contents (Elt F) → (⟨S500000x6, .f32⟩ : BufTy).Contents (Elt F) → (⟨S500000x6, .f32⟩ : BufTy).Contents (Elt F)),
    StableHlo.unary main_v121 main_v122 (Host.sin : (⟨S500000x6, .f32⟩ : BufTy).Contents (Elt F) → (⟨S500000x6, .f32⟩ : BufTy).Contents (Elt F)),
    StableHlo.binary main_v122 main_v121 main_v123 (Host.divf : (⟨S500000x6, .f32⟩ : BufTy).Contents (Elt F) → (⟨S500000x6, .f32⟩ : BufTy).Contents (Elt F) → (⟨S500000x6, .f32⟩ : BufTy).Contents (Elt F)),
    StableHlo.unary main_v121 main_v124 (Host.sin : (⟨S500000x6, .f32⟩ : BufTy).Contents (Elt F) → (⟨S500000x6, .f32⟩ : BufTy).Contents (Elt F)),
    StableHlo.binary main_v121 main_v121 main_v125 (mulf : (⟨S500000x6, .f32⟩ : BufTy).Contents (Elt F) → (⟨S500000x6, .f32⟩ : BufTy).Contents (Elt F) → (⟨S500000x6, .f32⟩ : BufTy).Contents (Elt F)),
    StableHlo.binary main_v124 main_v125 main_v126 (Host.divf : (⟨S500000x6, .f32⟩ : BufTy).Contents (Elt F) → (⟨S500000x6, .f32⟩ : BufTy).Contents (Elt F) → (⟨S500000x6, .f32⟩ : BufTy).Contents (Elt F)),
    StableHlo.unary main_v121 main_v127 (Host.cos : (⟨S500000x6, .f32⟩ : BufTy).Contents (Elt F) → (⟨S500000x6, .f32⟩ : BufTy).Contents (Elt F)),
    StableHlo.binary main_v127 main_v121 main_v128 (Host.divf : (⟨S500000x6, .f32⟩ : BufTy).Contents (Elt F) → (⟨S500000x6, .f32⟩ : BufTy).Contents (Elt F) → (⟨S500000x6, .f32⟩ : BufTy).Contents (Elt F)),
    StableHlo.binary main_v126 main_v128 main_v129 (subf : (⟨S500000x6, .f32⟩ : BufTy).Contents (Elt F) → (⟨S500000x6, .f32⟩ : BufTy).Contents (Elt F) → (⟨S500000x6, .f32⟩ : BufTy).Contents (Elt F)),
    StableHlo.nullary main_cst_12 (constant S_ .f32 0x40400000#32),
    StableHlo.unary main_cst_12 main_v130 (broadcastInDim S500000x6 ![] bcast_S_S500000x6 : (⟨S_, .f32⟩ : BufTy).Contents (Elt F) → (⟨S500000x6, .f32⟩ : BufTy).Contents (Elt F)),
    StableHlo.binary main_v130 main_v121 main_v131 (Host.divf : (⟨S500000x6, .f32⟩ : BufTy).Contents (Elt F) → (⟨S500000x6, .f32⟩ : BufTy).Contents (Elt F) → (⟨S500000x6, .f32⟩ : BufTy).Contents (Elt F)),
    StableHlo.binary main_v131 main_v129 main_v132 (mulf : (⟨S500000x6, .f32⟩ : BufTy).Contents (Elt F) → (⟨S500000x6, .f32⟩ : BufTy).Contents (Elt F) → (⟨S500000x6, .f32⟩ : BufTy).Contents (Elt F)),
    StableHlo.binary main_v132 main_v123 main_v133 (subf : (⟨S500000x6, .f32⟩ : BufTy).Contents (Elt F) → (⟨S500000x6, .f32⟩ : BufTy).Contents (Elt F) → (⟨S500000x6, .f32⟩ : BufTy).Contents (Elt F)),
    StableHlo.nullary main_cst_13 (constant S_ .f32 0x40A00000#32),
    StableHlo.unary main_cst_13 main_v134 (broadcastInDim S500000x6 ![] bcast_S_S500000x6 : (⟨S_, .f32⟩ : BufTy).Contents (Elt F) → (⟨S500000x6, .f32⟩ : BufTy).Contents (Elt F)),
    StableHlo.binary main_v134 main_v121 main_v135 (Host.divf : (⟨S500000x6, .f32⟩ : BufTy).Contents (Elt F) → (⟨S500000x6, .f32⟩ : BufTy).Contents (Elt F) → (⟨S500000x6, .f32⟩ : BufTy).Contents (Elt F)),
    StableHlo.binary main_v135 main_v133 main_v136 (mulf : (⟨S500000x6, .f32⟩ : BufTy).Contents (Elt F) → (⟨S500000x6, .f32⟩ : BufTy).Contents (Elt F) → (⟨S500000x6, .f32⟩ : BufTy).Contents (Elt F)),
    StableHlo.binary main_v136 main_v129 main_v137 (subf : (⟨S500000x6, .f32⟩ : BufTy).Contents (Elt F) → (⟨S500000x6, .f32⟩ : BufTy).Contents (Elt F) → (⟨S500000x6, .f32⟩ : BufTy).Contents (Elt F)),
    StableHlo.nullary main_cst_14 (constant S_ .f32 0x40E00000#32),
    StableHlo.unary main_cst_14 main_v138 (broadcastInDim S500000x6 ![] bcast_S_S500000x6 : (⟨S_, .f32⟩ : BufTy).Contents (Elt F) → (⟨S500000x6, .f32⟩ : BufTy).Contents (Elt F)),
    StableHlo.binary main_v138 main_v121 main_v139 (Host.divf : (⟨S500000x6, .f32⟩ : BufTy).Contents (Elt F) → (⟨S500000x6, .f32⟩ : BufTy).Contents (Elt F) → (⟨S500000x6, .f32⟩ : BufTy).Contents (Elt F)),
    StableHlo.binary main_v139 main_v137 main_v140 (mulf : (⟨S500000x6, .f32⟩ : BufTy).Contents (Elt F) → (⟨S500000x6, .f32⟩ : BufTy).Contents (Elt F) → (⟨S500000x6, .f32⟩ : BufTy).Contents (Elt F)),
    StableHlo.binary main_v140 main_v133 main_v141 (subf : (⟨S500000x6, .f32⟩ : BufTy).Contents (Elt F) → (⟨S500000x6, .f32⟩ : BufTy).Contents (Elt F) → (⟨S500000x6, .f32⟩ : BufTy).Contents (Elt F)),
    StableHlo.unary main_v114 main_v142 (broadcastInDim S1x6 ![1] bcast_S6_S1x6_1 : (⟨S6, .f32⟩ : BufTy).Contents (Elt F) → (⟨S1x6, .f32⟩ : BufTy).Contents (Elt F)),
    StableHlo.unary main_v142 main_v143 (broadcastInDim S500000x6 ![0, 1] bcast_S1x6_S500000x6_0_1 : (⟨S1x6, .f32⟩ : BufTy).Contents (Elt F) → (⟨S500000x6, .f32⟩ : BufTy).Contents (Elt F)),
    StableHlo.binary main_v143 main_v141 main_v144 (mulf : (⟨S500000x6, .f32⟩ : BufTy).Contents (Elt F) → (⟨S500000x6, .f32⟩ : BufTy).Contents (Elt F) → (⟨S500000x6, .f32⟩ : BufTy).Contents (Elt F)) ]

/-- The references chunk 7 writes, in order. -/
def wr7 : List (Ref sig .tc) :=
  [main_v113, main_v114, main_v115, main_v116, main_v117, main_v118, main_v119, main_v120, main_v121, main_v122, main_v123, main_v124, main_v125, main_v126, main_v127, main_v128, main_v129, main_cst_12, main_v130, main_v131, main_v132, main_v133, main_cst_13, main_v134, main_v135, main_v136, main_v137, main_cst_14, main_v138, main_v139, main_v140, main_v141, main_v142, main_v143, main_v144]

theorem ch7_sub : (ch7 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

theorem ch7_fresh : (ch7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch7_wr : (ch7 : List (HloOp τ sig (Elt F))).Forall fun op => ∃ y ∈ wr7, op.writes = {Proc.devRef (τ := τ) .tc y} :=
  ⟨⟨main_v113, by decide, rfl⟩, ⟨main_v114, by decide, rfl⟩, ⟨main_v115, by decide, rfl⟩, ⟨main_v116, by decide, rfl⟩, ⟨main_v117, by decide, rfl⟩, ⟨main_v118, by decide, rfl⟩, ⟨main_v119, by decide, rfl⟩, ⟨main_v120, by decide, rfl⟩, ⟨main_v121, by decide, rfl⟩, ⟨main_v122, by decide, rfl⟩, ⟨main_v123, by decide, rfl⟩, ⟨main_v124, by decide, rfl⟩, ⟨main_v125, by decide, rfl⟩, ⟨main_v126, by decide, rfl⟩, ⟨main_v127, by decide, rfl⟩, ⟨main_v128, by decide, rfl⟩, ⟨main_v129, by decide, rfl⟩, ⟨main_cst_12, by decide, rfl⟩, ⟨main_v130, by decide, rfl⟩, ⟨main_v131, by decide, rfl⟩, ⟨main_v132, by decide, rfl⟩, ⟨main_v133, by decide, rfl⟩, ⟨main_cst_13, by decide, rfl⟩, ⟨main_v134, by decide, rfl⟩, ⟨main_v135, by decide, rfl⟩, ⟨main_v136, by decide, rfl⟩, ⟨main_v137, by decide, rfl⟩, ⟨main_cst_14, by decide, rfl⟩, ⟨main_v138, by decide, rfl⟩, ⟨main_v139, by decide, rfl⟩, ⟨main_v140, by decide, rfl⟩, ⟨main_v141, by decide, rfl⟩, ⟨main_v142, by decide, rfl⟩, ⟨main_v143, by decide, rfl⟩, ⟨main_v144, by decide, rfl⟩⟩

/-- Operations 162 … 180 of 367 (window 2). -/
def ch8 : List (HloOp τ sig (Elt F)) :=
  [ StableHlo.unary main_cst_0 main_v145 ((extractStridedSlice S1x6 ![5, 0] · slices_S7x6_S1x6_5_0) : (⟨S7x6, .f32⟩ : BufTy).Contents (Elt F) → (⟨S1x6, .f32⟩ : BufTy).Contents (Elt F)),
    StableHlo.reshape main_v145 main_v146 rfl shapeCasts_S1x6_S6,
    StableHlo.unary main_v1 main_v147 (broadcastInDim S500000x1 ![0] bcast_S500000_S500000x1_0 : (⟨S500000, .f32⟩ : BufTy).Contents (Elt F) → (⟨S500000x1, .f32⟩ : BufTy).Contents (Elt F)),
    StableHlo.unary main_cst main_v148 ((extractStridedSlice S1x6 ![5, 0] · slices_S7x6_S1x6_5_0) : (⟨S7x6, .f32⟩ : BufTy).Contents (Elt F) → (⟨S1x6, .f32⟩ : BufTy).Contents (Elt F)),
    StableHlo.reshape main_v148 main_v149 rfl shapeCasts_S1x6_S6,
    StableHlo.unary main_v149 main_v150 (broadcastInDim S1x6 ![1] bcast_S6_S1x6_1 : (⟨S6, .f32⟩ : BufTy).Contents (Elt F) → (⟨S1x6, .f32⟩ : BufTy).Contents (Elt F)),
    StableHlo.unary main_v147 main_v151 (broadcastInDim S500000x6 ![0, 1] bcast_S500000x1_S500000x6_0_1 : (⟨S500000x1, .f32⟩ : BufTy).Contents (Elt F) → (⟨S500000x6, .f32⟩ : BufTy).Contents (Elt F)),
    StableHlo.unary main_v150 main_v152 (broadcastInDim S500000x6 ![0, 1] bcast_S1x6_S500000x6_0_1 : (⟨S1x6, .f32⟩ : BufTy).Contents (Elt F) → (⟨S500000x6, .f32⟩ : BufTy).Contents (Elt F)),
    StableHlo.binary main_v151 main_v152 main_v153 (mulf : (⟨S500000x6, .f32⟩ : BufTy).Contents (Elt F) → (⟨S500000x6, .f32⟩ : BufTy).Contents (Elt F) → (⟨S500000x6, .f32⟩ : BufTy).Contents (Elt F)),
    StableHlo.unary main_v153 main_v154 (Host.sin : (⟨S500000x6, .f32⟩ : BufTy).Contents (Elt F) → (⟨S500000x6, .f32⟩ : BufTy).Contents (Elt F)),
    StableHlo.binary main_v154 main_v153 main_v155 (Host.divf : (⟨S500000x6, .f32⟩ : BufTy).Contents (Elt F) → (⟨S500000x6, .f32⟩ : BufTy).Contents (Elt F) → (⟨S500000x6, .f32⟩ : BufTy).Contents (Elt F)),
    StableHlo.unary main_v153 main_v156 (Host.sin : (⟨S500000x6, .f32⟩ : BufTy).Contents (Elt F) → (⟨S500000x6, .f32⟩ : BufTy).Contents (Elt F)),
    StableHlo.binary main_v153 main_v153 main_v157 (mulf : (⟨S500000x6, .f32⟩ : BufTy).Contents (Elt F) → (⟨S500000x6, .f32⟩ : BufTy).Contents (Elt F) → (⟨S500000x6, .f32⟩ : BufTy).Contents (Elt F)),
    StableHlo.binary main_v156 main_v157 main_v158 (Host.divf : (⟨S500000x6, .f32⟩ : BufTy).Contents (Elt F) → (⟨S500000x6, .f32⟩ : BufTy).Contents (Elt F) → (⟨S500000x6, .f32⟩ : BufTy).Contents (Elt F)),
    StableHlo.unary main_v153 main_v159 (Host.cos : (⟨S500000x6, .f32⟩ : BufTy).Contents (Elt F) → (⟨S500000x6, .f32⟩ : BufTy).Contents (Elt F)),
    StableHlo.binary main_v159 main_v153 main_v160 (Host.divf : (⟨S500000x6, .f32⟩ : BufTy).Contents (Elt F) → (⟨S500000x6, .f32⟩ : BufTy).Contents (Elt F) → (⟨S500000x6, .f32⟩ : BufTy).Contents (Elt F)),
    StableHlo.binary main_v158 main_v160 main_v161 (subf : (⟨S500000x6, .f32⟩ : BufTy).Contents (Elt F) → (⟨S500000x6, .f32⟩ : BufTy).Contents (Elt F) → (⟨S500000x6, .f32⟩ : BufTy).Contents (Elt F)),
    StableHlo.nullary main_cst_15 (constant S_ .f32 0x40400000#32),
    StableHlo.unary main_cst_15 main_v162 (broadcastInDim S500000x6 ![] bcast_S_S500000x6 : (⟨S_, .f32⟩ : BufTy).Contents (Elt F) → (⟨S500000x6, .f32⟩ : BufTy).Contents (Elt F)) ]

/-- The references chunk 8 writes, in order. -/
def wr8 : List (Ref sig .tc) :=
  [main_v145, main_v146, main_v147, main_v148, main_v149, main_v150, main_v151, main_v152, main_v153, main_v154, main_v155, main_v156, main_v157, main_v158, main_v159, main_v160, main_v161, main_cst_15, main_v162]

theorem ch8_sub : (ch8 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub ..⟩

theorem ch8_fresh : (ch8 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ch8_wr : (ch8 : List (HloOp τ sig (Elt F))).Forall fun op => ∃ y ∈ wr8, op.writes = {Proc.devRef (τ := τ) .tc y} :=
  ⟨⟨main_v145, by decide, rfl⟩, ⟨main_v146, by decide, rfl⟩, ⟨main_v147, by decide, rfl⟩, ⟨main_v148, by decide, rfl⟩, ⟨main_v149, by decide, rfl⟩, ⟨main_v150, by decide, rfl⟩, ⟨main_v151, by decide, rfl⟩, ⟨main_v152, by decide, rfl⟩, ⟨main_v153, by decide, rfl⟩, ⟨main_v154, by decide, rfl⟩, ⟨main_v155, by decide, rfl⟩, ⟨main_v156, by decide, rfl⟩, ⟨main_v157, by decide, rfl⟩, ⟨main_v158, by decide, rfl⟩, ⟨main_v159, by decide, rfl⟩, ⟨main_v160, by decide, rfl⟩, ⟨main_v161, by decide, rfl⟩, ⟨main_cst_15, by decide, rfl⟩, ⟨main_v162, by decide, rfl⟩⟩

/-- Operations 181 … 201 of 367 (window 3). -/
def ch9 : List (HloOp τ sig (Elt F)) :=
  [ StableHlo.binary main_v162 main_v153 main_v163 (Host.divf : (⟨S500000x6, .f32⟩ : BufTy).Contents (Elt F) → (⟨S500000x6, .f32⟩ : BufTy).Contents (Elt F) → (⟨S500000x6, .f32⟩ : BufTy).Contents (Elt F)),
    StableHlo.binary main_v163 main_v161 main_v164 (mulf : (⟨S500000x6, .f32⟩ : BufTy).Contents (Elt F) → (⟨S500000x6, .f32⟩ : BufTy).Contents (Elt F) → (⟨S500000x6, .f32⟩ : BufTy).Contents (Elt F)),
    StableHlo.binary main_v164 main_v155 main_v165 (subf : (⟨S500000x6, .f32⟩ : BufTy).Contents (Elt F) → (⟨S500000x6, .f32⟩ : BufTy).Contents (Elt F) → (⟨S500000x6, .f32⟩ : BufTy).Contents (Elt F)),
    StableHlo.nullary main_cst_16 (constant S_ .f32 0x40A00000#32),
    StableHlo.unary main_cst_16 main_v166 (broadcastInDim S500000x6 ![] bcast_S_S500000x6 : (⟨S_, .f32⟩ : BufTy).Contents (Elt F) → (⟨S500000x6, .f32⟩ : BufTy).Contents (Elt F)),
    StableHlo.binary main_v166 main_v153 main_v167 (Host.divf : (⟨S500000x6, .f32⟩ : BufTy).Contents (Elt F) → (⟨S500000x6, .f32⟩ : BufTy).Contents (Elt F) → (⟨S500000x6, .f32⟩ : BufTy).Contents (Elt F)),
    StableHlo.binary main_v167 main_v165 main_v168 (mulf : (⟨S500000x6, .f32⟩ : BufTy).Contents (Elt F) → (⟨S500000x6, .f32⟩ : BufTy).Contents (Elt F) → (⟨S500000x6, .f32⟩ : BufTy).Contents (Elt F)),
    StableHlo.binary main_v168 main_v161 main_v169 (subf : (⟨S500000x6, .f32⟩ : BufTy).Contents (Elt F) → (⟨S500000x6, .f32⟩ : BufTy).Contents (Elt F) → (⟨S500000x6, .f32⟩ : BufTy).Contents (Elt F)),
    StableHlo.nullary main_cst_17 (constant S_ .f32 0x40E00000#32),
    StableHlo.unary main_cst_17 main_v170 (broadcastInDim S500000x6 ![] bcast_S_S500000x6 : (⟨S_, .f32⟩ : BufTy).Contents (Elt F) → (⟨S500000x6, .f32⟩ : BufTy).Contents (Elt F)),
    StableHlo.binary main_v170 main_v153 main_v171 (Host.divf : (⟨S500000x6, .f32⟩ : BufTy).Contents (Elt F) → (⟨S500000x6, .f32⟩ : BufTy).Contents (Elt F) → (⟨S500000x6, .f32⟩ : BufTy).Contents (Elt F)),
    StableHlo.binary main_v171 main_v169 main_v172 (mulf : (⟨S500000x6, .f32⟩ : BufTy).Contents (Elt F) → (⟨S500000x6, .f32⟩ : BufTy).Contents (Elt F) → (⟨S500000x6, .f32⟩ : BufTy).Contents (Elt F)),
    StableHlo.binary main_v172 main_v165 main_v173 (subf : (⟨S500000x6, .f32⟩ : BufTy).Contents (Elt F) → (⟨S500000x6, .f32⟩ : BufTy).Contents (Elt F) → (⟨S500000x6, .f32⟩ : BufTy).Contents (Elt F)),
    StableHlo.nullary main_cst_18 (constant S_ .f32 0x41100000#32),
    StableHlo.unary main_cst_18 main_v174 (broadcastInDim S500000x6 ![] bcast_S_S500000x6 : (⟨S_, .f32⟩ : BufTy).Contents (Elt F) → (⟨S500000x6, .f32⟩ : BufTy).Contents (Elt F)),
    StableHlo.binary main_v174 main_v153 main_v175 (Host.divf : (⟨S500000x6, .f32⟩ : BufTy).Contents (Elt F) → (⟨S500000x6, .f32⟩ : BufTy).Contents (Elt F) → (⟨S500000x6, .f32⟩ : BufTy).Contents (Elt F)),
    StableHlo.binary main_v175 main_v173 main_v176 (mulf : (⟨S500000x6, .f32⟩ : BufTy).Contents (Elt F) → (⟨S500000x6, .f32⟩ : BufTy).Contents (Elt F) → (⟨S500000x6, .f32⟩ : BufTy).Contents (Elt F)),
    StableHlo.binary main_v176 main_v169 main_v177 (subf : (⟨S500000x6, .f32⟩ : BufTy).Contents (Elt F) → (⟨S500000x6, .f32⟩ : BufTy).Contents (Elt F) → (⟨S500000x6, .f32⟩ : BufTy).Contents (Elt F)),
    StableHlo.unary main_v146 main_v178 (broadcastInDim S1x6 ![1] bcast_S6_S1x6_1 : (⟨S6, .f32⟩ : BufTy).Contents (Elt F) → (⟨S1x6, .f32⟩ : BufTy).Contents (Elt F)),
    StableHlo.unary main_v178 main_v179 (broadcastInDim S500000x6 ![0, 1] bcast_S1x6_S500000x6_0_1 : (⟨S1x6, .f32⟩ : BufTy).Contents (Elt F) → (⟨S500000x6, .f32⟩ : BufTy).Contents (Elt F)),
    StableHlo.binary main_v179 main_v177 main_v180 (mulf : (⟨S500000x6, .f32⟩ : BufTy).Contents (Elt F) → (⟨S500000x6, .f32⟩ : BufTy).Contents (Elt F) → (⟨S500000x6, .f32⟩ : BufTy).Contents (Elt F)) ]

/-- The references chunk 9 writes, in order. -/
def wr9 : List (Ref sig .tc) :=
  [main_v163, main_v164, main_v165, main_cst_16, main_v166, main_v167, main_v168, main_v169, main_cst_17, main_v170, main_v171, main_v172, main_v173, main_cst_18, main_v174, main_v175, main_v176, main_v177, main_v178, main_v179, main_v180]

theorem ch9_sub : (ch9 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

theorem ch9_fresh : (ch9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ch9_wr : (ch9 : List (HloOp τ sig (Elt F))).Forall fun op => ∃ y ∈ wr9, op.writes = {Proc.devRef (τ := τ) .tc y} :=
  ⟨⟨main_v163, by decide, rfl⟩, ⟨main_v164, by decide, rfl⟩, ⟨main_v165, by decide, rfl⟩, ⟨main_cst_16, by decide, rfl⟩, ⟨main_v166, by decide, rfl⟩, ⟨main_v167, by decide, rfl⟩, ⟨main_v168, by decide, rfl⟩, ⟨main_v169, by decide, rfl⟩, ⟨main_cst_17, by decide, rfl⟩, ⟨main_v170, by decide, rfl⟩, ⟨main_v171, by decide, rfl⟩, ⟨main_v172, by decide, rfl⟩, ⟨main_v173, by decide, rfl⟩, ⟨main_cst_18, by decide, rfl⟩, ⟨main_v174, by decide, rfl⟩, ⟨main_v175, by decide, rfl⟩, ⟨main_v176, by decide, rfl⟩, ⟨main_v177, by decide, rfl⟩, ⟨main_v178, by decide, rfl⟩, ⟨main_v179, by decide, rfl⟩, ⟨main_v180, by decide, rfl⟩⟩

/-- Operations 202 … 240 of 367 (window 3). -/
def ch10 : List (HloOp τ sig (Elt F)) :=
  [ StableHlo.unary main_cst_0 main_v181 ((extractStridedSlice S1x6 ![6, 0] · slices_S7x6_S1x6_6_0) : (⟨S7x6, .f32⟩ : BufTy).Contents (Elt F) → (⟨S1x6, .f32⟩ : BufTy).Contents (Elt F)),
    StableHlo.reshape main_v181 main_v182 rfl shapeCasts_S1x6_S6,
    StableHlo.unary main_v1 main_v183 (broadcastInDim S500000x1 ![0] bcast_S500000_S500000x1_0 : (⟨S500000, .f32⟩ : BufTy).Contents (Elt F) → (⟨S500000x1, .f32⟩ : BufTy).Contents (Elt F)),
    StableHlo.unary main_cst main_v184 ((extractStridedSlice S1x6 ![6, 0] · slices_S7x6_S1x6_6_0) : (⟨S7x6, .f32⟩ : BufTy).Contents (Elt F) → (⟨S1x6, .f32⟩ : BufTy).Contents (Elt F)),
    StableHlo.reshape main_v184 main_v185 rfl shapeCasts_S1x6_S6,
    StableHlo.unary main_v185 main_v186 (broadcastInDim S1x6 ![1] bcast_S6_S1x6_1 : (⟨S6, .f32⟩ : BufTy).Contents (Elt F) → (⟨S1x6, .f32⟩ : BufTy).Contents (Elt F)),
    StableHlo.unary main_v183 main_v187 (broadcastInDim S500000x6 ![0, 1] bcast_S500000x1_S500000x6_0_1 : (⟨S500000x1, .f32⟩ : BufTy).Contents (Elt F) → (⟨S500000x6, .f32⟩ : BufTy).Contents (Elt F)),
    StableHlo.unary main_v186 main_v188 (broadcastInDim S500000x6 ![0, 1] bcast_S1x6_S500000x6_0_1 : (⟨S1x6, .f32⟩ : BufTy).Contents (Elt F) → (⟨S500000x6, .f32⟩ : BufTy).Contents (Elt F)),
    StableHlo.binary main_v187 main_v188 main_v189 (mulf : (⟨S500000x6, .f32⟩ : BufTy).Contents (Elt F) → (⟨S500000x6, .f32⟩ : BufTy).Contents (Elt F) → (⟨S500000x6, .f32⟩ : BufTy).Contents (Elt F)),
    StableHlo.unary main_v189 main_v190 (Host.sin : (⟨S500000x6, .f32⟩ : BufTy).Contents (Elt F) → (⟨S500000x6, .f32⟩ : BufTy).Contents (Elt F)),
    StableHlo.binary main_v190 main_v189 main_v191 (Host.divf : (⟨S500000x6, .f32⟩ : BufTy).Contents (Elt F) → (⟨S500000x6, .f32⟩ : BufTy).Contents (Elt F) → (⟨S500000x6, .f32⟩ : BufTy).Contents (Elt F)),
    StableHlo.unary main_v189 main_v192 (Host.sin : (⟨S500000x6, .f32⟩ : BufTy).Contents (Elt F) → (⟨S500000x6, .f32⟩ : BufTy).Contents (Elt F)),
    StableHlo.binary main_v189 main_v189 main_v193 (mulf : (⟨S500000x6, .f32⟩ : BufTy).Contents (Elt F) → (⟨S500000x6, .f32⟩ : BufTy).Contents (Elt F) → (⟨S500000x6, .f32⟩ : BufTy).Contents (Elt F)),
    StableHlo.binary main_v192 main_v193 main_v194 (Host.divf : (⟨S500000x6, .f32⟩ : BufTy).Contents (Elt F) → (⟨S500000x6, .f32⟩ : BufTy).Contents (Elt F) → (⟨S500000x6, .f32⟩ : BufTy).Contents (Elt F)),
    StableHlo.unary main_v189 main_v195 (Host.cos : (⟨S500000x6, .f32⟩ : BufTy).Contents (Elt F) → (⟨S500000x6, .f32⟩ : BufTy).Contents (Elt F)),
    StableHlo.binary main_v195 main_v189 main_v196 (Host.divf : (⟨S500000x6, .f32⟩ : BufTy).Contents (Elt F) → (⟨S500000x6, .f32⟩ : BufTy).Contents (Elt F) → (⟨S500000x6, .f32⟩ : BufTy).Contents (Elt F)),
    StableHlo.binary main_v194 main_v196 main_v197 (subf : (⟨S500000x6, .f32⟩ : BufTy).Contents (Elt F) → (⟨S500000x6, .f32⟩ : BufTy).Contents (Elt F) → (⟨S500000x6, .f32⟩ : BufTy).Contents (Elt F)),
    StableHlo.nullary main_cst_19 (constant S_ .f32 0x40400000#32),
    StableHlo.unary main_cst_19 main_v198 (broadcastInDim S500000x6 ![] bcast_S_S500000x6 : (⟨S_, .f32⟩ : BufTy).Contents (Elt F) → (⟨S500000x6, .f32⟩ : BufTy).Contents (Elt F)),
    StableHlo.binary main_v198 main_v189 main_v199 (Host.divf : (⟨S500000x6, .f32⟩ : BufTy).Contents (Elt F) → (⟨S500000x6, .f32⟩ : BufTy).Contents (Elt F) → (⟨S500000x6, .f32⟩ : BufTy).Contents (Elt F)),
    StableHlo.binary main_v199 main_v197 main_v200 (mulf : (⟨S500000x6, .f32⟩ : BufTy).Contents (Elt F) → (⟨S500000x6, .f32⟩ : BufTy).Contents (Elt F) → (⟨S500000x6, .f32⟩ : BufTy).Contents (Elt F)),
    StableHlo.binary main_v200 main_v191 main_v201 (subf : (⟨S500000x6, .f32⟩ : BufTy).Contents (Elt F) → (⟨S500000x6, .f32⟩ : BufTy).Contents (Elt F) → (⟨S500000x6, .f32⟩ : BufTy).Contents (Elt F)),
    StableHlo.nullary main_cst_20 (constant S_ .f32 0x40A00000#32),
    StableHlo.unary main_cst_20 main_v202 (broadcastInDim S500000x6 ![] bcast_S_S500000x6 : (⟨S_, .f32⟩ : BufTy).Contents (Elt F) → (⟨S500000x6, .f32⟩ : BufTy).Contents (Elt F)),
    StableHlo.binary main_v202 main_v189 main_v203 (Host.divf : (⟨S500000x6, .f32⟩ : BufTy).Contents (Elt F) → (⟨S500000x6, .f32⟩ : BufTy).Contents (Elt F) → (⟨S500000x6, .f32⟩ : BufTy).Contents (Elt F)),
    StableHlo.binary main_v203 main_v201 main_v204 (mulf : (⟨S500000x6, .f32⟩ : BufTy).Contents (Elt F) → (⟨S500000x6, .f32⟩ : BufTy).Contents (Elt F) → (⟨S500000x6, .f32⟩ : BufTy).Contents (Elt F)),
    StableHlo.binary main_v204 main_v197 main_v205 (subf : (⟨S500000x6, .f32⟩ : BufTy).Contents (Elt F) → (⟨S500000x6, .f32⟩ : BufTy).Contents (Elt F) → (⟨S500000x6, .f32⟩ : BufTy).Contents (Elt F)),
    StableHlo.nullary main_cst_21 (constant S_ .f32 0x40E00000#32),
    StableHlo.unary main_cst_21 main_v206 (broadcastInDim S500000x6 ![] bcast_S_S500000x6 : (⟨S_, .f32⟩ : BufTy).Contents (Elt F) → (⟨S500000x6, .f32⟩ : BufTy).Contents (Elt F)),
    StableHlo.binary main_v206 main_v189 main_v207 (Host.divf : (⟨S500000x6, .f32⟩ : BufTy).Contents (Elt F) → (⟨S500000x6, .f32⟩ : BufTy).Contents (Elt F) → (⟨S500000x6, .f32⟩ : BufTy).Contents (Elt F)),
    StableHlo.binary main_v207 main_v205 main_v208 (mulf : (⟨S500000x6, .f32⟩ : BufTy).Contents (Elt F) → (⟨S500000x6, .f32⟩ : BufTy).Contents (Elt F) → (⟨S500000x6, .f32⟩ : BufTy).Contents (Elt F)),
    StableHlo.binary main_v208 main_v201 main_v209 (subf : (⟨S500000x6, .f32⟩ : BufTy).Contents (Elt F) → (⟨S500000x6, .f32⟩ : BufTy).Contents (Elt F) → (⟨S500000x6, .f32⟩ : BufTy).Contents (Elt F)),
    StableHlo.nullary main_cst_22 (constant S_ .f32 0x41100000#32),
    StableHlo.unary main_cst_22 main_v210 (broadcastInDim S500000x6 ![] bcast_S_S500000x6 : (⟨S_, .f32⟩ : BufTy).Contents (Elt F) → (⟨S500000x6, .f32⟩ : BufTy).Contents (Elt F)),
    StableHlo.binary main_v210 main_v189 main_v211 (Host.divf : (⟨S500000x6, .f32⟩ : BufTy).Contents (Elt F) → (⟨S500000x6, .f32⟩ : BufTy).Contents (Elt F) → (⟨S500000x6, .f32⟩ : BufTy).Contents (Elt F)),
    StableHlo.binary main_v211 main_v209 main_v212 (mulf : (⟨S500000x6, .f32⟩ : BufTy).Contents (Elt F) → (⟨S500000x6, .f32⟩ : BufTy).Contents (Elt F) → (⟨S500000x6, .f32⟩ : BufTy).Contents (Elt F)),
    StableHlo.binary main_v212 main_v205 main_v213 (subf : (⟨S500000x6, .f32⟩ : BufTy).Contents (Elt F) → (⟨S500000x6, .f32⟩ : BufTy).Contents (Elt F) → (⟨S500000x6, .f32⟩ : BufTy).Contents (Elt F)),
    StableHlo.nullary main_cst_23 (constant S_ .f32 0x41300000#32),
    StableHlo.unary main_cst_23 main_v214 (broadcastInDim S500000x6 ![] bcast_S_S500000x6 : (⟨S_, .f32⟩ : BufTy).Contents (Elt F) → (⟨S500000x6, .f32⟩ : BufTy).Contents (Elt F)) ]

/-- The references chunk 10 writes, in order. -/
def wr10 : List (Ref sig .tc) :=
  [main_v181, main_v182, main_v183, main_v184, main_v185, main_v186, main_v187, main_v188, main_v189, main_v190, main_v191, main_v192, main_v193, main_v194, main_v195, main_v196, main_v197, main_cst_19, main_v198, main_v199, main_v200, main_v201, main_cst_20, main_v202, main_v203, main_v204, main_v205, main_cst_21, main_v206, main_v207, main_v208, main_v209, main_cst_22, main_v210, main_v211, main_v212, main_v213, main_cst_23, main_v214]

theorem ch10_sub : (ch10 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub ..⟩

theorem ch10_fresh : (ch10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch10_wr : (ch10 : List (HloOp τ sig (Elt F))).Forall fun op => ∃ y ∈ wr10, op.writes = {Proc.devRef (τ := τ) .tc y} :=
  ⟨⟨main_v181, by decide, rfl⟩, ⟨main_v182, by decide, rfl⟩, ⟨main_v183, by decide, rfl⟩, ⟨main_v184, by decide, rfl⟩, ⟨main_v185, by decide, rfl⟩, ⟨main_v186, by decide, rfl⟩, ⟨main_v187, by decide, rfl⟩, ⟨main_v188, by decide, rfl⟩, ⟨main_v189, by decide, rfl⟩, ⟨main_v190, by decide, rfl⟩, ⟨main_v191, by decide, rfl⟩, ⟨main_v192, by decide, rfl⟩, ⟨main_v193, by decide, rfl⟩, ⟨main_v194, by decide, rfl⟩, ⟨main_v195, by decide, rfl⟩, ⟨main_v196, by decide, rfl⟩, ⟨main_v197, by decide, rfl⟩, ⟨main_cst_19, by decide, rfl⟩, ⟨main_v198, by decide, rfl⟩, ⟨main_v199, by decide, rfl⟩, ⟨main_v200, by decide, rfl⟩, ⟨main_v201, by decide, rfl⟩, ⟨main_cst_20, by decide, rfl⟩, ⟨main_v202, by decide, rfl⟩, ⟨main_v203, by decide, rfl⟩, ⟨main_v204, by decide, rfl⟩, ⟨main_v205, by decide, rfl⟩, ⟨main_cst_21, by decide, rfl⟩, ⟨main_v206, by decide, rfl⟩, ⟨main_v207, by decide, rfl⟩, ⟨main_v208, by decide, rfl⟩, ⟨main_v209, by decide, rfl⟩, ⟨main_cst_22, by decide, rfl⟩, ⟨main_v210, by decide, rfl⟩, ⟨main_v211, by decide, rfl⟩, ⟨main_v212, by decide, rfl⟩, ⟨main_v213, by decide, rfl⟩, ⟨main_cst_23, by decide, rfl⟩, ⟨main_v214, by decide, rfl⟩⟩

/-- Operations 241 … 246 of 367 (window 4). -/
def ch11 : List (HloOp τ sig (Elt F)) :=
  [ StableHlo.binary main_v214 main_v189 main_v215 (Host.divf : (⟨S500000x6, .f32⟩ : BufTy).Contents (Elt F) → (⟨S500000x6, .f32⟩ : BufTy).Contents (Elt F) → (⟨S500000x6, .f32⟩ : BufTy).Contents (Elt F)),
    StableHlo.binary main_v215 main_v213 main_v216 (mulf : (⟨S500000x6, .f32⟩ : BufTy).Contents (Elt F) → (⟨S500000x6, .f32⟩ : BufTy).Contents (Elt F) → (⟨S500000x6, .f32⟩ : BufTy).Contents (Elt F)),
    StableHlo.binary main_v216 main_v209 main_v217 (subf : (⟨S500000x6, .f32⟩ : BufTy).Contents (Elt F) → (⟨S500000x6, .f32⟩ : BufTy).Contents (Elt F) → (⟨S500000x6, .f32⟩ : BufTy).Contents (Elt F)),
    StableHlo.unary main_v182 main_v218 (broadcastInDim S1x6 ![1] bcast_S6_S1x6_1 : (⟨S6, .f32⟩ : BufTy).Contents (Elt F) → (⟨S1x6, .f32⟩ : BufTy).Contents (Elt F)),
    StableHlo.unary main_v218 main_v219 (broadcastInDim S500000x6 ![0, 1] bcast_S1x6_S500000x6_0_1 : (⟨S1x6, .f32⟩ : BufTy).Contents (Elt F) → (⟨S500000x6, .f32⟩ : BufTy).Contents (Elt F)),
    StableHlo.binary main_v219 main_v217 main_v220 (mulf : (⟨S500000x6, .f32⟩ : BufTy).Contents (Elt F) → (⟨S500000x6, .f32⟩ : BufTy).Contents (Elt F) → (⟨S500000x6, .f32⟩ : BufTy).Contents (Elt F)) ]

/-- The references chunk 11 writes, in order. -/
def wr11 : List (Ref sig .tc) :=
  [main_v215, main_v216, main_v217, main_v218, main_v219, main_v220]

theorem ch11_sub : (ch11 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem ch11_fresh : (ch11 : List (HloOp τ sig (Elt F))).Forall fun op => op.fresh = ∅ :=
  ⟨rfl, rfl, rfl, rfl, rfl, rfl⟩

theorem ch11_wr : (ch11 : List (HloOp τ sig (Elt F))).Forall fun op => ∃ y ∈ wr11, op.writes = {Proc.devRef (τ := τ) .tc y} :=
  ⟨⟨main_v215, by decide, rfl⟩, ⟨main_v216, by decide, rfl⟩, ⟨main_v217, by decide, rfl⟩, ⟨main_v218, by decide, rfl⟩, ⟨main_v219, by decide, rfl⟩, ⟨main_v220, by decide, rfl⟩⟩

/-- Operations 247 … 260 of 367 (window 4). -/
def ch12 : List (HloOp τ sig (Elt F)) :=
  [ StableHlo.unary main_v40 main_v221 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v60 main_v222 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v84 main_v223 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v112 main_v224 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v144 main_v225 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v180 main_v226 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v220 main_v227 (broadcastInDim S500000x1x6 ![0, 2] bcast_S500000x6_S500000x1x6_0_2 : (⟨S500000x6, .f32⟩ : BufTy).Contents (Elt F) → (⟨S500000x1x6, .f32⟩ : BufTy).Contents (Elt F)),
    StableHlo.nary ![main_v221, main_v222, main_v223, main_v224, main_v225, main_v226, main_v227] main_v228 (fun u => concatenate S500000x7x6 1 [⟨S500000x1x6, u 0⟩, ⟨S500000x1x6, u 1⟩, ⟨S500000x1x6, u 2⟩, ⟨S500000x1x6, u 3⟩, ⟨S500000x1x6, u 4⟩, ⟨S500000x1x6, u 5⟩, ⟨S500000x1x6, u 6⟩] concatenates_S500000x1x6_S500000x1x6_S500000x1x6_S500000x1x6_S500000x1x6_S500000x1x6_S500000x1x6_S500000x7x6_d1),
    StableHlo.nullary main_cst_24 (constant S_ .f32 0x3DB72DBF#32),
    StableHlo.unary main_cst_24 main_v229 (broadcastInDim S500000 ![] bcast_S_S500000 : (⟨S_, .f32⟩ : BufTy).Contents (Elt F) → (⟨S500000, .f32⟩ : BufTy).Contents (Elt F)),
    StableHlo.binary main_v26 main_v229 main_v230 (mulf : (⟨S500000, .f32⟩ : BufTy).Contents (Elt F) → (⟨S500000, .f32⟩ : BufTy).Contents (Elt F) → (⟨S500000, .f32⟩ : BufTy).Contents (Elt F)),
    StableHlo.unary main_v230 main_v231 (broadcastInDim S500000x1x1 ![0] bcast_S500000_S500000x1x1_0 : (⟨S500000, .f32⟩ : BufTy).Contents (Elt F) → (⟨S500000x1x1, .f32⟩ : BufTy).Contents (Elt F)),
    StableHlo.unary main_v231 main_v232 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    StableHlo.binary main_v232 main_v228 main_v233 (mulf : (⟨S500000x7x6, .f32⟩ : BufTy).Contents (Elt F) → (⟨S500000x7x6, .f32⟩ : BufTy).Contents (Elt F) → (⟨S500000x7x6, .f32⟩ : BufTy).Contents (Elt F)) ]

/-- The references chunk 12 writes, in order. -/
def wr12 : List (Ref sig .tc) :=
  [main_v221, main_v222, main_v223, main_v224, main_v225, main_v226, main_v227, main_v228, main_cst_24, main_v229, main_v230, main_v231, main_v232, main_v233]

theorem ch12_sub : (ch12 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., nullary_bufs_sub .., unary_bufs_sub .., binary_bufs_sub .., unary_bufs_sub .., unary_bufs_sub .., binary_bufs_sub ..⟩

theorem ch12_fresh : (ch12 : List (HloOp τ sig (Elt F))).Forall fun op => op.fresh = ∅ :=
  ⟨rfl, rfl, rfl, rfl, rfl, rfl, rfl, rfl, rfl, rfl, rfl, rfl, rfl, rfl⟩

theorem ch12_wr : (ch12 : List (HloOp τ sig (Elt F))).Forall fun op => ∃ y ∈ wr12, op.writes = {Proc.devRef (τ := τ) .tc y} :=
  ⟨⟨main_v221, by decide, rfl⟩, ⟨main_v222, by decide, rfl⟩, ⟨main_v223, by decide, rfl⟩, ⟨main_v224, by decide, rfl⟩, ⟨main_v225, by decide, rfl⟩, ⟨main_v226, by decide, rfl⟩, ⟨main_v227, by decide, rfl⟩, ⟨main_v228, by decide, rfl⟩, ⟨main_cst_24, by decide, rfl⟩, ⟨main_v229, by decide, rfl⟩, ⟨main_v230, by decide, rfl⟩, ⟨main_v231, by decide, rfl⟩, ⟨main_v232, by decide, rfl⟩, ⟨main_v233, by decide, rfl⟩⟩

/-- Operations 261 … 300 of 367 (window 4). -/
def ch13 : List (HloOp τ sig (Elt F)) :=
  [ StableHlo.unary main_arg1 main_v234 (Host.cos : (⟨S2000000, .f32⟩ : BufTy).Contents (Elt F) → (⟨S2000000, .f32⟩ : BufTy).Contents (Elt F)),
    StableHlo.nullary main_cst_25 (constant S_ .f32 0x3F800000#32),
    StableHlo.unary main_cst_25 main_v235 (broadcastInDim S2000000 ![] bcast_S_S2000000 : (⟨S_, .f32⟩ : BufTy).Contents (Elt F) → (⟨S2000000, .f32⟩ : BufTy).Contents (Elt F)),
    StableHlo.nullary main_cst_26 (constant S_ .f32 0x40400000#32),
    StableHlo.unary main_cst_26 main_v236 (broadcastInDim S2000000 ![] bcast_S_S2000000 : (⟨S_, .f32⟩ : BufTy).Contents (Elt F) → (⟨S2000000, .f32⟩ : BufTy).Contents (Elt F)),
    StableHlo.binary main_v236 main_v234 main_v237 (mulf : (⟨S2000000, .f32⟩ : BufTy).Contents (Elt F) → (⟨S2000000, .f32⟩ : BufTy).Contents (Elt F) → (⟨S2000000, .f32⟩ : BufTy).Contents (Elt F)),
    StableHlo.binary main_v237 main_v234 main_v238 (mulf : (⟨S2000000, .f32⟩ : BufTy).Contents (Elt F) → (⟨S2000000, .f32⟩ : BufTy).Contents (Elt F) → (⟨S2000000, .f32⟩ : BufTy).Contents (Elt F)),
    StableHlo.nullary main_cst_27 (constant S_ .f32 0x3F800000#32),
    StableHlo.unary main_cst_27 main_v239 (broadcastInDim S2000000 ![] bcast_S_S2000000 : (⟨S_, .f32⟩ : BufTy).Contents (Elt F) → (⟨S2000000, .f32⟩ : BufTy).Contents (Elt F)),
    StableHlo.binary main_v239 main_v235 main_v240 (mulf : (⟨S2000000, .f32⟩ : BufTy).Contents (Elt F) → (⟨S2000000, .f32⟩ : BufTy).Contents (Elt F) → (⟨S2000000, .f32⟩ : BufTy).Contents (Elt F)),
    StableHlo.binary main_v238 main_v240 main_v241 (subf : (⟨S2000000, .f32⟩ : BufTy).Contents (Elt F) → (⟨S2000000, .f32⟩ : BufTy).Contents (Elt F) → (⟨S2000000, .f32⟩ : BufTy).Contents (Elt F)),
    StableHlo.nullary main_cst_28 (constant S_ .f32 0x40000000#32),
    StableHlo.unary main_cst_28 main_v242 (broadcastInDim S2000000 ![] bcast_S_S2000000 : (⟨S_, .f32⟩ : BufTy).Contents (Elt F) → (⟨S2000000, .f32⟩ : BufTy).Contents (Elt F)),
    StableHlo.binary main_v241 main_v242 main_v243 (Host.divf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x40A00000#32),
    StableHlo.unary main_cst_29 main_v244 (broadcastInDim S2000000 ![] bcast_S_S2000000 : (⟨S_, .f32⟩ : BufTy).Contents (Elt F) → (⟨S2000000, .f32⟩ : BufTy).Contents (Elt F)),
    StableHlo.binary main_v244 main_v234 main_v245 (mulf : (⟨S2000000, .f32⟩ : BufTy).Contents (Elt F) → (⟨S2000000, .f32⟩ : BufTy).Contents (Elt F) → (⟨S2000000, .f32⟩ : BufTy).Contents (Elt F)),
    StableHlo.binary main_v245 main_v243 main_v246 (mulf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x40000000#32),
    StableHlo.unary main_cst_30 main_v247 (broadcastInDim S2000000 ![] bcast_S_S2000000 : (⟨S_, .f32⟩ : BufTy).Contents (Elt F) → (⟨S2000000, .f32⟩ : BufTy).Contents (Elt F)),
    StableHlo.binary main_v247 main_v234 main_v248 (mulf : (⟨S2000000, .f32⟩ : BufTy).Contents (Elt F) → (⟨S2000000, .f32⟩ : BufTy).Contents (Elt F) → (⟨S2000000, .f32⟩ : BufTy).Contents (Elt F)),
    StableHlo.binary main_v246 main_v248 main_v249 (subf : (⟨S2000000, .f32⟩ : BufTy).Contents (Elt F) → (⟨S2000000, .f32⟩ : BufTy).Contents (Elt F) → (⟨S2000000, .f32⟩ : BufTy).Contents (Elt F)),
    StableHlo.nullary main_cst_31 (constant S_ .f32 0x40400000#32),
    StableHlo.unary main_cst_31 main_v250 (broadcastInDim S2000000 ![] bcast_S_S2000000 : (⟨S_, .f32⟩ : BufTy).Contents (Elt F) → (⟨S2000000, .f32⟩ : BufTy).Contents (Elt F)),
    StableHlo.binary main_v249 main_v250 main_v251 (Host.divf : (⟨S2000000, .f32⟩ : BufTy).Contents (Elt F) → (⟨S2000000, .f32⟩ : BufTy).Contents (Elt F) → (⟨S2000000, .f32⟩ : BufTy).Contents (Elt F)),
    StableHlo.nullary main_cst_32 (constant S_ .f32 0x40E00000#32),
    StableHlo.unary main_cst_32 main_v252 (broadcastInDim S2000000 ![] bcast_S_S2000000 : (⟨S_, .f32⟩ : BufTy).Contents (Elt F) → (⟨S2000000, .f32⟩ : BufTy).Contents (Elt F)),
    StableHlo.binary main_v252 main_v234 main_v253 (mulf : (⟨S2000000, .f32⟩ : BufTy).Contents (Elt F) → (⟨S2000000, .f32⟩ : BufTy).Contents (Elt F) → (⟨S2000000, .f32⟩ : BufTy).Contents (Elt F)),
    StableHlo.binary main_v253 main_v251 main_v254 (mulf : (⟨S2000000, .f32⟩ : BufTy).Contents (Elt F) → (⟨S2000000, .f32⟩ : BufTy).Contents (Elt F) → (⟨S2000000, .f32⟩ : BufTy).Contents (Elt F)),
    StableHlo.nullary main_cst_33 (constant S_ .f32 0x40400000#32),
    StableHlo.unary main_cst_33 main_v255 (broadcastInDim S2000000 ![] bcast_S_S2000000 : (⟨S_, .f32⟩ : BufTy).Contents (Elt F) → (⟨S2000000, .f32⟩ : BufTy).Contents (Elt F)),
    StableHlo.binary main_v255 main_v243 main_v256 (mulf : (⟨S2000000, .f32⟩ : BufTy).Contents (Elt F) → (⟨S2000000, .f32⟩ : BufTy).Contents (Elt F) → (⟨S2000000, .f32⟩ : BufTy).Contents (Elt F)),
    StableHlo.binary main_v254 main_v256 main_v257 (subf : (⟨S2000000, .f32⟩ : BufTy).Contents (Elt F) → (⟨S2000000, .f32⟩ : BufTy).Contents (Elt F) → (⟨S2000000, .f32⟩ : BufTy).Contents (Elt F)),
    StableHlo.nullary main_cst_34 (constant S_ .f32 0x40800000#32),
    StableHlo.unary main_cst_34 main_v258 (broadcastInDim S2000000 ![] bcast_S_S2000000 : (⟨S_, .f32⟩ : BufTy).Contents (Elt F) → (⟨S2000000, .f32⟩ : BufTy).Contents (Elt F)),
    StableHlo.binary main_v257 main_v258 main_v259 (Host.divf : (⟨S2000000, .f32⟩ : BufTy).Contents (Elt F) → (⟨S2000000, .f32⟩ : BufTy).Contents (Elt F) → (⟨S2000000, .f32⟩ : BufTy).Contents (Elt F)),
    StableHlo.nullary main_cst_35 (constant S_ .f32 0x41100000#32),
    StableHlo.unary main_cst_35 main_v260 (broadcastInDim S2000000 ![] bcast_S_S2000000 : (⟨S_, .f32⟩ : BufTy).Contents (Elt F) → (⟨S2000000, .f32⟩ : BufTy).Contents (Elt F)),
    StableHlo.binary main_v260 main_v234 main_v261 (mulf : (⟨S2000000, .f32⟩ : BufTy).Contents (Elt F) → (⟨S2000000, .f32⟩ : BufTy).Contents (Elt F) → (⟨S2000000, .f32⟩ : BufTy).Contents (Elt F)),
    StableHlo.binary main_v261 main_v259 main_v262 (mulf : (⟨S2000000, .f32⟩ : BufTy).Contents (Elt F) → (⟨S2000000, .f32⟩ : BufTy).Contents (Elt F) → (⟨S2000000, .f32⟩ : BufTy).Contents (Elt F)) ]

/-- The references chunk 13 writes, in order. -/
def wr13 : List (Ref sig .tc) :=
  [main_v234, main_cst_25, main_v235, main_cst_26, main_v236, main_v237, main_v238, main_cst_27, main_v239, main_v240, main_v241, main_cst_28, main_v242, main_v243, main_cst_29, main_v244, main_v245, main_v246, main_cst_30, main_v247, main_v248, main_v249, main_cst_31, main_v250, main_v251, main_cst_32, main_v252, main_v253, main_v254, main_cst_33, main_v255, main_v256, main_v257, main_cst_34, main_v258, main_v259, main_cst_35, main_v260, main_v261, main_v262]

theorem ch13_sub : (ch13 : List (HloOp τ sig (Elt F))).Forall fun op => op.bufs ⊆ tcRefs τ sig :=
  ⟨unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

theorem ch13_fresh : (ch13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch13_wr : (ch13 : List (HloOp τ sig (Elt F))).Forall fun op => ∃ y ∈ wr13, op.writes = {Proc.devRef (τ := τ) .tc y} :=
  ⟨⟨main_v234, by decide, rfl⟩, ⟨main_cst_25, by decide, rfl⟩, ⟨main_v235, by decide, rfl⟩, ⟨main_cst_26, by decide, rfl⟩, ⟨main_v236, by decide, rfl⟩, ⟨main_v237, by decide, rfl⟩, ⟨main_v238, by decide, rfl⟩, ⟨main_cst_27, by decide, rfl⟩, ⟨main_v239, by decide, rfl⟩, ⟨main_v240, by decide, rfl⟩, ⟨main_v241, by decide, rfl⟩, ⟨main_cst_28, by decide, rfl⟩, ⟨main_v242, by decide, rfl⟩, ⟨main_v243, by decide, rfl⟩, ⟨main_cst_29, by decide, rfl⟩, ⟨main_v244, by decide, rfl⟩, ⟨main_v245, by decide, rfl⟩, ⟨main_v246, by decide, rfl⟩, ⟨main_cst_30, by decide, rfl⟩, ⟨main_v247, by decide, rfl⟩, ⟨main_v248, by decide, rfl⟩, ⟨main_v249, by decide, rfl⟩, ⟨main_cst_31, by decide, rfl⟩, ⟨main_v250, by decide, rfl⟩, ⟨main_v251, by decide, rfl⟩, ⟨main_cst_32, by decide, rfl⟩, ⟨main_v252, by decide, rfl⟩, ⟨main_v253, by decide, rfl⟩, ⟨main_v254, by decide, rfl⟩, ⟨main_cst_33, by decide, rfl⟩, ⟨main_v255, by decide, rfl⟩, ⟨main_v256, by decide, rfl⟩, ⟨main_v257, by decide, rfl⟩, ⟨main_cst_34, by decide, rfl⟩, ⟨main_v258, by decide, rfl⟩, ⟨main_v259, by decide, rfl⟩, ⟨main_cst_35, by decide, rfl⟩, ⟨main_v260, by decide, rfl⟩, ⟨main_v261, by decide, rfl⟩, ⟨main_v262, by decide, rfl⟩⟩

/-- Operations 301 … 318 of 367 (window 5). -/
def ch14 : List (HloOp τ sig (Elt F)) :=
  [ StableHlo.nullary main_cst_36 (constant S_ .f32 0x40800000#32),
    StableHlo.unary main_cst_36 main_v263 (broadcastInDim S2000000 ![] bcast_S_S2000000 : (⟨S_, .f32⟩ : BufTy).Contents (Elt F) → (⟨S2000000, .f32⟩ : BufTy).Contents (Elt F)),
    StableHlo.binary main_v263 main_v251 main_v264 (mulf : (⟨S2000000, .f32⟩ : BufTy).Contents (Elt F) → (⟨S2000000, .f32⟩ : BufTy).Contents (Elt F) → (⟨S2000000, .f32⟩ : BufTy).Contents (Elt F)),
    StableHlo.binary main_v262 main_v264 main_v265 (subf : (⟨S2000000, .f32⟩ : BufTy).Contents (Elt F) → (⟨S2000000, .f32⟩ : BufTy).Contents (Elt F) → (⟨S2000000, .f32⟩ : BufTy).Contents (Elt F)),
    StableHlo.nullary main_cst_37 (constant S_ .f32 0x40A00000#32),
    StableHlo.unary main_cst_37 main_v266 (broadcastInDim S2000000 ![] bcast_S_S2000000 : (⟨S_, .f32⟩ : BufTy).Contents (Elt F) → (⟨S2000000, .f32⟩ : BufTy).Contents (Elt F)),
    StableHlo.binary main_v265 main_v266 main_v267 (Host.divf : (⟨S2000000, .f32⟩ : BufTy).Contents (Elt F) → (⟨S2000000, .f32⟩ : BufTy).Contents (Elt F) → (⟨S2000000, .f32⟩ : BufTy).Contents (Elt F)),
    StableHlo.nullary main_cst_38 (constant S_ .f32 0x41300000#32),
    StableHlo.unary main_cst_38 main_v268 (broadcastInDim S2000000 ![] bcast_S_S2000000 : (⟨S_, .f32⟩ : BufTy).Contents (Elt F) → (⟨S2000000, .f32⟩ : BufTy).Contents (Elt F)),
    StableHlo.binary main_v268 main_v234 main_v269 (mulf : (⟨S2000000, .f32⟩ : BufTy).Contents (Elt F) → (⟨S2000000, .f32⟩ : BufTy).Contents (Elt F) → (⟨S2000000, .f32⟩ : BufTy).Contents (Elt F)),
    StableHlo.binary main_v269 main_v267 main_v270 (mulf : (⟨S2000000, .f32⟩ : BufTy).Contents (Elt F) → (⟨S2000000, .f32⟩ : BufTy).Contents (Elt F) → (⟨S2000000, .f32⟩ : BufTy).Contents (Elt F)),
    StableHlo.nullary main_cst_39 (constant S_ .f32 0x40A00000#32),
    StableHlo.unary main_cst_39 main_v271 (broadcastInDim S2000000 ![] bcast_S_S2000000 : (⟨S_, .f32⟩ : BufTy).Contents (Elt F) → (⟨S2000000, .f32⟩ : BufTy).Contents (Elt F)),
    StableHlo.binary main_v271 main_v259 main_v272 (mulf : (⟨S2000000, .f32⟩ : BufTy).Contents (Elt F) → (⟨S2000000, .f32⟩ : BufTy).Contents (Elt F) → (⟨S2000000, .f32⟩ : BufTy).Contents (Elt F)),
    StableHlo.binary main_v270 main_v272 main_v273 (subf : (⟨S2000000, .f32⟩ : BufTy).Contents (Elt F) → (⟨S2000000, .f32⟩ : BufTy).Contents (Elt F) → (⟨S2000000, .f32⟩ : BufTy).Contents (Elt F)),
    StableHlo.nullary main_cst_40 (constant S_ .f32 0x40C00000#32),
    StableHlo.unary main_cst_40 main_v274 (broadcastInDim S2000000 ![] bcast_S_S2000000 : (⟨S_, .f32⟩ : BufTy).Contents (Elt F) → (⟨S2000000, .f32⟩ : BufTy).Contents (Elt F)),
    StableHlo.binary main_v273 main_v274 main_v275 (Host.divf : (⟨S2000000, .f32⟩ : BufTy).Contents (Elt F) → (⟨S2000000, .f32⟩ : BufTy).Contents (Elt F) → (⟨S2000000, .f32⟩ : BufTy).Contents (Elt F)) ]

/-- The references chunk 14 writes, in order. -/
def wr14 : List (Ref sig .tc) :=
  [main_cst_36, main_v263, main_v264, main_v265, main_cst_37, main_v266, main_v267, main_cst_38, main_v268, main_v269, main_v270, main_cst_39, main_v271, main_v272, main_v273, main_cst_40, main_v274, main_v275]

theorem ch14_sub : (ch14 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

theorem ch14_fresh : (ch14 : List (HloOp τ sig (Elt F))).Forall fun op => op.fresh = ∅ :=
  ⟨rfl, rfl, rfl, rfl, rfl, rfl, rfl, rfl, rfl, rfl, rfl, rfl, rfl, rfl, rfl, rfl, rfl, rfl⟩

theorem ch14_wr : (ch14 : List (HloOp τ sig (Elt F))).Forall fun op => ∃ y ∈ wr14, op.writes = {Proc.devRef (τ := τ) .tc y} :=
  ⟨⟨main_cst_36, by decide, rfl⟩, ⟨main_v263, by decide, rfl⟩, ⟨main_v264, by decide, rfl⟩, ⟨main_v265, by decide, rfl⟩, ⟨main_cst_37, by decide, rfl⟩, ⟨main_v266, by decide, rfl⟩, ⟨main_v267, by decide, rfl⟩, ⟨main_cst_38, by decide, rfl⟩, ⟨main_v268, by decide, rfl⟩, ⟨main_v269, by decide, rfl⟩, ⟨main_v270, by decide, rfl⟩, ⟨main_cst_39, by decide, rfl⟩, ⟨main_v271, by decide, rfl⟩, ⟨main_v272, by decide, rfl⟩, ⟨main_v273, by decide, rfl⟩, ⟨main_cst_40, by decide, rfl⟩, ⟨main_v274, by decide, rfl⟩, ⟨main_v275, by decide, rfl⟩⟩

/-- Operations 319 … 354 of 367 (window 5). -/
def ch15 : List (HloOp τ sig (Elt F)) :=
  [ StableHlo.unary main_cst_1 main_v276 ((extractStridedSlice S1 ![0] · slices_S7_S1_0) : (⟨S7, .f32⟩ : BufTy).Contents (Elt F) → (⟨S1, .f32⟩ : BufTy).Contents (Elt F)),
    StableHlo.reshape main_v276 main_v277 rfl shapeCasts_S1_S_,
    StableHlo.unary main_v277 main_v278 (broadcastInDim S2000000 ![] bcast_S_S2000000 : (⟨S_, .f32⟩ : BufTy).Contents (Elt F) → (⟨S2000000, .f32⟩ : BufTy).Contents (Elt F)),
    StableHlo.binary main_v278 main_v235 main_v279 (mulf : (⟨S2000000, .f32⟩ : BufTy).Contents (Elt F) → (⟨S2000000, .f32⟩ : BufTy).Contents (Elt F) → (⟨S2000000, .f32⟩ : BufTy).Contents (Elt F)),
    StableHlo.unary main_cst_1 main_v280 ((extractStridedSlice S1 ![1] · slices_S7_S1_1) : (⟨S7, .f32⟩ : BufTy).Contents (Elt F) → (⟨S1, .f32⟩ : BufTy).Contents (Elt F)),
    StableHlo.reshape main_v280 main_v281 rfl shapeCasts_S1_S_,
    StableHlo.unary main_v281 main_v282 (broadcastInDim S2000000 ![] bcast_S_S2000000 : (⟨S_, .f32⟩ : BufTy).Contents (Elt F) → (⟨S2000000, .f32⟩ : BufTy).Contents (Elt F)),
    StableHlo.binary main_v282 main_v234 main_v283 (mulf : (⟨S2000000, .f32⟩ : BufTy).Contents (Elt F) → (⟨S2000000, .f32⟩ : BufTy).Contents (Elt F) → (⟨S2000000, .f32⟩ : BufTy).Contents (Elt F)),
    StableHlo.unary main_cst_1 main_v284 ((extractStridedSlice S1 ![2] · slices_S7_S1_2) : (⟨S7, .f32⟩ : BufTy).Contents (Elt F) → (⟨S1, .f32⟩ : BufTy).Contents (Elt F)),
    StableHlo.reshape main_v284 main_v285 rfl shapeCasts_S1_S_,
    StableHlo.unary main_v285 main_v286 (broadcastInDim S2000000 ![] bcast_S_S2000000 : (⟨S_, .f32⟩ : BufTy).Contents (Elt F) → (⟨S2000000, .f32⟩ : BufTy).Contents (Elt F)),
    StableHlo.binary main_v286 main_v243 main_v287 (mulf : (⟨S2000000, .f32⟩ : BufTy).Contents (Elt F) → (⟨S2000000, .f32⟩ : BufTy).Contents (Elt F) → (⟨S2000000, .f32⟩ : BufTy).Contents (Elt F)),
    StableHlo.unary main_cst_1 main_v288 ((extractStridedSlice S1 ![3] · slices_S7_S1_3) : (⟨S7, .f32⟩ : BufTy).Contents (Elt F) → (⟨S1, .f32⟩ : BufTy).Contents (Elt F)),
    StableHlo.reshape main_v288 main_v289 rfl shapeCasts_S1_S_,
    StableHlo.unary main_v289 main_v290 (broadcastInDim S2000000 ![] bcast_S_S2000000 : (⟨S_, .f32⟩ : BufTy).Contents (Elt F) → (⟨S2000000, .f32⟩ : BufTy).Contents (Elt F)),
    StableHlo.binary main_v290 main_v251 main_v291 (mulf : (⟨S2000000, .f32⟩ : BufTy).Contents (Elt F) → (⟨S2000000, .f32⟩ : BufTy).Contents (Elt F) → (⟨S2000000, .f32⟩ : BufTy).Contents (Elt F)),
    StableHlo.unary main_cst_1 main_v292 ((extractStridedSlice S1 ![4] · slices_S7_S1_4) : (⟨S7, .f32⟩ : BufTy).Contents (Elt F) → (⟨S1, .f32⟩ : BufTy).Contents (Elt F)),
    StableHlo.reshape main_v292 main_v293 rfl shapeCasts_S1_S_,
    StableHlo.unary main_v293 main_v294 (broadcastInDim S2000000 ![] bcast_S_S2000000 : (⟨S_, .f32⟩ : BufTy).Contents (Elt F) → (⟨S2000000, .f32⟩ : BufTy).Contents (Elt F)),
    StableHlo.binary main_v294 main_v259 main_v295 (mulf : (⟨S2000000, .f32⟩ : BufTy).Contents (Elt F) → (⟨S2000000, .f32⟩ : BufTy).Contents (Elt F) → (⟨S2000000, .f32⟩ : BufTy).Contents (Elt F)),
    StableHlo.unary main_cst_1 main_v296 ((extractStridedSlice S1 ![5] · slices_S7_S1_5) : (⟨S7, .f32⟩ : BufTy).Contents (Elt F) → (⟨S1, .f32⟩ : BufTy).Contents (Elt F)),
    StableHlo.reshape main_v296 main_v297 rfl shapeCasts_S1_S_,
    StableHlo.unary main_v297 main_v298 (broadcastInDim S2000000 ![] bcast_S_S2000000 : (⟨S_, .f32⟩ : BufTy).Contents (Elt F) → (⟨S2000000, .f32⟩ : BufTy).Contents (Elt F)),
    StableHlo.binary main_v298 main_v267 main_v299 (mulf : (⟨S2000000, .f32⟩ : BufTy).Contents (Elt F) → (⟨S2000000, .f32⟩ : BufTy).Contents (Elt F) → (⟨S2000000, .f32⟩ : BufTy).Contents (Elt F)),
    StableHlo.unary main_cst_1 main_v300 ((extractStridedSlice S1 ![6] · slices_S7_S1_6) : (⟨S7, .f32⟩ : BufTy).Contents (Elt F) → (⟨S1, .f32⟩ : BufTy).Contents (Elt F)),
    StableHlo.reshape main_v300 main_v301 rfl shapeCasts_S1_S_,
    StableHlo.unary main_v301 main_v302 (broadcastInDim S2000000 ![] bcast_S_S2000000 : (⟨S_, .f32⟩ : BufTy).Contents (Elt F) → (⟨S2000000, .f32⟩ : BufTy).Contents (Elt F)),
    StableHlo.binary main_v302 main_v275 main_v303 (mulf : (⟨S2000000, .f32⟩ : BufTy).Contents (Elt F) → (⟨S2000000, .f32⟩ : BufTy).Contents (Elt F) → (⟨S2000000, .f32⟩ : BufTy).Contents (Elt F)),
    StableHlo.unary main_v279 main_v304 (broadcastInDim S2000000x1 ![0] bcast_S2000000_S2000000x1_0 : (⟨S2000000, .f32⟩ : BufTy).Contents (Elt F) → (⟨S2000000x1, .f32⟩ : BufTy).Contents (Elt F)),
    StableHlo.unary main_v283 main_v305 (broadcastInDim S2000000x1 ![0] bcast_S2000000_S2000000x1_0 : (⟨S2000000, .f32⟩ : BufTy).Contents (Elt F) → (⟨S2000000x1, .f32⟩ : BufTy).Contents (Elt F)),
    StableHlo.unary main_v287 main_v306 (broadcastInDim S2000000x1 ![0] bcast_S2000000_S2000000x1_0 : (⟨S2000000, .f32⟩ : BufTy).Contents (Elt F) → (⟨S2000000x1, .f32⟩ : BufTy).Contents (Elt F)),
    StableHlo.unary main_v291 main_v307 (broadcastInDim S2000000x1 ![0] bcast_S2000000_S2000000x1_0 : (⟨S2000000, .f32⟩ : BufTy).Contents (Elt F) → (⟨S2000000x1, .f32⟩ : BufTy).Contents (Elt F)),
    StableHlo.unary main_v295 main_v308 (broadcastInDim S2000000x1 ![0] bcast_S2000000_S2000000x1_0 : (⟨S2000000, .f32⟩ : BufTy).Contents (Elt F) → (⟨S2000000x1, .f32⟩ : BufTy).Contents (Elt F)),
    StableHlo.unary main_v299 main_v309 (broadcastInDim S2000000x1 ![0] bcast_S2000000_S2000000x1_0 : (⟨S2000000, .f32⟩ : BufTy).Contents (Elt F) → (⟨S2000000x1, .f32⟩ : BufTy).Contents (Elt F)),
    StableHlo.unary main_v303 main_v310 (broadcastInDim S2000000x1 ![0] bcast_S2000000_S2000000x1_0 : (⟨S2000000, .f32⟩ : BufTy).Contents (Elt F) → (⟨S2000000x1, .f32⟩ : BufTy).Contents (Elt F)),
    StableHlo.nary ![main_v304, main_v305, main_v306, main_v307, main_v308, main_v309, main_v310] main_v311 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1) ]

/-- The references chunk 15 writes, in order. -/
def wr15 : List (Ref sig .tc) :=
  [main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311]

theorem ch15_sub : (ch15 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., unary_bufs_sub .., unary_bufs_sub .., unary_bufs_sub .., unary_bufs_sub .., unary_bufs_sub .., nary_bufs_sub ..⟩

theorem ch15_fresh : (ch15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch15_wr : (ch15 : List (HloOp τ sig (Elt F))).Forall fun op => ∃ y ∈ wr15, op.writes = {Proc.devRef (τ := τ) .tc y} :=
  ⟨⟨main_v276, by decide, rfl⟩, ⟨main_v277, by decide, rfl⟩, ⟨main_v278, by decide, rfl⟩, ⟨main_v279, by decide, rfl⟩, ⟨main_v280, by decide, rfl⟩, ⟨main_v281, by decide, rfl⟩, ⟨main_v282, by decide, rfl⟩, ⟨main_v283, by decide, rfl⟩, ⟨main_v284, by decide, rfl⟩, ⟨main_v285, by decide, rfl⟩, ⟨main_v286, by decide, rfl⟩, ⟨main_v287, by decide, rfl⟩, ⟨main_v288, by decide, rfl⟩, ⟨main_v289, by decide, rfl⟩, ⟨main_v290, by decide, rfl⟩, ⟨main_v291, by decide, rfl⟩, ⟨main_v292, by decide, rfl⟩, ⟨main_v293, by decide, rfl⟩, ⟨main_v294, by decide, rfl⟩, ⟨main_v295, by decide, rfl⟩, ⟨main_v296, by decide, rfl⟩, ⟨main_v297, by decide, rfl⟩, ⟨main_v298, by decide, rfl⟩, ⟨main_v299, by decide, rfl⟩, ⟨main_v300, by decide, rfl⟩, ⟨main_v301, by decide, rfl⟩, ⟨main_v302, by decide, rfl⟩, ⟨main_v303, by decide, rfl⟩, ⟨main_v304, by decide, rfl⟩, ⟨main_v305, by decide, rfl⟩, ⟨main_v306, by decide, rfl⟩, ⟨main_v307, by decide, rfl⟩, ⟨main_v308, by decide, rfl⟩, ⟨main_v309, by decide, rfl⟩, ⟨main_v310, by decide, rfl⟩, ⟨main_v311, by decide, rfl⟩⟩

/-- Operations 355 … 360 of 367 (window 5). -/
def ch16 : List (HloOp τ sig (Elt F)) :=
  [ StableHlo.nullary main_c (constantI S_ 32 0#32),
    StableHlo.unary main_c main_v312 (broadcastInDim S2000000 ![] bcast_S_S2000000 : (⟨S_, .i32⟩ : BufTy).Contents (Elt F) → (⟨S2000000, .i32⟩ : BufTy).Contents (Elt F)),
    StableHlo.binary main_arg2 main_v312 main_v313 (cmpi .slt : (⟨S2000000, .i32⟩ : BufTy).Contents (Elt F) → (⟨S2000000, .i32⟩ : BufTy).Contents (Elt F) → (⟨S2000000, .i1⟩ : BufTy).Contents (Elt F)),
    StableHlo.nullary main_c_41 (constantI S_ 32 500000#32),
    StableHlo.unary main_c_41 main_v314 (broadcastInDim S2000000 ![] bcast_S_S2000000 : (⟨S_, .i32⟩ : BufTy).Contents (Elt F) → (⟨S2000000, .i32⟩ : BufTy).Contents (Elt F)),
    StableHlo.binary main_arg2 main_v314 main_v315 (addi : (⟨S2000000, .i32⟩ : BufTy).Contents (Elt F) → (⟨S2000000, .i32⟩ : BufTy).Contents (Elt F) → (⟨S2000000, .i32⟩ : BufTy).Contents (Elt F)) ]

/-- The references chunk 16 writes, in order. -/
def wr16 : List (Ref sig .tc) :=
  [main_c, main_v312, main_v313, main_c_41, main_v314, main_v315]

theorem ch16_sub : (ch16 : List (HloOp τ sig (Elt F))).Forall fun op => op.bufs ⊆ tcRefs τ sig :=
  ⟨nullary_bufs_sub .., unary_bufs_sub .., binary_bufs_sub .., nullary_bufs_sub .., unary_bufs_sub .., binary_bufs_sub ..⟩

theorem ch16_fresh : (ch16 : List (HloOp τ sig (Elt F))).Forall fun op => op.fresh = ∅ :=
  ⟨rfl, rfl, rfl, rfl, rfl, rfl⟩

theorem ch16_wr : (ch16 : List (HloOp τ sig (Elt F))).Forall fun op => ∃ y ∈ wr16, op.writes = {Proc.devRef (τ := τ) .tc y} :=
  ⟨⟨main_c, by decide, rfl⟩, ⟨main_v312, by decide, rfl⟩, ⟨main_v313, by decide, rfl⟩, ⟨main_c_41, by decide, rfl⟩, ⟨main_v314, by decide, rfl⟩, ⟨main_v315, by decide, rfl⟩⟩

/-- Operations 361 … 367 of 367 (window 6). -/
def ch17 : List (HloOp τ sig (Elt F)) :=
  [ StableHlo.ternary main_v313 main_v315 main_arg2 main_v316 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v316 main_v317 (broadcastInDim S2000000x1 ![0] bcast_S2000000_S2000000x1_0 : (⟨S2000000, .i32⟩ : BufTy).Contents (Elt F) → (⟨S2000000x1, .i32⟩ : BufTy).Contents (Elt F)),
    StableHlo.binary main_v233 main_v317 main_v318 ((fun x i => Host.gather gather_S500000x7x6_S2000000x1_S2000000x7x6_12_0_n_n_0_1_176 x i) : (⟨S500000x7x6, .f32⟩ : BufTy).Contents (Elt F) → (⟨S2000000x1, .i32⟩ : BufTy).Contents (Elt F) → (⟨S2000000x7x6, .f32⟩ : BufTy).Contents (Elt F)),
    StableHlo.unary main_v311 main_v319 (broadcastInDim S2000000x7x1 ![0, 1] bcast_S2000000x7_S2000000x7x1_0_1 : (⟨S2000000x7, .f32⟩ : BufTy).Contents (Elt F) → (⟨S2000000x7x1, .f32⟩ : BufTy).Contents (Elt F)),
    StableHlo.unary main_v319 main_v320 (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)),
    StableHlo.binary main_v318 main_v320 main_v321 (mulf : (⟨S2000000x7x6, .f32⟩ : BufTy).Contents (Elt F) → (⟨S2000000x7x6, .f32⟩ : BufTy).Contents (Elt F) → (⟨S2000000x7x6, .f32⟩ : BufTy).Contents (Elt F)),
    StableHlo.reshape main_v321 main_v322 rfl shapeCasts_S2000000x7x6_S2000000x42 ]

/-- The references chunk 17 writes, in order. -/
def wr17 : List (Ref sig .tc) :=
  [main_v316, main_v317, main_v318, main_v319, main_v320, main_v321, main_v322]

theorem ch17_sub : (ch17 : List (HloOp τ sig (Elt F))).Forall fun op => op.bufs ⊆ tcRefs τ sig :=
  ⟨ternary_bufs_sub .., unary_bufs_sub .., binary_bufs_sub .., unary_bufs_sub .., unary_bufs_sub .., binary_bufs_sub .., reshape_bufs_sub ..⟩

theorem ch17_fresh : (ch17 : List (HloOp τ sig (Elt F))).Forall fun op => op.fresh = ∅ :=
  ⟨rfl, rfl, rfl, rfl, rfl, rfl, rfl⟩

theorem ch17_wr : (ch17 : List (HloOp τ sig (Elt F))).Forall fun op => ∃ y ∈ wr17, op.writes = {Proc.devRef (τ := τ) .tc y} :=
  ⟨⟨main_v316, by decide, rfl⟩, ⟨main_v317, by decide, rfl⟩, ⟨main_v318, by decide, rfl⟩, ⟨main_v319, by decide, rfl⟩, ⟨main_v320, by decide, rfl⟩, ⟨main_v321, by decide, rfl⟩, ⟨main_v322, by decide, rfl⟩⟩

/-- The operations of printed window 0. -/
abbrev win0 : List (HloOp τ sig (Elt F)) := ch0 ++ ch1 ++ ch2

/-- The operations of printed window 1. -/
abbrev win1 : List (HloOp τ sig (Elt F)) := ch3 ++ ch4 ++ ch5

/-- The operations of printed window 2. -/
abbrev win2 : List (HloOp τ sig (Elt F)) := ch6 ++ ch7 ++ ch8

/-- The operations of printed window 3. -/
abbrev win3 : List (HloOp τ sig (Elt F)) := ch9 ++ ch10

/-- The operations of printed window 4. -/
abbrev win4 : List (HloOp τ sig (Elt F)) := ch11 ++ ch12 ++ ch13

/-- The operations of printed window 5. -/
abbrev win5 : List (HloOp τ sig (Elt F)) := ch14 ++ ch15 ++ ch16

/-- The operations of printed window 6. -/
abbrev win6 : List (HloOp τ sig (Elt F)) := ch17

/-- @main's 367 operations, in order. -/
abbrev ops : List (HloOp τ sig (Elt F)) := win0 ++ win1 ++ win2 ++ win3 ++ win4 ++ win5 ++ win6

end Cert.RefRun

end
-- ==== Proof.RefRun.lean ====
/-
  The reference program's run: every weakly fair execution of its @main terminates with the result buffer at the
  array function of the three arguments that the program's operations compose, and the arguments unchanged.

  @main is the straight line of its 367 operations (the operation table, cut into consecutive chunks). The buffer
  contents after the line are a fold over the operations; the fold over a concatenation is the fold over its parts in
  order, so the result buffer is read stage by stage, outermost first: the gather and product from the per-edge table,
  the angular table and the start indices; the angular columns from the seven Legendre polynomials; those from the
  cosines by Bonnet's recurrence; the per-edge table from the envelope and the seven radial blocks; each radial block
  from the two tables and the rescaled distances by the Bessel recurrence; the envelope, the distances and the three
  tables from the first argument and the constants. A buffer that a chunk does not write is read through it unchanged.
-/
import proofs.«134738_j46024869543995_1_alg».proof.Proof.Gen.ReferenceIdeal
import proofs.«134738_j46024869543995_1_alg».proof.Proof.RefDefs
import proofs.«134738_j46024869543995_1_alg».proof.Proof.RefOps
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## General facts -/

/-- A property of every entry of two lists holds of every entry of their concatenation. -/
theorem forall_app {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

/-- The fold over a concatenation is the fold over the second list from the fold over the first. -/
theorem after_app {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

/-- A line each of whose operations writes one reference of a list leaves every reference outside the list alone. -/
theorem skip_of {τ' : Topo} {sig' : RefSig} {Val : EltTy → Type} {l : List (HloOp τ' sig' Val)} {W : List (Ref sig' .tc)}
    (h : l.Forall fun op => ∃ y ∈ W, op.writes = {Proc.devRef (τ := τ') .tc y}) (V : Valuation τ' sig' Val)
    {r : Ref sig' .tc} (hr : r ∉ W) : after l V (no_index (Proc.devRef .tc r)) = V (Proc.devRef .tc r) :=
  after_of_forall_not_mem l V fun op hop hb => by
    obtain ⟨y, hy, hw⟩ := List.forall_iff_forall_mem.1 h op hop
    rw [hw, Finset.mem_singleton] at hb
    exact hr (Proc.devRef_injective _ hb ▸ hy)

/-- The result of an operation over a literal family of seven references, each operand's contents at its own
    reference (so that the operands' contents can be rewritten further). -/
theorem nary7_result {τ' : Topo} {sig' : RefSig} {Val : EltTy → Type} {x0 x1 x2 x3 x4 x5 x6 y : Ref sig' .tc}
    (f : ((k : Fin 7) → ((![x0, x1, x2, x3, x4, x5, x6] : Fin 7 → Ref sig' .tc) k).ty.Contents Val) → y.ty.Contents Val) (hxs hy)
    (G : Valuation τ' sig' Val) :
    (nary (τ := τ') ![x0, x1, x2, x3, x4, x5, x6] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) := by
  rw [nary_result]; congr 1; funext k; fin_cases k <;> rfl

theorem nary7_result' {τ' : Topo} {sig' : RefSig} {Val : EltTy → Type} {x0 x1 x2 x3 x4 x5 x6 y : Ref sig' .tc}
    (f : ((k : Fin 7) → ((![x0, x1, x2, x3, x4, x5, x6] : Fin 7 → Ref sig' .tc) k).ty.Contents Val) → y.ty.Contents Val) (hxs hy)
    (G : Valuation τ' sig' Val) :
    (nary (τ := τ') ![x0, x1, x2, x3, x4, x5, x6] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) :=
  nary7_result f hxs hy G

/-- The fold at one reference in one pass, a seven-operand operation read at its operands. -/
macro "after_results7" : tactic =>
  `(tactic| (simp (disch := decide) only [after_cons, after_nil,
      nullary_result', unary_result', binary_result', ternary_result', reshape_result', nary7_result',
      nullary_result_ne', unary_result_ne', binary_result_ne', ternary_result_ne', reshape_result_ne', nary_result_ne']))

/-- A TensorCore reference as the device's buffer. -/
abbrev dr (r : Ref sig .tc) : DevRef τ sig := Proc.devRef .tc r

open Cert.RefArr

/-! ## The stages' array functions, over the buffers a stage reads -/

/-- A radial block from the two tables' contents and the rescaled distances. -/
def blk (z b : FVec F S7x6 .f32) (d : FVec F S500000 .f32) (l : Fin 7) : FVec F S500000x6 .f32 :=
  mulf (downEdges (tabRow b l)) (besselBlk l.val (mulf (acrossCols d) (downEdges (tabRow z l))))

theorem blk_eq (d : FVec F S500000 .f32) (l : Fin 7) : blk zTab bTab d l = radialBlk d l := rfl

/-- The per-edge table from the envelope and the seven radial blocks. -/
def tbl (e : FVec F S500000 .f32) (b0 b1 b2 b3 b4 b5 b6 : FVec F S500000x6 .f32) : FVec F S500000x7x6 .f32 :=
  mulf (broadcastInDim S500000x7x6 ![0, 1, 2] bcast_S500000x1x1_S500000x7x6_0_1_2
      (broadcastInDim S500000x1x1 ![0] bcast_S500000_S500000x1x1_0 (mulf e (perEdge 0x3DB72DBF#32))))
    (concatenate S500000x7x6 1 [⟨S500000x1x6, asSlab b0⟩, ⟨S500000x1x6, asSlab b1⟩, ⟨S500000x1x6, asSlab b2⟩, ⟨S500000x1x6, asSlab b3⟩, ⟨S500000x1x6, asSlab b4⟩, ⟨S500000x1x6, asSlab b5⟩, ⟨S500000x1x6, asSlab b6⟩]
      concatenates_S500000x1x6_S500000x1x6_S500000x1x6_S500000x1x6_S500000x1x6_S500000x1x6_S500000x1x6_S500000x7x6_d1)

theorem tbl_eq (D : FVec F S500000 .f32) :
    tbl (env (dist D)) (radialBlk (dist D) 0) (radialBlk (dist D) 1) (radialBlk (dist D) 2) (radialBlk (dist D) 3)
      (radialBlk (dist D) 4) (radialBlk (dist D) 5) (radialBlk (dist D) 6) = edgeTable D := rfl

/-- One angular column from the table entry's source and the polynomial's values. -/
def col (y : FVec F S7 .f32) (l : Fin 7) (p : FVec F S2000000 .f32) : FVec F S2000000x1 .f32 :=
  broadcastInDim S2000000x1 ![0] bcast_S2000000_S2000000x1_0
    (mulf (broadcastInDim S2000000 ![] bcast_S_S2000000 (tabEntry y l)) p)

/-- The seven angular columns side by side, from the [7] table's contents and the seven polynomials' values. -/
def cols (y : FVec F S7 .f32) (p0 p1 p2 p3 p4 p5 p6 : FVec F S2000000 .f32) : FVec F S2000000x7 .f32 :=
  concatenate S2000000x7 1 [⟨S2000000x1, col y 0 p0⟩, ⟨S2000000x1, col y 1 p1⟩, ⟨S2000000x1, col y 2 p2⟩, ⟨S2000000x1, col y 3 p3⟩, ⟨S2000000x1, col y 4 p4⟩, ⟨S2000000x1, col y 5 p5⟩, ⟨S2000000x1, col y 6 p6⟩]
    concatenates_S2000000x1_S2000000x1_S2000000x1_S2000000x1_S2000000x1_S2000000x1_S2000000x1_S2000000x7_d1

theorem cols_eq (A : FVec F S2000000 .f32) :
    cols yTab (perTriplet 0x3F800000#32) (Host.cos A) (legendreVec 2 (Host.cos A)) (legendreVec 3 (Host.cos A))
      (legendreVec 4 (Host.cos A)) (legendreVec 5 (Host.cos A)) (legendreVec 6 (Host.cos A)) = angularTable A := rfl

/-- The result from the per-edge table, the angular table and the start indices. -/
def fin (T : FVec F S500000x7x6 .f32) (Y : FVec F S2000000x7 .f32) (I : IVec S2000000 32) : FVec F S2000000x42 .f32 :=
  shapeCast S2000000x42
    (mulf (Host.gather gather_S500000x7x6_S2000000x1_S2000000x7x6_12_0_n_n_0_1_176 T (starts I))
      (broadcastInDim S2000000x7x6 ![0, 1, 2] bcast_S2000000x7x1_S2000000x7x6_0_1_2
        (broadcastInDim S2000000x7x1 ![0, 1] bcast_S2000000x7_S2000000x7x1_0_1 Y)))
    shapeCasts_S2000000x7x6_S2000000x42

theorem fin_eq (D : FVec F S500000 .f32) (A : FVec F S2000000 .f32) (I : IVec S2000000 32) :
    fin (edgeTable D) (angularTable A) I = result D A I := rfl

/-! ## Stage by stage: what each stage's result buffers hold, from any contents before it -/

section Stages
variable (W : Valuation τ sig (Elt F))

theorem E_cst : after ch0 W (no_index (dr main_cst)) = (zTab : FVec F S7x6 .f32) := by
  simp only [ch0]; after_results_simp; rfl
theorem E_cst0 : after ch0 W (no_index (dr main_cst_0)) = (bTab : FVec F S7x6 .f32) := by
  simp only [ch0]; after_results_simp; rfl
theorem E_cst1 : after ch0 W (no_index (dr main_cst_1)) = (yTab : FVec F S7 .f32) := by
  simp only [ch0]; after_results_simp; rfl
theorem E_v1 : after ch0 W (no_index (dr main_v1)) = dist (W (dr main_arg0)) := by
  simp only [ch0]; after_results_simp; rfl
theorem E_v26 : after ch0 W (no_index (dr main_v26)) = env (dist (W (dr main_arg0))) := by
  simp only [ch0]; after_results_simp <;> (try simp only [TRef.ofBuf, TRef.toBuf, cast_eq]) <;> rfl

theorem R0 : after ch1 W (no_index (dr main_v40)) = blk (W (dr main_cst)) (W (dr main_cst_0)) (W (dr main_v1)) 0 := by
  simp only [ch1]; after_results_simp; rfl
theorem R1 : after ch3 (after ch2 W) (no_index (dr main_v60)) = blk (W (dr main_cst)) (W (dr main_cst_0)) (W (dr main_v1)) 1 := by
  simp only [ch2, ch3]; after_results_simp; rfl

theorem R2 : after ch4 W (no_index (dr main_v84)) = blk (W (dr main_cst)) (W (dr main_cst_0)) (W (dr main_v1)) 2 := by
  simp only [ch4]; after_results_simp; rfl
theorem R3 : after ch6 (after ch5 W) (no_index (dr main_v112)) = blk (W (dr main_cst)) (W (dr main_cst_0)) (W (dr main_v1)) 3 := by
  simp only [ch5, ch6]; after_results_simp; rfl
theorem R4 : after ch7 W (no_index (dr main_v144)) = blk (W (dr main_cst)) (W (dr main_cst_0)) (W (dr main_v1)) 4 := by
  simp only [ch7]; after_results_simp; rfl
theorem R5 : after ch9 (after ch8 W) (no_index (dr main_v180)) = blk (W (dr main_cst)) (W (dr main_cst_0)) (W (dr main_v1)) 5 := by
  simp only [ch8, ch9]; after_results_simp; rfl
theorem R6 : after ch11 (after ch10 W) (no_index (dr main_v220)) = blk (W (dr main_cst)) (W (dr main_cst_0)) (W (dr main_v1)) 6 := by
  simp only [ch10, ch11]; after_results_simp; rfl

theorem S_v233 : after ch12 W (no_index (dr main_v233))
    = tbl (W (dr main_v26)) (W (dr main_v40)) (W (dr main_v60)) (W (dr main_v84)) (W (dr main_v112)) (W (dr main_v144))
        (W (dr main_v180)) (W (dr main_v220)) := by
  simp only [ch12]; after_results7; rfl

theorem L_v234 : after ch13 W (no_index (dr main_v234)) = Host.cos (W (dr main_arg1)) := by
  simp only [ch13]; after_results_simp
theorem L_v235 : after ch13 W (no_index (dr main_v235)) = (perTriplet 0x3F800000#32 : FVec F S2000000 .f32) := by
  simp only [ch13]; after_results_simp; rfl
theorem L_v243 : after ch13 W (no_index (dr main_v243)) = legendreVec 2 (Host.cos (W (dr main_arg1))) := by
  simp only [ch13]; after_results_simp; rfl
theorem L_v251 : after ch13 W (no_index (dr main_v251)) = legendreVec 3 (Host.cos (W (dr main_arg1))) := by
  simp only [ch13]; after_results_simp; rfl
theorem L_v259 : after ch13 W (no_index (dr main_v259)) = legendreVec 4 (Host.cos (W (dr main_arg1))) := by
  simp only [ch13]; after_results_simp; rfl
theorem L_v267 : after ch14 (after ch13 W) (no_index (dr main_v267)) = legendreVec 5 (Host.cos (W (dr main_arg1))) := by
  simp only [ch13, ch14]; after_results_simp; rfl
theorem L_v275 : after ch14 (after ch13 W) (no_index (dr main_v275)) = legendreVec 6 (Host.cos (W (dr main_arg1))) := by
  simp only [ch13, ch14]; after_results_simp; rfl

theorem C_v311 : after ch15 W (no_index (dr main_v311))
    = cols (W (dr main_cst_1)) (W (dr main_v235)) (W (dr main_v234)) (W (dr main_v243)) (W (dr main_v251)) (W (dr main_v259))
        (W (dr main_v267)) (W (dr main_v275)) := by
  simp only [ch15]; after_results7; rfl

theorem F_v322 : after ch17 (after ch16 W) (no_index (dr main_v322))
    = fin (W (dr main_v233)) (W (dr main_v311)) (W (dr main_arg2)) := by
  simp only [ch16, ch17]; after_results_simp; rfl

end Stages

/-! ## The program is the line of its operations -/

theorem part0_eq (c : Dev nD) : main_part0 (F := F) c = seq win0 := rfl
theorem part1_eq (c : Dev nD) : main_part1 (F := F) c = seq win1 := rfl
theorem part2_eq (c : Dev nD) : main_part2 (F := F) c = seq win2 := rfl
theorem part3_eq (c : Dev nD) : main_part3 (F := F) c = seq win3 := rfl
theorem part4_eq (c : Dev nD) : main_part4 (F := F) c = seq win4 := rfl
theorem part5_eq (c : Dev nD) : main_part5 (F := F) c = seq win5 := rfl
theorem part6_eq (c : Dev nD) : main_part6 (F := F) c = seq win6 := rfl

/-- @main runs its seven windows in order, each the line of its operations: the whole is the line of all of them. -/
theorem main_eq (c : Dev nD) : main (F := F) c = seq ops := by
  simp only [main, part0_eq, part1_eq, part2_eq, part3_eq, part4_eq, part5_eq, part6_eq, ops, win0, win1, win2, win3, win4,
    win5, win6, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app (forall_app (forall_app (forall_app (forall_app
    (forall_app (forall_app ch0_sub ch1_sub) ch2_sub)
    (forall_app (forall_app ch3_sub ch4_sub) ch5_sub))
    (forall_app (forall_app ch6_sub ch7_sub) ch8_sub))
    (forall_app ch9_sub ch10_sub))
    (forall_app (forall_app ch11_sub ch12_sub) ch13_sub))
    (forall_app (forall_app ch14_sub ch15_sub) ch16_sub))
    ch17_sub

theorem ops_fresh : (ops : List (HloOp τ sig (Elt F))).Forall fun op => op.fresh = ∅ :=
  forall_app (forall_app (forall_app (forall_app (forall_app (forall_app
    (forall_app (forall_app ch0_fresh ch1_fresh) ch2_fresh)
    (forall_app (forall_app ch3_fresh ch4_fresh) ch5_fresh))
    (forall_app (forall_app ch6_fresh ch7_fresh) ch8_fresh))
    (forall_app ch9_fresh ch10_fresh))
    (forall_app (forall_app ch11_fresh ch12_fresh) ch13_fresh))
    (forall_app (forall_app ch14_fresh ch15_fresh) ch16_fresh))
    ch17_fresh

/-! ## The result buffer and the arguments after the whole line -/

/-- The result buffer after the whole line, from any contents: the stages read outermost first, a buffer a chunk does not
    write read through it. -/
theorem res_eq (V : Valuation τ sig (Elt F)) :
    after ops V (dr main_v322) = result (V (dr main_arg0)) (V (dr main_arg1)) (V (dr main_arg2)) := by
  simp only [ops, win0, win1, win2, win3, win4, win5, win6, after_app]
  simp (disch := decide) only [F_v322, C_v311, L_v234, L_v235, L_v243, L_v251, L_v259, L_v267, L_v275, S_v233,
    R0, R1, R2, R3, R4, R5, R6, E_cst, E_cst0, E_cst1, E_v1, E_v26,
    skip_of ch0_wr, skip_of ch1_wr, skip_of ch2_wr, skip_of ch3_wr, skip_of ch4_wr, skip_of ch5_wr, skip_of ch6_wr,
    skip_of ch7_wr, skip_of ch8_wr, skip_of ch9_wr, skip_of ch10_wr, skip_of ch11_wr, skip_of ch12_wr, skip_of ch13_wr,
    skip_of ch14_wr, skip_of ch15_wr, skip_of ch16_wr, skip_of ch17_wr]
  simp only [blk_eq, tbl_eq, cols_eq, fin_eq]

/-- No chunk writes an argument's buffer. -/
theorem arg_eq (V : Valuation τ sig (Elt F)) {r : Ref sig .tc}
    (h : r ∉ wr0 ++ wr1 ++ wr2 ++ wr3 ++ wr4 ++ wr5 ++ wr6 ++ wr7 ++ wr8 ++ wr9 ++ wr10 ++ wr11 ++ wr12 ++ wr13 ++ wr14 ++ wr15
      ++ wr16 ++ wr17) : after ops V (dr r) = V (dr r) := by
  simp only [List.mem_append, not_or] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h
  simp only [ops, win0, win1, win2, win3, win4, win5, win6, after_app]
  rw [skip_of ch17_wr _ h17, skip_of ch16_wr _ h16, skip_of ch15_wr _ h15, skip_of ch14_wr _ h14, skip_of ch13_wr _ h13,
    skip_of ch12_wr _ h12, skip_of ch11_wr _ h11, skip_of ch10_wr _ h10, skip_of ch9_wr _ h9, skip_of ch8_wr _ h8,
    skip_of ch7_wr _ h7, skip_of ch6_wr _ h6, skip_of ch5_wr _ h5, skip_of ch4_wr _ h4, skip_of ch3_wr _ h3,
    skip_of ch2_wr _ h2, skip_of ch1_wr _ h1, skip_of ch0_wr _ h0]

/-! ## The run -/

/-- For any float values: every weakly fair execution of the reference's @main terminates with the result buffer at the
    composed array function of the three arguments and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v322)
        = Cert.RefArr.result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v322).trans (res_eq _),
      (h c main_arg0).trans (arg_eq _ (by decide)),
      (h c main_arg1).trans (arg_eq _ (by decide)),
      (h c main_arg2).trans (arg_eq _ (by decide)),
      (h c main_arg3).trans (arg_eq _ (by decide))⟩)
    (run_seq scopedRefs_eq scopedSems_eq defs main (fun _ => ops) main_eq (fun _ => ops_sub) m ρ
      (fun _ => List.forall_iff_forall_mem.1 ops_fresh))

/-- The run of the reference at the ideal instance, its result named as the composed array function. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v322)
        = Cert.RefArr.result (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_gen m ρ

end Cert.RefRun

end
-- ==== Proof.RefRadial.lean ====
/-
  The reference's per-edge table [edges, 7, 6] read at one element.

  Slab l of the table is the scaled envelope of the rescaled distance times the radial block of order l: row l of the two
  [7, 6] tables spread down the edges, the distance spread across six columns, the Bessel recurrence run on whole blocks
  (every step pointwise), the seven blocks stacked along the middle axis. Read at (e, l, r) this is the scalar envelope
  times the scalar radial value of order l with the table entries 6·l + r, at the distance of edge e.
-/
import proofs.«134738_j46024869543995_1_alg».proof.Proof.RefDefs
import Idealize.ShloMosaic.Lib.Pipeline.Value
import Idealize.ShloMosaic.Lib.ValueIdx

noncomputable section

namespace Cert.RefRead

open Idealize.ShloMosaic Idealize.ShloMosaic.ValueIdx Cert.ReferenceIdeal Cert.ReferenceIdeal.Gen Cert.Basis Cert.RefArr

/-! ## Pointwise stages: the rescaled distance and its scaled envelope -/

/-- The rescaled distances at an edge: the distance times f32(1/5). -/
private theorem dist_apply (D : FVec Ideal S500000 .f32) (i : S500000.Idx) : dist D i = rescale (D i) := rfl

/-- d·((d·d)·(d·d)) is d⁵ multiplied from the left: multiplication of extended reals is associative. -/
private theorem pow5_regroup (d : E) :
    FloatOps.mulf d (FloatOps.mulf (FloatOps.mulf d d) (FloatOps.mulf d d)) = pow5 d := by
  unfold pow5
  simp only [Ideal.mulf_def, mul_assoc]

/-- (d·d)·((d·d)·(d·d)) is d⁶ multiplied from the left. -/
private theorem pow6_regroup (d : E) :
    FloatOps.mulf (FloatOps.mulf d d) (FloatOps.mulf (FloatOps.mulf d d) (FloatOps.mulf d d)) = pow6 d := by
  unfold pow6 pow5
  simp only [Ideal.mulf_def, mul_assoc]

/-- (d·(d·d))·((d·d)·(d·d)) is d⁷ multiplied from the left. -/
private theorem pow7_regroup (d : E) :
    FloatOps.mulf (FloatOps.mulf d (FloatOps.mulf d d)) (FloatOps.mulf (FloatOps.mulf d d) (FloatOps.mulf d d)) = pow7 d := by
  unfold pow7 pow6 pow5
  simp only [Ideal.mulf_def, mul_assoc]

/-- The scaled envelope at an edge is the scalar cutoff of the distance there: every stage is pointwise, and the three
    powers differ from the specification's only in how the factors are grouped. -/
private theorem scale_apply (d : FVec Ideal S500000 .f32) (i : S500000.Idx) : scale d i = cutoff (d i) := by
  show FloatOps.mulf (Scalar.select (FloatOps.cmpf .olt (d i) (lit 0x3F800000#32))
      (FloatOps.addf (FloatOps.addf (FloatOps.addf (FloatOps.hostDivf (lit 0x3F800000#32) (d i))
        (FloatOps.mulf (lit 0xC1E00000#32) (FloatOps.mulf (d i) (FloatOps.mulf (FloatOps.mulf (d i) (d i)) (FloatOps.mulf (d i) (d i))))))
        (FloatOps.mulf (lit 0x42400000#32) (FloatOps.mulf (FloatOps.mulf (d i) (d i)) (FloatOps.mulf (FloatOps.mulf (d i) (d i)) (FloatOps.mulf (d i) (d i))))))
        (FloatOps.mulf (lit 0xC1A80000#32) (FloatOps.mulf (FloatOps.mulf (d i) (FloatOps.mulf (d i) (d i))) (FloatOps.mulf (FloatOps.mulf (d i) (d i)) (FloatOps.mulf (d i) (d i))))))
      (lit 0x00000000#32)) (lit 0x3DB72DBF#32) = cutoff (d i)
  rw [pow5_regroup, pow6_regroup, pow7_regroup]
  rfl

/-! ## The two [7, 6] tables: entry (l, r) is word 6·l + r -/

/-- The first dense table, word by word (42 entries). -/
private theorem lit0_eq : ∀ k : Fin 42, lit0 k = zW k.val := by decide

/-- The second dense table, word by word (42 entries). -/
private theorem lit1_eq : ∀ k : Fin 42, lit1 k = bW k.val := by decide

/-- Entry (l, r) of the table of zeros sits at row-major position 6·l + r. -/
private theorem zTab_apply (l : Fin 7) (r : Fin 6) :
    (zTab : FVec Ideal S7x6 .f32) (ix2 l r) = lit (zW (6 * l.val + r.val)) := by
  have hv : (S7x6.rowMajor (ix2 l r)).val = 6 * l.val + r.val := by
    rw [Shape.rowMajor_val_two]
    show l.val * 6 + r.val = _
    omega
  exact congrArg lit ((lit0_eq (S7x6.rowMajor (ix2 l r))).trans (congrArg zW hv))

/-- Entry (l, r) of the table of normalisers sits at row-major position 6·l + r. -/
private theorem bTab_apply (l : Fin 7) (r : Fin 6) :
    (bTab : FVec Ideal S7x6 .f32) (ix2 l r) = lit (bW (6 * l.val + r.val)) := by
  have hv : (S7x6.rowMajor (ix2 l r)).val = 6 * l.val + r.val := by
    rw [Shape.rowMajor_val_two]
    show l.val * 6 + r.val = _
    omega
  exact congrArg lit ((lit1_eq (S7x6.rowMajor (ix2 l r))).trans (congrArg bW hv))

/-- The slice [l : l+1, 0 : 6] of a [7, 6] table, flattened to [6], at column r: the table at (l, r). The flattening keeps
    the row-major position (0·6 + r = r) and the slice shifts the row by l and the column by 0. -/
private theorem row_apply (tab : FVec Ideal S7x6 .f32) (l : Fin 7) (h : S7x6.Slices ![l.val, 0] S1x6) (r : Fin 6) :
    shapeCast S6 (extractStridedSlice S1x6 ![l.val, 0] tab h) shapeCasts_S1x6_S6 (ix1 r) = tab (ix2 l r) := by
  refine (shapeCast_apply _ shapeCasts_S1x6_S6 (ix1 r) (ix2 (0 : Fin 1) r) ?_).trans ?_
  · rw [Shape.rowMajor_val_two, Shape.rowMajor_val_one]
    show 0 * 6 + r.val = r.val
    omega
  · refine extractStridedSlice_apply _ tab h (ix2 (0 : Fin 1) r) (ix2 l r) ?_
    intro a
    match a with
    | ⟨0, _⟩ => rfl
    | ⟨1, _⟩ => show r.val = 0 + r.val; omega

/-- Row l of a [7, 6] table at column r, for each of the seven rows. -/
private theorem tabRow_apply (tab : FVec Ideal S7x6 .f32) (l : Fin 7) (r : Fin 6) : tabRow tab l (ix1 r) = tab (ix2 l r) := by
  match l with
  | ⟨0, _⟩ => exact row_apply tab ⟨0, by omega⟩ slices_S7x6_S1x6_0_0 r
  | ⟨1, _⟩ => exact row_apply tab ⟨1, by omega⟩ slices_S7x6_S1x6_1_0 r
  | ⟨2, _⟩ => exact row_apply tab ⟨2, by omega⟩ slices_S7x6_S1x6_2_0 r
  | ⟨3, _⟩ => exact row_apply tab ⟨3, by omega⟩ slices_S7x6_S1x6_3_0 r
  | ⟨4, _⟩ => exact row_apply tab ⟨4, by omega⟩ slices_S7x6_S1x6_4_0 r
  | ⟨5, _⟩ => exact row_apply tab ⟨5, by omega⟩ slices_S7x6_S1x6_5_0 r
  | ⟨6, _⟩ => exact row_apply tab ⟨6, by omega⟩ slices_S7x6_S1x6_6_0 r

/-! ## The spreads: a row down the edges, the distances across the columns, a block as a slab -/

/-- A vector [6] repeated down the edges reads, at (e, r), the vector at r. -/
private theorem downEdges_apply (v : FVec Ideal S6 .f32) (e : Fin 500000) (r : Fin 6) : downEdges v (ix2 e r) = v (ix1 r) := by
  refine (broadcastInDim_apply _ bcast_S1x6_S500000x6_0_1 _ (ix2 e r) (ix2 (0 : Fin 1) r) ?_).trans ?_
  · intro a
    match a with
    | ⟨0, _⟩ => rfl
    | ⟨1, _⟩ => rfl
  · refine broadcastInDim_apply _ bcast_S6_S1x6_1 v (ix2 (0 : Fin 1) r) (ix1 r) ?_
    intro a
    match a with
    | ⟨0, _⟩ => rfl

/-- The distances repeated across six columns read, at (e, r), the distance of edge e. -/
private theorem acrossCols_apply (d : FVec Ideal S500000 .f32) (e : Fin 500000) (r : Fin 6) : acrossCols d (ix2 e r) = d (ix1 e) := by
  refine (broadcastInDim_apply _ bcast_S500000x1_S500000x6_0_1 _ (ix2 e r) (ix2 e (0 : Fin 1)) ?_).trans ?_
  · intro a
    match a with
    | ⟨0, _⟩ => rfl
    | ⟨1, _⟩ => rfl
  · refine broadcastInDim_apply _ bcast_S500000_S500000x1_0 d (ix2 e (0 : Fin 1)) (ix1 e) ?_
    intro a
    match a with
    | ⟨0, _⟩ => rfl

/-- A block set as a slab [edges, 1, 6] reads, at (e, 0, r), the block at (e, r). -/
private theorem asSlab_apply (x : FVec Ideal S500000x6 .f32) (e : Fin 500000) (r : Fin 6) :
    asSlab x (ix3 e (0 : Fin 1) r) = x (ix2 e r) := by
  refine broadcastInDim_apply _ bcast_S500000x6_S500000x1x6_0_2 x (ix3 e (0 : Fin 1) r) (ix2 e r) ?_
  intro a
  match a with
  | ⟨0, _⟩ => rfl
  | ⟨1, _⟩ => rfl

/-- The scaled envelope spread [edges] → [edges, 1, 1] → [edges, 7, 6] reads, at (e, l, r), its value at edge e. -/
private theorem spread_apply (v : FVec Ideal S500000 .f32) (e : Fin 500000) (l : Fin 7) (r : Fin 6) :
    broadcastInDim S500000x7x6 ![0, 1, 2] bcast_S500000x1x1_S500000x7x6_0_1_2
      (broadcastInDim S500000x1x1 ![0] bcast_S500000_S500000x1x1_0 v) (ix3 e l r) = v (ix1 e) := by
  refine (broadcastInDim_apply _ bcast_S500000x1x1_S500000x7x6_0_1_2 _ (ix3 e l r) (ix3 e (0 : Fin 1) (0 : Fin 1)) ?_).trans ?_
  · intro a
    match a with
    | ⟨0, _⟩ => rfl
    | ⟨1, _⟩ => rfl
    | ⟨2, _⟩ => rfl
  · refine broadcastInDim_apply _ bcast_S500000_S500000x1x1_0 v (ix3 e (0 : Fin 1) (0 : Fin 1)) (ix1 e) ?_
    intro a
    match a with
    | ⟨0, _⟩ => rfl

/-! ## The Bessel recurrence on whole blocks, and the radial block -/

/-- The Bessel recurrence on whole blocks is the scalar recurrence at each element: orders n and n + 1 together, since
    step n + 2 uses both. -/
private theorem besselBlk_pair (x : FVec Ideal S500000x6 .f32) (i : S500000x6.Idx) :
    ∀ n : Nat, besselBlk n x i = bessel n (x i) ∧ besselBlk (n + 1) x i = bessel (n + 1) (x i)
  | 0 => ⟨rfl, rfl⟩
  | n + 1 => by
    obtain ⟨h0, h1⟩ := besselBlk_pair x i n
    refine ⟨h1, ?_⟩
    show FloatOps.subf (FloatOps.mulf (FloatOps.hostDivf (lit (oddW (n + 1))) (x i)) (besselBlk (n + 1) x i))
        (besselBlk n x i) = bessel (n + 2) (x i)
    rw [h0, h1]
    rfl

/-- The Bessel block of order n at an element. -/
private theorem besselBlk_apply (n : Nat) (x : FVec Ideal S500000x6 .f32) (i : S500000x6.Idx) :
    besselBlk n x i = bessel n (x i) := (besselBlk_pair x i n).1

/-- The radial block of order l at (e, r): b[l, r] · j_l(d[e] · z[l, r]). -/
private theorem radialBlk_apply (d : FVec Ideal S500000 .f32) (e : Fin 500000) (l : Fin 7) (r : Fin 6) :
    radialBlk d l (ix2 e r) = radial l.val (zW (6 * l.val + r.val)) (bW (6 * l.val + r.val)) (d (ix1 e)) := by
  show FloatOps.mulf (downEdges (tabRow bTab l) (ix2 e r))
      (besselBlk l.val (mulf (acrossCols d) (downEdges (tabRow zTab l))) (ix2 e r)) = _
  rw [besselBlk_apply]
  show FloatOps.mulf (downEdges (tabRow bTab l) (ix2 e r))
      (bessel l.val (FloatOps.mulf (acrossCols d (ix2 e r)) (downEdges (tabRow zTab l) (ix2 e r)))) = _
  rw [downEdges_apply, downEdges_apply, acrossCols_apply, tabRow_apply, tabRow_apply, zTab_apply, bTab_apply]
  rfl

/-! ## The stack of seven slabs -/

/-- Seven slabs [edges, 1, 6] stacked along the middle axis, read at (e, l, r): slab l at (e, 0, r). Slab l spans the
    middle coordinates [l, l + 1), the l slabs before it having extent 1 each. -/
private theorem slabs7_apply (c0 c1 c2 c3 c4 c5 c6 : FVec Ideal S500000x1x6 .f32) (e : Fin 500000) (l : Fin 7) (r : Fin 6) :
    concatenate S500000x7x6 1 [⟨S500000x1x6, c0⟩, ⟨S500000x1x6, c1⟩, ⟨S500000x1x6, c2⟩, ⟨S500000x1x6, c3⟩,
        ⟨S500000x1x6, c4⟩, ⟨S500000x1x6, c5⟩, ⟨S500000x1x6, c6⟩]
      concatenates_S500000x1x6_S500000x1x6_S500000x1x6_S500000x1x6_S500000x1x6_S500000x1x6_S500000x1x6_S500000x7x6_d1 (ix3 e l r)
    = (![c0, c1, c2, c3, c4, c5, c6] l) (ix3 e (0 : Fin 1) r) := by
  have key : ∀ (k : Nat) (hk : k < 7) (x : FVec Ideal S500000x1x6 .f32),
      ([⟨S500000x1x6, c0⟩, ⟨S500000x1x6, c1⟩, ⟨S500000x1x6, c2⟩, ⟨S500000x1x6, c3⟩, ⟨S500000x1x6, c4⟩,
        ⟨S500000x1x6, c5⟩, ⟨S500000x1x6, c6⟩] : List ((s : Shape) × (s.Idx → Ideal .f32)))[k]'(by simpa using hk)
        = ⟨S500000x1x6, x⟩ →
      l.val = k →
      concatenate S500000x7x6 1 [⟨S500000x1x6, c0⟩, ⟨S500000x1x6, c1⟩, ⟨S500000x1x6, c2⟩, ⟨S500000x1x6, c3⟩,
          ⟨S500000x1x6, c4⟩, ⟨S500000x1x6, c5⟩, ⟨S500000x1x6, c6⟩]
        concatenates_S500000x1x6_S500000x1x6_S500000x1x6_S500000x1x6_S500000x1x6_S500000x1x6_S500000x1x6_S500000x7x6_d1 (ix3 e l r)
        = x (ix3 e (0 : Fin 1) r) := by
    intro k hk x hx hl
    refine concatenate_apply_piece (1 : Fin 3) _ _ (ix3 e l r) k (by simpa using hk) S500000x1x6 x hx rfl k ?_
      (ix3 e (0 : Fin 1) r) ?_ ?_
    · interval_cases k <;> rfl
    · intro b hb
      match b, hb with
      | ⟨0, _⟩, _ => rfl
      | ⟨1, _⟩, hb => exact absurd rfl hb
      | ⟨2, _⟩, _ => rfl
    · show k + 0 = l.val
      omega
  match l with
  | ⟨0, _⟩ => exact key 0 (by omega) c0 rfl rfl
  | ⟨1, _⟩ => exact key 1 (by omega) c1 rfl rfl
  | ⟨2, _⟩ => exact key 2 (by omega) c2 rfl rfl
  | ⟨3, _⟩ => exact key 3 (by omega) c3 rfl rfl
  | ⟨4, _⟩ => exact key 4 (by omega) c4 rfl rfl
  | ⟨5, _⟩ => exact key 5 (by omega) c5 rfl rfl
  | ⟨6, _⟩ => exact key 6 (by omega) c6 rfl rfl

/-- The radial stack at (e, l, r): the radial block of order l at (e, r). -/
private theorem radialStack_apply (d : FVec Ideal S500000 .f32) (e : Fin 500000) (l : Fin 7) (r : Fin 6) :
    radialStack d (ix3 e l r) = radialBlk d l (ix2 e r) := by
  unfold radialStack
  rw [slabs7_apply]
  match l with
  | ⟨0, _⟩ => exact asSlab_apply (radialBlk d 0) e r
  | ⟨1, _⟩ => exact asSlab_apply (radialBlk d 1) e r
  | ⟨2, _⟩ => exact asSlab_apply (radialBlk d 2) e r
  | ⟨3, _⟩ => exact asSlab_apply (radialBlk d 3) e r
  | ⟨4, _⟩ => exact asSlab_apply (radialBlk d 4) e r
  | ⟨5, _⟩ => exact asSlab_apply (radialBlk d 5) e r
  | ⟨6, _⟩ => exact asSlab_apply (radialBlk d 6) e r

/-! ## The table -/

/-- The per-edge table at (e, l, r). -/
theorem edgeTable_apply (D : FVec Ideal S500000 .f32) (e : Fin 500000) (l : Fin 7) (r : Fin 6) :
    edgeTable D (ix3 e l r) = FloatOps.mulf (cutoff (rescale (D (ix1 e))))
      (radial l.val (zW (6 * l.val + r.val)) (bW (6 * l.val + r.val)) (rescale (D (ix1 e)))) := by
  show FloatOps.mulf (broadcastInDim S500000x7x6 ![0, 1, 2] bcast_S500000x1x1_S500000x7x6_0_1_2
      (broadcastInDim S500000x1x1 ![0] bcast_S500000_S500000x1x1_0 (scale (dist D))) (ix3 e l r))
    (radialStack (dist D) (ix3 e l r)) = _
  rw [spread_apply, scale_apply, radialStack_apply, radialBlk_apply, dist_apply]

end Cert.RefRead

end
-- ==== Proof.RefAngular.lean ====
/-
  The reference's angular table [triplets, 7] read at one element.

  Column l of the table is y[l] · P_l(cos θ) per triplet: the cosine of the angles, the Legendre recurrence run on whole
  vectors (every step pointwise), the scalar y[l] cut out of the [7] table and spread over the triplets, and the seven
  columns laid side by side. Read at (t, l) this is the scalar function angular l y[l] at the angle of triplet t.
-/
import proofs.«134738_j46024869543995_1_alg».proof.Proof.RefDefs
import Idealize.ShloMosaic.Lib.Pipeline.Value
import Idealize.ShloMosaic.Lib.ValueIdx

noncomputable section

namespace Cert.RefRead

open Idealize.ShloMosaic Idealize.ShloMosaic.ValueIdx Cert.ReferenceIdeal Cert.ReferenceIdeal.Gen Cert.Basis Cert.RefArr

/-- A literal spread over the triplets reads the literal at every triplet. -/
theorem perTriplet_apply (w : BitVec 32) (i : S2000000.Idx) :
    (perTriplet w : FVec Ideal S2000000 .f32) i = lit w := rfl

/-- The Legendre recurrence on whole vectors is the scalar recurrence at each triplet: orders n and n + 1 together. -/
theorem legendreVec_pair (c : FVec Ideal S2000000 .f32) (i : S2000000.Idx) :
    ∀ n : Nat, legendreVec n c i = legendre n (c i) ∧ legendreVec (n + 1) c i = legendre (n + 1) (c i)
  | 0 => ⟨rfl, rfl⟩
  | n + 1 => by
    obtain ⟨h0, h1⟩ := legendreVec_pair c i n
    refine ⟨h1, ?_⟩
    show FloatOps.hostDivf (FloatOps.subf (FloatOps.mulf (FloatOps.mulf (lit (legA (n + 2))) (c i)) (legendreVec (n + 1) c i))
        (FloatOps.mulf (lit (legB (n + 2))) (legendreVec n c i))) (lit (legC (n + 2))) = legendre (n + 2) (c i)
    rw [h0, h1]
    rfl

/-- The Legendre vector of order n at a triplet. -/
theorem legendreVec_apply (n : Nat) (c : FVec Ideal S2000000 .f32) (i : S2000000.Idx) :
    legendreVec n c i = legendre n (c i) := (legendreVec_pair c i n).1

/-- The cosine of the angles at a triplet. -/
theorem cos_apply (A : FVec Ideal S2000000 .f32) (i : S2000000.Idx) :
    (Host.cos A : FVec Ideal S2000000 .f32) i = FloatOps.cos (A i) := rfl

/-- The [7] table at entry l is the literal y[l]. -/
theorem yTab_apply (l : Fin 7) : (yTab : FVec Ideal S7 .f32) (ix1 l) = lit (yW l.val) := by
  match l with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- Entry l of the [7] table cut out as a scalar: its one element is the table at l. -/
theorem tabEntry_apply (cy : FVec Ideal S7 .f32) (l : Fin 7) (j : S_.Idx) : tabEntry cy l j = cy (ix1 l) := by
  have cut : ∀ (off : Fin S7.rank → Nat) (h : S7.Slices off S1), off 0 = l.val →
      shapeCast S_ (extractStridedSlice S1 off cy h) shapeCasts_S1_S_ j = cy (ix1 l) := by
    intro off h ho
    refine (shapeCast_apply _ _ j (ix1 (0 : Fin 1)) ?_).trans ?_
    · rfl
    · refine extractStridedSlice_apply off cy h (ix1 (0 : Fin 1)) (ix1 l) ?_
      intro a
      match a with
      | ⟨0, _⟩ => show l.val = off 0 + 0; omega
  match l with
  | ⟨0, _⟩ => exact cut _ _ rfl
  | ⟨1, _⟩ => exact cut _ _ rfl
  | ⟨2, _⟩ => exact cut _ _ rfl
  | ⟨3, _⟩ => exact cut _ _ rfl
  | ⟨4, _⟩ => exact cut _ _ rfl
  | ⟨5, _⟩ => exact cut _ _ rfl
  | ⟨6, _⟩ => exact cut _ _ rfl

/-- The angular column of order l at (t, 0): y[l] · P_l of the cosine at triplet t. -/
theorem angularCol_apply (c : FVec Ideal S2000000 .f32) (l : Fin 7) (t : Fin 2000000) :
    angularCol c l (ix2 t (0 : Fin 1)) = FloatOps.mulf (lit (yW l.val)) (legendre l.val (c (ix1 t))) := by
  unfold angularCol
  refine (broadcastInDim_apply _ _ _ (ix2 t (0 : Fin 1)) (ix1 t) ?_).trans ?_
  · intro a
    match a with
    | ⟨0, _⟩ => rfl
  · show FloatOps.mulf (broadcastInDim S2000000 ![] bcast_S_S2000000 (tabEntry yTab l) (ix1 t)) (legendreVec l.val c (ix1 t)) = _
    rw [legendreVec_apply, broadcastInDim_apply _ _ (tabEntry yTab l) (ix1 t) ix0 (fun a => a.elim0), tabEntry_apply, yTab_apply]

/-- Seven columns [triplets, 1] laid side by side, read at (t, l): column l at (t, 0). -/
theorem cols7_apply (cs : Fin 7 → FVec Ideal S2000000x1 .f32) (t : Fin 2000000) (l : Fin 7) :
    concatenate S2000000x7 1 [⟨S2000000x1, cs 0⟩, ⟨S2000000x1, cs 1⟩, ⟨S2000000x1, cs 2⟩, ⟨S2000000x1, cs 3⟩, ⟨S2000000x1, cs 4⟩, ⟨S2000000x1, cs 5⟩, ⟨S2000000x1, cs 6⟩]
      concatenates_S2000000x1_S2000000x1_S2000000x1_S2000000x1_S2000000x1_S2000000x1_S2000000x1_S2000000x7_d1 (ix2 t l) = cs l (ix2 t (0 : Fin 1)) := by
  have piece : ∀ (k : Nat) (hk : k < 7),
      ([⟨S2000000x1, cs 0⟩, ⟨S2000000x1, cs 1⟩, ⟨S2000000x1, cs 2⟩, ⟨S2000000x1, cs 3⟩, ⟨S2000000x1, cs 4⟩, ⟨S2000000x1, cs 5⟩, ⟨S2000000x1, cs 6⟩] : List ((s : Shape) × (s.Idx → Ideal .f32)))[k]'(by simpa using hk) = ⟨S2000000x1, cs ⟨k, hk⟩⟩ := by
    intro k hk
    interval_cases k <;> rfl
  refine concatenate_apply_piece (1 : Fin 2) _ _ (ix2 t l) l.val (by simpa using l.isLt) S2000000x1 (cs l) (piece l.val l.isLt) rfl
    l.val ?_ (ix2 t (0 : Fin 1)) ?_ ?_
  · obtain ⟨k, hk⟩ := l
    interval_cases k <;> rfl
  · intro b hb
    match b, hb with
    | ⟨0, _⟩, _ => rfl
    | ⟨1, _⟩, hb => exact absurd rfl hb
  · show l.val + 0 = l.val
    omega

/-- The angular table at (t, l). -/
theorem angularTable_apply (A : FVec Ideal S2000000 .f32) (t : Fin 2000000) (l : Fin 7) :
    angularTable A (ix2 t l) = angular l.val (yW l.val) (A (ix1 t)) := by
  refine (cols7_apply (angularCol (Host.cos A)) t l).trans ?_
  rw [angularCol_apply, cos_apply]
  rfl

end Cert.RefRead

end
-- ==== Proof.LibSlab.lean ====
/-
  A host gather of whole slabs of a rank-3 array, read at an index.

  The operand is an array `[N, A, B]`, the start indices are `[R, 1]` (one slab number per result slab) and the result
  is `[R, A, B]`: result slab `k` is the operand's slab whose number is the start index `idx[k, 0]`, read signed and
  clamped into `[0, N − 1]`. Read at one element `(k, a, b)` the result is element `(a, b)` of that slab. A lookup of
  per-node `[A, B]` tables at the ends of edges has this shape.
-/
import Idealize.ShloMosaic.PureOps.Ideal
import Idealize.ShloMosaic.Lib.ValueIdx

namespace Cert.LibSlab

open Idealize.ShloMosaic Idealize.ShloMosaic.ValueIdx

section SlabGather
variable {α : Type}

/-- The dimension numbers of a gather of whole slabs: operand `[N, A, B]`, start indices `[R, 1]` (one slab number
    per result slab), result `[R, A, B]`; axis 0 of the operand is collapsed and indexed, axes 1 and 2 of the result
    are the offset axes and read the operand's axes 1 and 2, the slice is one whole slab. The conditions `wf` are
    decided on a program's literal shapes. -/
abbrev slabGatherDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT `(k, a, b)`: element `(a, b)` of the operand's slab whose number is the start index
    `idx[k, 0]`, read signed and clamped into `[0, N − 1]`. -/
theorem gather_slab_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (k : Fin R) (a : Fin A) (b : Fin B) :
    Host.gather (slabGatherDims N A B R wf) x idx (ix3 k a b)
      = x (ix3 ⟨min (idx (ix2 k (0 : Fin 1))).toInt.toNat (N - 1), by omega⟩ a b) := by
  -- the start on axis 0: the clamped start index; on the axes 1 and 2 (not in the start index map): zero
  have hst0 : (slabGatherDims N A B R wf).start (ix3 k a b) idx (0 : Fin 3)
      = min (idx (ix2 k (0 : Fin 1))).toInt.toNat (N - 1) := by
    unfold GatherDims.start
    rw [dif_pos (show (0 : Fin 3) ∈ (slabGatherDims N A B R wf).startIndexMap from List.mem_singleton.mpr rfl)]
    have hsi : (slabGatherDims N A B R wf).siIdx (ix3 k a b)
        ⟨List.idxOf (0 : Fin 3) (slabGatherDims N A B R wf).startIndexMap,
          List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl
  have hst1 : (slabGatherDims N A B R wf).start (ix3 k a b) idx (1 : Fin 3) = 0 := by
    unfold GatherDims.start
    exact dif_neg (show (1 : Fin 3) ∉ ([0] : List (Fin 3)) from by decide)
  have hst2 : (slabGatherDims N A B R wf).start (ix3 k a b) idx (2 : Fin 3) = 0 := by
    unfold GatherDims.start
    exact dif_neg (show (2 : Fin 3) ∉ ([0] : List (Fin 3)) from by decide)
  -- the offset coordinate: zero on the collapsed axis 0, the result's coordinates on the axes 1 and 2
  have hoff0 : (slabGatherDims N A B R wf).offCoord (ix3 k a b) (0 : Fin 3) = 0 :=
    GatherDims.offCoord_eq_zero _ _ _ (fun h => ((GatherDims.mem_sKept _ _).mp h).1 (List.mem_singleton.mpr rfl))
  have hoff1 : (slabGatherDims N A B R wf).offCoord (ix3 k a b) (1 : Fin 3) = a.val := by
    unfold GatherDims.offCoord
    rw [dif_pos ((GatherDims.mem_sKept (slabGatherDims N A B R wf) (1 : Fin 3)).mpr
      ⟨(show (1 : Fin 3) ∉ ([0] : List (Fin 3)) from by decide), List.not_mem_nil⟩)]
    rfl
  have hoff2 : (slabGatherDims N A B R wf).offCoord (ix3 k a b) (2 : Fin 3) = b.val := by
    unfold GatherDims.offCoord
    rw [dif_pos ((GatherDims.mem_sKept (slabGatherDims N A B R wf) (2 : Fin 3)).mpr
      ⟨(show (2 : Fin 3) ∉ ([0] : List (Fin 3)) from by decide), List.not_mem_nil⟩)]
    rfl
  unfold Host.gather
  congr 1
  funext c
  refine Fin.ext ?_
  match c with
  | ⟨0, _⟩ =>
    show (slabGatherDims N A B R wf).start (ix3 k a b) idx (0 : Fin 3)
      + (slabGatherDims N A B R wf).batchCoord (ix3 k a b) (0 : Fin 3)
      + (slabGatherDims N A B R wf).offCoord (ix3 k a b) (0 : Fin 3) = min (idx (ix2 k (0 : Fin 1))).toInt.toNat (N - 1)
    rw [GatherDims.batchCoord_eq_zero _ _ _ List.not_mem_nil, hst0, hoff0]
    rfl
  | ⟨1, _⟩ =>
    show (slabGatherDims N A B R wf).start (ix3 k a b) idx (1 : Fin 3)
      + (slabGatherDims N A B R wf).batchCoord (ix3 k a b) (1 : Fin 3)
      + (slabGatherDims N A B R wf).offCoord (ix3 k a b) (1 : Fin 3) = a.val
    rw [GatherDims.batchCoord_eq_zero _ _ _ List.not_mem_nil, hst1, hoff1]
    omega
  | ⟨2, _⟩ =>
    show (slabGatherDims N A B R wf).start (ix3 k a b) idx (2 : Fin 3)
      + (slabGatherDims N A B R wf).batchCoord (ix3 k a b) (2 : Fin 3)
      + (slabGatherDims N A B R wf).offCoord (ix3 k a b) (2 : Fin 3) = b.val
    rw [GatherDims.batchCoord_eq_zero _ _ _ List.not_mem_nil, hst2, hoff2]
    omega

/-- The same for any dimension numbers whose fields are those of a gather of slabs (a printed record's are, each by
    `rfl`). -/
theorem gather_slab_apply_of {N A B R w : Nat} (hN : 0 < N)
    (d : GatherDims ⟨3, ![N, A, B]⟩ ⟨2, ![R, 1]⟩ ⟨3, ![R, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![R, 1]⟩ w) (k : Fin R) (a : Fin A) (b : Fin B) :
    Host.gather d x idx (ix3 k a b)
      = x (ix3 ⟨min (idx (ix2 k (0 : Fin 1))).toInt.toNat (N - 1), by omega⟩ a b) := by
  obtain ⟨od, cd, ob, sb, sm, iv, ss, wf⟩ := d
  dsimp only at h1 h2 h3 h4 h5 h6 h7
  subst h1 h2 h3 h4 h5 h6 h7
  exact gather_slab_apply hN wf x idx k a b

end SlabGather

end Cert.LibSlab
-- ==== Proof.RefResult.lean ====
/-
  The reference's result is the specification's table.

  Element (t, k) of the flattened result is element (t, k / 6, k % 6) of the product of the gathered slabs with the
  angular columns: the gather reads slab edge(t) of the per-edge table (the start index read signed, shifted when
  negative, clamped into the table), so the element is the per-edge value at (edge(t), k / 6, k % 6) times the angular
  value at (t, k / 6), and 6 · (k / 6) + k % 6 = k names the table entries.
-/
import proofs.«134738_j46024869543995_1_alg».proof.Proof.RefRadial
import proofs.«134738_j46024869543995_1_alg».proof.Proof.RefAngular
import proofs.«134738_j46024869543995_1_alg».proof.Proof.LibSlab
import Idealize.ShloMosaic.Lib.Pipeline.Value
import Idealize.ShloMosaic.Lib.ValueIdx

noncomputable section

namespace Cert.RefRead

open Idealize.ShloMosaic Idealize.ShloMosaic.ValueIdx Cert.ReferenceIdeal Cert.ReferenceIdeal.Gen Cert.Basis Cert.RefArr

/-- The start index the gather takes for triplet t: the triplet's index, shifted when negative. -/
theorem starts_apply (I : IVec S2000000 32) (t : Fin 2000000) :
    starts I (ix2 t (0 : Fin 1)) = shifted (I (ix1 t)) := by
  unfold starts
  refine (broadcastInDim_apply _ _ _ (ix2 t (0 : Fin 1)) (ix1 t) ?_).trans ?_
  · intro a
    match a with
    | ⟨0, _⟩ => rfl
  · rfl

/-- The angular table spread over the six columns of every slab, read at (t, l, r): the table at (t, l). -/
theorem angularSpread_apply (x : FVec Ideal S2000000x7 .f32) (t : Fin 2000000) (l : Fin 7) (r : Fin 6) :
    broadcastInDim S2000000x7x6 ![0, 1, 2] bcast_S2000000x7x1_S2000000x7x6_0_1_2
      (broadcastInDim S2000000x7x1 ![0, 1] bcast_S2000000x7_S2000000x7x1_0_1 x) (ix3 t l r) = x (ix2 t l) := by
  refine (broadcastInDim_apply _ _ _ (ix3 t l r) (ix3 t l (0 : Fin 1)) ?_).trans ?_
  · intro a
    match a with
    | ⟨0, _⟩ => rfl
    | ⟨1, _⟩ => rfl
    | ⟨2, _⟩ => rfl
  · refine broadcastInDim_apply _ _ _ (ix3 t l (0 : Fin 1)) (ix2 t l) ?_
    intro a
    match a with
    | ⟨0, _⟩ => rfl
    | ⟨1, _⟩ => rfl

/-- The gathered slabs read at (t, l, r): the per-edge table at (edge(t), l, r), the start index read signed, shifted
    when negative and clamped into the table. -/
theorem gathered_apply (D : FVec Ideal S500000 .f32) (I : IVec S2000000 32) (t : Fin 2000000) (l : Fin 7) (r : Fin 6) :
    Host.gather gather_S500000x7x6_S2000000x1_S2000000x7x6_12_0_n_n_0_1_176 (edgeTable D) (starts I) (ix3 t l r)
      = edgeTable D (ix3 (edge (I (ix1 t))) l r) := by
  refine (Cert.LibSlab.gather_slab_apply_of (by omega) gather_S500000x7x6_S2000000x1_S2000000x7x6_12_0_n_n_0_1_176
    rfl rfl rfl rfl rfl rfl rfl (edgeTable D) (starts I) t l r).trans ?_
  refine congrArg (fun e : Fin 500000 => edgeTable D (ix3 e l r)) (Fin.ext ?_)
  show min (starts I (ix2 t (0 : Fin 1))).toInt.toNat (500000 - 1) = min (shifted (I (ix1 t))).toInt.toNat (500000 - 1)
  rw [starts_apply]

/-- The reference's result, as a function of its three arguments, is the table of the specification. -/
theorem result_eq (D : FVec Ideal S500000 .f32) (A : FVec Ideal S2000000 .f32) (I : IVec S2000000 32) :
    Cert.RefArr.result D A I = Cert.Basis.table D A I := by
  funext j
  obtain ⟨t, k, rfl⟩ : ∃ (t : Fin 2000000) (k : Fin 42), j = ix2 t k := ⟨j 0, j 1, eq_ix2 j⟩
  have hl : k.val / 6 < 7 := by have := k.isLt; omega
  have hr : k.val % 6 < 6 := Nat.mod_lt _ (by omega)
  have h6 : 6 * (k.val / 6) + k.val % 6 = k.val := Nat.div_add_mod _ _
  unfold result
  refine (shapeCast_apply _ _ (ix2 t k) (ix3 t (⟨k.val / 6, hl⟩ : Fin 7) (⟨k.val % 6, hr⟩ : Fin 6)) ?_).trans ?_
  · rw [Shape.rowMajor_val_three, Shape.rowMajor_val_two]
    show (t.val * 7 + k.val / 6) * 6 + k.val % 6 = t.val * 42 + k.val
    omega
  · show FloatOps.mulf
        (Host.gather gather_S500000x7x6_S2000000x1_S2000000x7x6_12_0_n_n_0_1_176 (edgeTable D) (starts I)
          (ix3 t (⟨k.val / 6, hl⟩ : Fin 7) (⟨k.val % 6, hr⟩ : Fin 6)))
        (broadcastInDim S2000000x7x6 ![0, 1, 2] bcast_S2000000x7x1_S2000000x7x6_0_1_2
          (broadcastInDim S2000000x7x1 ![0, 1] bcast_S2000000x7_S2000000x7x1_0_1 (angularTable A))
          (ix3 t (⟨k.val / 6, hl⟩ : Fin 7) (⟨k.val % 6, hr⟩ : Fin 6))) = _
    rw [angularSpread_apply, angularTable_apply, gathered_apply, edgeTable_apply]
    show FloatOps.mulf (FloatOps.mulf (cutoff (rescale (D (ix1 (edge (I (ix1 t)))))))
          (radial (k.val / 6) (zW (6 * (k.val / 6) + k.val % 6)) (bW (6 * (k.val / 6) + k.val % 6))
            (rescale (D (ix1 (edge (I (ix1 t))))))))
        (angular (k.val / 6) (yW (k.val / 6)) (A (ix1 t))) = table D A I (ix2 t k)
    rw [h6]
    rfl

end Cert.RefRead

end
-- ==== Proof.lean ====
/-
  Both programs compute one table.

  For a triplet t let e be the edge its start index selects (read signed, a negative one shifted by 500000, clamped into
  [0, 499999]), d = D[e] · (1/5) and θ = Angle[t]. Element (t, 6·l + r) of the result is
      ( u(d) · c ) · ( b[l,r] · j_l( d · z[l,r] ) ) · ( y[l] · P_l(cos θ) ),
  with u the polynomial envelope cut to zero at d ≥ 1, j_l the spherical Bessel function by its upward recurrence and P_l
  the Legendre polynomial by Bonnet's recurrence, every operation the exact one on the extended reals.

  The kernel gathers the scalar distance per triplet first and evaluates the formula on blocks of 3200 triplets, one
  store per order l; the reference evaluates the radial part per edge, gathers whole [7, 6] slabs per triplet and
  multiplies by the angular part. A gather commutes with a pointwise function, both gathers read the same clamped row,
  and the two programs differ otherwise only in how they group the powers d⁵, d⁶, d⁷, which is associativity of the
  product. No finiteness of the inputs is used: the two results agree on all extended reals and all integer indices.
-/
import proofs.«134738_j46024869543995_1_alg».proof.Defs
import proofs.«134738_j46024869543995_1_alg».proof.Proof.Gen.Kernel
import proofs.«134738_j46024869543995_1_alg».proof.Proof.Gen.Kernel.Frame
import proofs.«134738_j46024869543995_1_alg».proof.Proof.Gen.KernelIdeal
import proofs.«134738_j46024869543995_1_alg».proof.Proof.Gen.KernelIdeal.Frame
import proofs.«134738_j46024869543995_1_alg».proof.Proof.Gen.ReferenceIdeal
import proofs.«134738_j46024869543995_1_alg».proof.Proof.Gen.Pre_finite_inputs
import proofs.«134738_j46024869543995_1_alg».proof.Proof.KValue
import proofs.«134738_j46024869543995_1_alg».proof.Proof.RefRun
import proofs.«134738_j46024869543995_1_alg».proof.Proof.RefResult

noncomputable section

namespace Cert.Proof

open Idealize.ShloMosaic Idealize.ShloMosaic.TcCoe Idealize.SL.Sem

/-- The word-level kernel runs and leaves its arguments unchanged. -/
theorem frame_k [Cert.Kernel.Facts] [Cert.Pre_finite_inputs.Facts] : Cert.frame_Kernel :=
  fun m ρ _ => Cert.Kernel.Gen.frame m ρ

/-- So does the kernel read over the extended reals. -/
theorem frame_ki [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefRun.run m ρ)

/-- Both runs end with the result at the table of the arguments; the arguments agree, so the tables do. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KValue.spec m c, Cert.KValue.run m ρ, ?_⟩
  refine (θ_run Cert.ReferenceIdeal.defs _ _).mono (fun _ h c => ⟨(h c).1.trans ?_, (h c).2⟩) (Cert.RefRun.run m' ρ')
  rw [Cert.RefRead.result_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
